-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S16x512x512 : Shape := ⟨3, ![16, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x4x512x512 .f32) (main_arg1 : IVec S16x512x512 32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 4#32
  let main_v6 : IVec S16x512x512 32 := broadcastInDim S16x512x512 ![] bcast_S_S16x512x512 main_c_1
  let main_v7 : IVec S16x512x512 1 := cmpi .slt main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S16x4x512x512 : Shape := ⟨4, ![16, 4, 512, 512]⟩
abbrev S16x512x512 : Shape := ⟨3, ![16, 512, 512]⟩
abbrev S16x1x128 : Shape := ⟨3, ![16, 1, 128]⟩
abbrev S1x4x512x512 : Shape := ⟨4, ![1, 4, 512, 512]⟩
abbrev S1x512x512 : Shape := ⟨3, ![1, 512, 512]⟩
abbrev S1x1x128 : Shape := ⟨3, ![1, 1, 128]⟩
abbrev S1x1x512x512 : Shape := ⟨4, ![1, 1, 512, 512]⟩
abbrev S1x4x512 : Shape := ⟨3, ![1, 4, 512]⟩
abbrev S1x4x512x1 : Shape := ⟨4, ![1, 4, 512, 1]⟩
abbrev S1x4x1 : Shape := ⟨3, ![1, 4, 1]⟩
abbrev S1x4x1x1 : Shape := ⟨4, ![1, 4, 1, 1]⟩
abbrev S1x1x1 : Shape := ⟨3, ![1, 1, 1]⟩
abbrev S1x1x1x1 : Shape := ⟨4, ![1, 1, 1, 1]⟩
abbrev S1x1 : Shape := ⟨2, ![1, 1]⟩
abbrev S1x1x512 : Shape := ⟨3, ![1, 1, 512]⟩
abbrev S1x1x512x1 : Shape := ⟨4, ![1, 1, 512, 1]⟩
abbrev S1x512 : Shape := ⟨2, ![1, 512]⟩
abbrev S1x512x1 : Shape := ⟨3, ![1, 512, 1]⟩
abbrev S16x128 : Shape := ⟨2, ![16, 128]⟩
abbrev S16x1 : Shape := ⟨2, ![16, 1]⟩
abbrev S16 : Shape := ⟨1, ![16]⟩
abbrev S_ : Shape := ⟨0, ![]⟩

abbrev nBuf : Space → Nat
  | .hbm => 43
  | .vmem => 6
  | .smem => 0
  | _ => 0

abbrev bufTy : (tb : Table) → Fin (tcTables nBuf tb) → BufTy
  | .hbm, ⟨0, _⟩ => ⟨S16x4x512x512, .f32⟩
  | .hbm, ⟨1, _⟩ => ⟨S16x512x512, .i32⟩
  | .hbm, ⟨2, _⟩ => ⟨S16x1x128, .f32⟩
  | .hbm, ⟨3, _⟩ => ⟨S16x128, .f32⟩
  | .hbm, ⟨4, _⟩ => ⟨S16x1, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S16x1, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S16x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S16x1, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x4x512x512, .f32⟩
  | .local _ .vmem, ⟨1, _⟩ => ⟨S1x4x512x512, .f32⟩
  | .local _ .vmem, ⟨2, _⟩ => ⟨S1x512x512, .i32⟩
  | .local _ .vmem, ⟨3, _⟩ => ⟨S1x512x512, .i32⟩
  | .local _ .vmem, ⟨4, _⟩ => ⟨S1x1x128, .f32⟩
  | .local _ .vmem, ⟨5, _⟩ => ⟨S1x1x128, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4x512x512_S1x4x512x512_0_0_0_0 : ∀ a, (![0, 0, 0, 0] : Fin 4 → Nat) a + S1x4x512x512.size a ≤ S1x4x512x512.size a
  h_S1x4x512x512 : 0 < S1x4x512x512.numel
  inb_S1x512x512_S1x512x512_0_0_0 : ∀ a, (![0, 0, 0] : Fin 3 → Nat) a + S1x512x512.size a ≤ S1x512x512.size a
  h_S1x512x512 : 0 < S1x512x512.numel
  reduces_S1x4x512x512_S1x512x512 : S1x4x512x512.Reduces [1] S1x512x512
  shapeCasts_S1x512x512_S1x1x512x512 : S1x512x512.ShapeCasts S1x1x512x512
  broadcasts_S1x1x512x512_S1x4x512x512 : S1x1x512x512.Broadcasts S1x4x512x512
  iota_S1x4x512x512_d1_w32 : S1x4x512x512.Iotas .tc 32 [1]
  reduces_S1x4x512x512_S1x4x512 : S1x4x512x512.Reduces [3] S1x4x512
  shapeCasts_S1x4x512_S1x4x512x1 : S1x4x512.ShapeCasts S1x4x512x1
  reduces_S1x4x512x1_S1x4x1 : S1x4x512x1.Reduces [2] S1x4x1
  shapeCasts_S1x4x1_S1x4x1x1 : S1x4x1.ShapeCasts S1x4x1x1
  reduces_S1x4x1x1_S1x1x1 : S1x4x1x1.Reduces [1] S1x1x1
  shapeCasts_S1x1x1_S1x1x1x1 : S1x1x1.ShapeCasts S1x1x1x1
  reduces_S1x1x1x1_S1x1x1 : S1x1x1x1.Reduces [0] S1x1x1
  shapeCasts_S1x1x1x1_S1x1x1 : S1x1x1x1.ShapeCasts S1x1x1
  shapeCasts_S1x1x1_S1x1 : S1x1x1.ShapeCasts S1x1
  reduces_S1x1x512x512_S1x1x512 : S1x1x512x512.Reduces [3] S1x1x512
  shapeCasts_S1x1x512_S1x1x512x1 : S1x1x512.ShapeCasts S1x1x512x1
  reduces_S1x1x512x1_S1x1x1 : S1x1x512x1.Reduces [2] S1x1x1
  reduces_S1x1x1x1_S1x1x1_2 : S1x1x1x1.Reduces [1] S1x1x1
  reduces_S1x512x512_S1x512 : S1x512x512.Reduces [2] S1x512
  shapeCasts_S1x512_S1x512x1 : S1x512.ShapeCasts S1x512x1
  reduces_S1x512x1_S1x1 : S1x512x1.Reduces [1] S1x1
  shapeCasts_S1x1_S1x1x1 : S1x1.ShapeCasts S1x1x1
  reduces_S1x1x1_S1x1 : S1x1x1.Reduces [0] S1x1
  natLt_1_32 : 1 < 32
  iota_S1x1x128_d2_w32 : S1x1x128.Iotas .tc 32 [2]
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  shapeCasts_S16x1x128_S16x128 : S16x1x128.ShapeCasts S16x128
  slices_S16x128_S16x1_0_0 : S16x128.Slices ![0, 0] S16x1
  shapeCasts_S16x1_S16 : S16x1.ShapeCasts S16
  reducesTo_S16_S_d0 : S16.ReducesTo [0] S_
  h_S_ : 0 < S_.numel
  slices_S16x128_S16x1_0_1 : S16x128.Slices ![0, 1] S16x1
  slices_S16x128_S16x1_0_2 : S16x128.Slices ![0, 2] S16x1
  slices_S16x128_S16x1_0_3 : S16x128.Slices ![0, 3] S16x1
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S16x4x512x512.size a
  hwx0_0 : ∀ i : grid0.Coords, EltTy.bits .f32 = 32 ∨ (Rect.block (s := S16x4x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .i32 = 32 ∨ (Rect.block (s := S16x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S16 : Shape := ⟨1, ![16]⟩

abbrev nBuf : Space → Nat
  | .hbm => 81
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S16x512x512, .i32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S16x512x512, .f32⟩
  | .hbm, ⟨6, _⟩ => ⟨S16x512x512, .f32⟩
  | .hbm, ⟨7, _⟩ => ⟨S16x1x512x512, .f32⟩
  | .hbm, ⟨8, _⟩ => ⟨S16x4x512x512, .f32⟩
  | .hbm, ⟨9, _⟩ => ⟨S16x4x512x512, .f32⟩
  | .hbm, ⟨10, _⟩ => ⟨S16x4x512x512, .f32⟩
  | .hbm, ⟨11, _⟩ => ⟨S_, .f32⟩
  | .hbm, ⟨12, _⟩ => ⟨S16x512x512, .f32⟩
  | .hbm, ⟨13, _⟩ => ⟨S16x1x512x512, .f32⟩
  | .hbm, ⟨14, _⟩ => ⟨S16x1x512x512, .f32⟩
  | .hbm, ⟨15, _⟩ => ⟨S16x4x512x512, .f32⟩
  | .hbm, ⟨16, _⟩ => ⟨S16x4x512x512, .f32⟩
  | .hbm, ⟨17, _⟩ => ⟨S16x1x512x512, .i32⟩
  | .hbm, ⟨18, _⟩ => ⟨S_, .i32⟩
  | .hbm, ⟨19, _⟩ => ⟨S16x1x512x512, .i32⟩
  | .hbm, ⟨20, _⟩ => ⟨S16x1x512x512, .i1⟩
  | .hbm, ⟨21, _⟩ => ⟨S_, .i32⟩
  | .hbm, ⟨22, _⟩ => ⟨S16x1x512x512, .i32⟩
  | .hbm, ⟨23, _⟩ => ⟨S16x1x512x512, .i32⟩
  | .hbm, ⟨24, _⟩ => ⟨S16x1x512x512, .i32⟩
  | .hbm, ⟨25, _⟩ => ⟨S16x1x512x512x1, .i32⟩
  | .hbm, ⟨26, _⟩ => ⟨S1, .i32⟩
  | .hbm, ⟨27, _⟩ => ⟨S_, .i32⟩
  | .hbm, ⟨28, _⟩ => ⟨S16x1x512x512x1, .i32⟩
  | .hbm, ⟨29, _⟩ => ⟨S16x1x512x512x1, .i1⟩
  | .hbm, ⟨30, _⟩ => ⟨S1x1x1x1x1, .i32⟩
  | .hbm, ⟨31, _⟩ => ⟨S16x1x512x512x1, .i32⟩
  | .hbm, ⟨32, _⟩ => ⟨S16x1x512x512x1, .i1⟩
  | .hbm, ⟨33, _⟩ => ⟨S16x1x512x512x1, .i1⟩
  | .hbm, ⟨34, _⟩ => ⟨S_, .i1⟩
  | .hbm, ⟨35, _⟩ => ⟨S16x1x512x512, .i1⟩
  | .hbm, ⟨36, _⟩ => ⟨S16x1x512x512, .f32⟩
  | .hbm, ⟨37, _⟩ => ⟨S_, .f32⟩
  | .hbm, ⟨38, _⟩ => ⟨S16x1x512x512, .f32⟩
  | .hbm, ⟨39, _⟩ => ⟨S16x1x512x512, .f32⟩
  | .hbm, ⟨40, _⟩ => ⟨S16x512x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16x1x512x512, .i32⟩
  | .hbm, ⟨47, _⟩ => ⟨S16x1x512x512, .f32⟩
  | .hbm, ⟨48, _⟩ => ⟨S16x4x512x512, .f32⟩
  | .hbm, ⟨49, _⟩ => ⟨S16x4x512x512, .i1⟩
  | .hbm, ⟨50, _⟩ => ⟨S16x4x512x512, .i32⟩
  | .hbm, ⟨51, _⟩ => ⟨S_, .i32⟩
  | .hbm, ⟨52, _⟩ => ⟨S16, .i32⟩
  | .hbm, ⟨53, _⟩ => ⟨S16, .f32⟩
  | .hbm, ⟨54, _⟩ => ⟨S_, .f32⟩
  | .hbm, ⟨55, _⟩ => ⟨S_, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_c_2 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_3 : Ref sig .tc := ⟨.hbm, 60, rfl⟩
abbrev main_v18 : Ref sig .tc := ⟨.hbm, 61, rfl⟩
abbrev main_v19 : Ref sig .tc := ⟨.hbm, 62, rfl⟩
abbrev main_cst_4 : Ref sig .tc := ⟨.hbm, 63, rfl⟩
abbrev main_v20 : Ref sig .tc := ⟨.hbm, 64, rfl⟩
abbrev main_v21 : Ref sig .tc := ⟨.hbm, 65, rfl⟩
abbrev main_cst_5 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_6 : Ref sig .tc := ⟨.hbm, 70, rfl⟩
abbrev main_v25 : Ref sig .tc := ⟨.hbm, 71, rfl⟩
abbrev main_cst_7 : Ref sig .tc := ⟨.hbm, 72, rfl⟩
abbrev main_v26 : Ref sig .tc := ⟨.hbm, 73, rfl⟩
abbrev main_cst_8 : Ref sig .tc := ⟨.hbm, 74, rfl⟩
abbrev main_v27 : Ref sig .tc := ⟨.hbm, 75, rfl⟩
abbrev main_cst_9 : Ref sig .tc := ⟨.hbm, 76, rfl⟩
abbrev main_v28 : Ref sig .tc := ⟨.hbm, 77, rfl⟩
abbrev main_cst_10 : Ref sig .tc := ⟨.hbm, 78, rfl⟩
abbrev main_v29 : Ref sig .tc := ⟨.hbm, 79, rfl⟩
abbrev main_v30 : Ref sig .tc := ⟨.hbm, 80, rfl⟩

abbrev nD : Nat := 1
abbrev τ : Topo := Topo.v7x

variable {F : FTy → Type} [FloatOps F]

class Facts₀ : Prop where
  reducesTo_S16x4x512x512_S16x512x512_d1 : S16x4x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x4x512x512_0_1_2_3 : S16x1x512x512.BroadcastsInDim S16x4x512x512 (![0, 1, 2, 3] : Fin 4 → Fin S16x4x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  reducesTo_S16x512x512_S_d0_1_2 : S16x512x512.ReducesTo [0, 1, 2] S_
  natLt_1_32 : 1 < 32
  reducesTo_S16x4x512x512_S16_d1_2_3 : S16x4x512x512.ReducesTo [1, 2, 3] S16
  reducesTo_S16x4x512x512_S_d0_1_2_3 : S16x4x512x512.ReducesTo [0, 1, 2, 3] S_
  bcast_S_S16 : S_.BroadcastsInDim S16 (![] : Fin 0 → Fin S16.rank)
  reducesTo_S16_S_d0 : S16.ReducesTo [0] S_
  gather_S16x4x512x512_S16x1x512x512x1_S16x1x512x512_n_1_023_023_1_4_1111_wf : GatherDims.WF S16x4x512x512 S16x1x512x512x1 S16x1x512x512 [] [1] [0, 2, 3] [1] [0, 2, 3] 4 ![1, 1, 1, 1]

variable [Facts₀]

def gather_S16x4x512x512_S16x1x512x512x1_S16x1x512x512_n_1_023_023_1_4_1111 : GatherDims S16x4x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x4x512x512_S16x1x512x512x1_S16x1x512x512_n_1_023_023_1_4_1111_wf

class Facts : Prop extends Facts₀ where

variable [Facts]
-- ==== Proof.Spec.lean ====
/-
  The mathematics both programs compute, stated once over literal shapes, with no program in sight.

  The inputs are class scores `p` (16 samples × 4 classes × 512 × 512 pixels, extended reals) and labels `t`
  (16 × 512 × 512 words). The loss is  ½ · CE + ½ · Dice  where

    CE   = −(1 / 2²²) · Σ over samples and pixels of  log-softmax(p)[label]        (2²² = 16 · 512 · 512 pixels),
    Dice = 1 − (1/16) · Σ over samples n of (2 · I n + ε) / (U + ε),
    I n  = the number of (class, pixel) places of sample n whose score EQUALS the pixel's label read as a number,
    U    = (the sum of all scores) + (the sum of all labels).

  One program gets there sample by sample: for each sample it forms four numbers — the sum of the scores at
  the pixels' own labels minus the sum of the pixels' log-sum-exp; the sum of the sample's scores; the sum of
  its labels; its count of equalities — and a short tail adds them over the samples (`lossK`). The other works
  on the whole arrays, gathers the label's log-probability per pixel, counts and sums the labels in integer
  arithmetic and converts afterwards (`lossR` of `refCE`, `refCount`, `refUnion`). The two tails differ in one
  place only: −(S) / 2²² against −(S / 2²²).
-/
import Idealize.ShloMosaic.PureOps.Ideal.Laws
import Idealize.ShloMosaic.Lib.ValueIdx

noncomputable section

namespace Cert.Spec

open Idealize.ShloMosaic Idealize.ShloMosaic.ValueIdx

/-! ## Shapes -/

/-- scores: sample, class, row, column -/
abbrev SP : Shape := ⟨4, ![16, 4, 512, 512]⟩
/-- labels: sample, row, column -/
abbrev ST : Shape := ⟨3, ![16, 512, 512]⟩
/-- one sample's scores -/
abbrev SPb : Shape := ⟨4, ![1, 4, 512, 512]⟩
/-- one sample's labels -/
abbrev STb : Shape := ⟨3, ![1, 512, 512]⟩
/-- one value per sample -/
abbrev SN : Shape := ⟨1, ![16]⟩

/-! ## One sample: the four numbers -/

/-- The largest of a pixel's four class scores. -/
def pixMax (x0 : SPb.Idx → EReal) (j : STb.Idx) : EReal :=
  (Finset.univ : Finset (Fin 4)).fold max ⊥ (fun c => x0 (ix4 (j 0) c (j 1) (j 2)))

/-- Σ over the classes of exp (score − the pixel's largest score). -/
def pixSumExp (x0 : SPb.Idx → EReal) (j : STb.Idx) : EReal :=
  ∑ c : Fin 4, Ideal.exp (x0 (ix4 (j 0) c (j 1) (j 2)) - pixMax x0 j)

/-- A pixel's log-sum-exp: log of that sum, plus the largest score. -/
def pixLse (x0 : SPb.Idx → EReal) (j : STb.Idx) : EReal :=
  Ideal.log (pixSumExp x0 j) + pixMax x0 j

/-- The score at a (class, pixel) place if the class is the pixel's label, else 0. -/
def selAt (x0 : SPb.Idx → EReal) (x1 : STb.Idx → BitVec 32) (i : SPb.Idx) : EReal :=
  if BitVec.ofNat 32 (i 1).val = x1 (ix3 (i 0) (i 2) (i 3)) then x0 i else 0

/-- 1 if the score at a (class, pixel) place equals the pixel's label read as a number, else 0 — as the
    program forms it: the comparison's bit, widened to a word, read as a signed integer. -/
def eqAt (x0 : SPb.Idx → EReal) (x1 : STb.Idx → BitVec 32) (i : SPb.Idx) : EReal :=
  ((((Ideal.cmp .oeq (x0 i) (((x1 (ix3 (i 0) (i 2) (i 3))).toInt : ℝ) : EReal)).setWidth 32).toInt : ℝ) : EReal)

/-- Σ of the scores at the pixels' own labels, minus Σ of the pixels' log-sum-exp. -/
def laneCE (x0 : SPb.Idx → EReal) (x1 : STb.Idx → BitVec 32) : EReal :=
  (∑ i : SPb.Idx, selAt x0 x1 i) - ∑ j : STb.Idx, pixLse x0 j

/-- Σ of the sample's scores. -/
def lanePreds (x0 : SPb.Idx → EReal) : EReal := ∑ i : SPb.Idx, x0 i

/-- Σ of the sample's labels, each read as a signed integer. -/
def laneTgts (x1 : STb.Idx → BitVec 32) : EReal := ∑ j : STb.Idx, (((x1 j).toInt : ℝ) : EReal)

/-- The sample's count of equalities. -/
def laneEq (x0 : SPb.Idx → EReal) (x1 : STb.Idx → BitVec 32) : EReal := ∑ i : SPb.Idx, eqAt x0 x1 i

/-! ## The samples of the whole arrays -/

/-- Sample `n` of the scores. -/
def pblk (p : SP.Idx → EReal) (n : Fin 16) : SPb.Idx → EReal := fun i => p (ix4 n (i 1) (i 2) (i 3))

/-- Sample `n` of the labels. -/
def tblk (t : ST.Idx → BitVec 32) (n : Fin 16) : STb.Idx → BitVec 32 := fun j => t (ix3 n (j 1) (j 2))

/-! ## The tails -/

def c0 : EReal := Ideal.ofBits .f32 0x00000000#32
def cHalf : EReal := Ideal.ofBits .f32 0x3F000000#32
def cOne : EReal := Ideal.ofBits .f32 0x3F800000#32
def cTwo : EReal := Ideal.ofBits .f32 0x40000000#32
/-- ε, the smoothing term (the f32 nearest 1e-8; its value is never needed: both programs carry the same word) -/
def cEps : EReal := Ideal.ofBits .f32 0x322BCC77#32
/-- 2²² = 16 · 512 · 512 -/
def cNHW : EReal := Ideal.ofBits .f32 0x4A800000#32
/-- 16 -/
def cN : EReal := Ideal.ofBits .f32 0x41800000#32

/-- 1 − (1/16) · Σₙ (2 · I n + ε) / (U + ε) -/
def dice (I : SN.Idx → EReal) (U : EReal) : EReal :=
  cOne - Ideal.div (c0 + ∑ n : SN.Idx, Ideal.div (cTwo * I n + cEps) (U + cEps)) cN

/-- The tail over the per-sample numbers A (cross-entropy sums), B (score sums), C (label sums), D (counts). -/
def lossK (A B C D : SN.Idx → EReal) : EReal :=
  cHalf * Ideal.div (-(c0 + ∑ n : SN.Idx, A n)) cNHW
    + cHalf * dice D ((c0 + ∑ n : SN.Idx, B n) + (c0 + ∑ n : SN.Idx, C n))

/-- The tail over the whole-array numbers S (Σ of label log-probabilities), I (counts), U (the union). -/
def lossR (S : EReal) (I : SN.Idx → EReal) (U : EReal) : EReal :=
  cHalf * (-(Ideal.div S cNHW)) + cHalf * dice I U

/-! ## The whole-array numbers -/

/-- The largest of pixel `J`'s four class scores. -/
def mx (p : SP.Idx → EReal) (J : ST.Idx) : EReal :=
  (Finset.univ : Finset (Fin 4)).fold max ⊥ (fun c => p (ix4 (J 0) c (J 1) (J 2)))

/-- Σ over the classes of exp (score − the pixel's largest score). -/
def sx (p : SP.Idx → EReal) (J : ST.Idx) : EReal :=
  ∑ c : Fin 4, Ideal.exp (p (ix4 (J 0) c (J 1) (J 2)) - mx p J)

/-- log-softmax at a (sample, class, pixel) place: (score − max) − log Σ exp (score − max). -/
def logpAt (p : SP.Idx → EReal) (I : SP.Idx) : EReal :=
  (p I - mx p (ix3 (I 0) (I 2) (I 3))) - Ideal.log (sx p (ix3 (I 0) (I 2) (I 3)))

/-- A label word as a class, for a label in range. -/
def cls (w : BitVec 32) : Fin 4 := ⟨w.toNat % 4, Nat.mod_lt _ (by decide)⟩

/-- The log-probability of pixel `J`'s own label. -/
def tgtLogp (p : SP.Idx → EReal) (t : ST.Idx → BitVec 32) (J : ST.Idx) : EReal :=
  logpAt p (ix4 (J 0) (cls (t J)) (J 1) (J 2))

/-- Σ over all pixels of the label's log-probability (from 0). -/
def refCE (p : SP.Idx → EReal) (t : ST.Idx → BitVec 32) : EReal := c0 + ∑ J : ST.Idx, tgtLogp p t J

/-- The comparison's bit at a (sample, class, pixel) place, widened to a word. -/
def eqWord (p : SP.Idx → EReal) (t : ST.Idx → BitVec 32) (I : SP.Idx) : BitVec 32 :=
  (Ideal.cmp .oeq (p I) (((t (ix3 (I 0) (I 2) (I 3))).toInt : ℝ) : EReal)).setWidth 32

/-- Sample `n`'s count of equalities, counted in the naturals. -/
def refCount (p : SP.Idx → EReal) (t : ST.Idx → BitVec 32) (n : SN.Idx) : EReal :=
  (((∑ I ∈ (Finset.univ : Finset SP.Idx).filter (fun I => I 0 = n 0), (eqWord p t I).toNat : ℕ) : ℝ) : EReal)

/-- (Σ of all scores, from 0) + (Σ of all labels, summed in the naturals). -/
def refUnion (p : SP.Idx → EReal) (t : ST.Idx → BitVec 32) : EReal :=
  (c0 + ∑ I : SP.Idx, p I) + (((∑ J : ST.Idx, (t J).toNat : ℕ) : ℝ) : EReal)

end Cert.Spec

end
-- ==== Proof.KernelArray.lean ====
/-
  The kernel's output array after the run, as one function of the argument arrays.

  The grid has sixteen points, one per sample. Point `t` loads sample `t` of the scores (a 1×4×512×512 block) and of
  the labels (a 1×512×512 block) and writes back row `t` of the 16×1×128 output: the body's row of those two blocks.
  So the output array ends as: row `n` = the body's row of sample `n` of the two argument arrays — each point's
  block restricts that one function, and the sixteen rows cover the array.
-/
import proofs.«418105_j64226940944624_3_alg».proof.Proof.Gen.KernelIdeal.Frame
import proofs.«418105_j64226940944624_3_alg».proof.Proof.Spec
import Idealize.ShloMosaic.Lib.Pipeline.Value
import Idealize.ShloMosaic.Lib.ValueIdx

set_option maxRecDepth 16384

noncomputable section

namespace Cert.KernelIdeal.ArrValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The scores and the labels as the region finds them. -/
abbrev parr (c : Dev nD) : Cert.Spec.SP.Idx → EReal := V m c main_arg0
abbrev tarr (c : Dev nD) : Cert.Spec.ST.Idx → BitVec 32 := V m c main_arg1

/-- Row `n`, lane `l` of the output: the body's row of sample `n`, at lane `l`. -/
def Gout (c : Dev nD) : S16x1x128.Idx → EReal := fun i =>
  out0_2 (F := Ideal) (Cert.Spec.pblk (parr m c) (i 0)) (Cert.Spec.tblk (tarr m c) (i 0)) (ix3 (0 : Fin 1) (i 1) (i 2))

set_option maxHeartbeats 4000000 in
/-- The printed index maps over the sixteen points: every window's block index is the point's sample on the
    leading axis and zero elsewhere. Window 0 (the scores): -/
theorem idx_facts0 : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0 :=
  (by decide +kernel : ∀ t : Fin grid0.N,
    win0_0.index t (0 : Fin 4) = win0_2.index t (0 : Fin 3) ∧ win0_0.index t (1 : Fin 4) = 0
    ∧ win0_0.index t (2 : Fin 4) = 0 ∧ win0_0.index t (3 : Fin 4) = 0)

set_option maxHeartbeats 4000000 in
/-- Window 1 (the labels): -/
theorem idx_facts1 : ∀ t : Fin cfg0.N,
    win0_1.index t (0 : Fin 3) = win0_2.index t (0 : Fin 3) ∧ win0_1.index t (1 : Fin 3) = 0
    ∧ win0_1.index t (2 : Fin 3) = 0 :=
  (by decide +kernel : ∀ t : Fin grid0.N,
    win0_1.index t (0 : Fin 3) = win0_2.index t (0 : Fin 3) ∧ win0_1.index t (1 : Fin 3) = 0
    ∧ win0_1.index t (2 : Fin 3) = 0)

set_option maxHeartbeats 4000000 in
/-- Window 2 (the output rows): -/
theorem idx_facts2 : ∀ t : Fin cfg0.N,
    win0_2.index t (1 : Fin 3) = 0 ∧ win0_2.index t (2 : Fin 3) = 0 ∧ win0_2.index t (0 : Fin 3) < 16 :=
  (by decide +kernel : ∀ t : Fin grid0.N,
    win0_2.index t (1 : Fin 3) = 0 ∧ win0_2.index t (2 : Fin 3) = 0 ∧ win0_2.index t (0 : Fin 3) < 16)

set_option maxHeartbeats 4000000 in
/-- Every row is some point's. -/
theorem idx_onto : ∀ q : Fin 16, ∃ t : Fin cfg0.N, win0_2.index t (0 : Fin 3) = q.val :=
  (by decide +kernel : ∀ q : Fin 16, ∃ t : Fin grid0.N, win0_2.index t (0 : Fin 3) = q.val)

set_option maxHeartbeats 4000000 in
/-- What point `t` writes back is block `t` of `Gout`. -/
theorem flushed_eq (c : Dev nD) (t : Fin cfg0.N) :
    (dats m 0 c).flushed 2 t = ((cfg0.win 2).blk t).view.read (Elt Ideal) (Gout m c) := by
  show (cfg0.win 2).cut (grid0.coords t) ((dats m 0 c).after 2 t) = _
  rw [after0_2]
  obtain ⟨e00, e01, e02, e03⟩ := idx_facts0 t
  obtain ⟨e10, e11, e12⟩ := idx_facts1 t
  obtain ⟨e21, e22, e2lt⟩ := idx_facts2 t
  funext y
  show out0_2 (F := Ideal) (iblk m c 0 t) (iblk m c 1 t) y = Gout m c (((cfg0.win 2).blk t).view.emb y)
  unfold Gout
  have hy0 : ((((cfg0.win 2).blk t).view.emb y) 0 : Fin 16).val = win0_2.index t (0 : Fin 3) := by
    show win0_2.index t (0 : Fin 3) * 1 + 1 * (y 0).val = _
    have : (y 0).val < 1 := (y 0).isLt
    omega
  have hb0 : iblk m c 0 t = Cert.Spec.pblk (parr m c) ((((cfg0.win 2).blk t).view.emb y) 0) := by
    funext i
    show V m c main_arg0 (((cfg0.win 0).blk t).view.emb i) = V m c main_arg0 _
    refine congrArg _ (funext fun a => Fin.ext ?_)
    match a with
    | ⟨0, _⟩ => show win0_0.index t (0 : Fin 4) * 1 + 1 * (i 0).val = ((((cfg0.win 2).blk t).view.emb y) 0 : Fin 16).val; have : (i 0).val < 1 := (i 0).isLt; omega
    | ⟨1, _⟩ => show win0_0.index t (1 : Fin 4) * 4 + 1 * (i 1).val = (i 1).val; omega
    | ⟨2, _⟩ => show win0_0.index t (2 : Fin 4) * 512 + 1 * (i 2).val = (i 2).val; omega
    | ⟨3, _⟩ => show win0_0.index t (3 : Fin 4) * 512 + 1 * (i 3).val = (i 3).val; omega
  have hb1 : iblk m c 1 t = Cert.Spec.tblk (tarr m c) ((((cfg0.win 2).blk t).view.emb y) 0) := by
    funext j
    show V m c main_arg1 (((cfg0.win 1).blk t).view.emb j) = V m c main_arg1 _
    refine congrArg _ (funext fun a => Fin.ext ?_)
    match a with
    | ⟨0, _⟩ => show win0_1.index t (0 : Fin 3) * 1 + 1 * (j 0).val = ((((cfg0.win 2).blk t).view.emb y) 0 : Fin 16).val; have : (j 0).val < 1 := (j 0).isLt; omega
    | ⟨1, _⟩ => show win0_1.index t (1 : Fin 3) * 512 + 1 * (j 1).val = (j 1).val; omega
    | ⟨2, _⟩ => show win0_1.index t (2 : Fin 3) * 512 + 1 * (j 2).val = (j 2).val; omega
  have hy : y = ix3 (0 : Fin 1) ((((cfg0.win 2).blk t).view.emb y) 1) ((((cfg0.win 2).blk t).view.emb y) 2) := by
    funext a; apply Fin.ext
    match a with
    | ⟨0, _⟩ => show (y 0).val = 0; have : (y 0).val < 1 := (y 0).isLt; omega
    | ⟨1, _⟩ => show (y 1).val = win0_2.index t (1 : Fin 3) * 1 + 1 * (y 1).val; omega
    | ⟨2, _⟩ => show (y 2).val = win0_2.index t (2 : Fin 3) * 128 + 1 * (y 2).val; omega
  rw [← hb0, ← hb1]
  exact congrArg (out0_2 (F := Ideal) (iblk m c 0 t) (iblk m c 1 t)) hy

/-- An index of the output is in point `t`'s block iff its row is the point's. -/
theorem mem_blk (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- The sixteen rows cover the output. -/
theorem cover (i : S16x1x128.Idx) : ∃ t : Fin cfg0.N, (cfg0.win 2).flush t = true ∧ i ∈ ((cfg0.win 2).blk t).view.set := by
  obtain ⟨t, ht⟩ := idx_onto (i 0)
  obtain ⟨e00, e01, e02, e03⟩ := idx_facts0 t
  obtain ⟨e10, e11, e12⟩ := idx_facts1 t
  obtain ⟨e21, e22, e2lt⟩ := idx_facts2 t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; have : (i 1).val < 1 := (i 1).isLt; omega
  | ⟨2, _⟩ => show win0_2.index t (2 : Fin 3) * 128 ≤ (i 2).val ∧ (i 2).val < win0_2.index t (2 : Fin 3) * 128 + 128; have : (i 2).val < 128 := (i 2).isLt; omega

/-- The output array after the run. -/
theorem final (c : Dev nD) : (dats m 0 c).arrAt 2 cfg0.N = Gout m c :=
  (dats m 0 c).arrAt_eq_of_cover 2 (Gout m c) (fun t _ => flushed_eq m c t) (cover)

end Cert.KernelIdeal.ArrValue

end
-- ==== Proof.KernelTail.lean ====
/-
  The host operations after the kernel, read at the extended reals.

  The kernel leaves a 16×1×128 array of rows; the operations after it reshape the array to 16×128, cut out its
  columns 0, 1, 2 and 3 as vectors over the sixteen samples, and combine them: column 0 is summed, negated and
  divided by 2²²; columns 1 and 2 are summed and added (the union); column 3 enters sample by sample in
  (2 · count + ε) / (union + ε), whose mean is taken from 1; the two halves are added with weights ½. At the
  extended reals a host sum into a scalar is the initial value plus the sum over every sample, so the result is
  `lossK` of the four columns.
-/
import proofs.«418105_j64226940944624_3_alg».proof.Proof.Gen.KernelIdeal.Frame
import proofs.«418105_j64226940944624_3_alg».proof.Proof.KernelArray
import proofs.«418105_j64226940944624_3_alg».proof.Proof.Spec
import Idealize.ShloMosaic.Lib.Pipeline.Value
import Idealize.ShloMosaic.Lib.StableHlo.Run
import Idealize.ShloMosaic.PureOps.Ideal.Laws
import Idealize.ShloMosaic.Lib.ValueIdx

set_option maxRecDepth 16384

noncomputable section

namespace Cert.KernelIdeal.TailValue

open Idealize.ShloMosaic Idealize.ShloMosaic.TcCoe Idealize.ShloMosaic.ValueIdx Idealize.SL.Sem Idealize.ShloMosaic.StableHlo
open Cert.KernelIdeal Cert.KernelIdeal.Gen Cert.KernelIdeal.ArrValue

/-- Column `k` of the rows, as a vector over the samples: the reshape to 16×128 keeps the row-major position
    (sample · 128 + lane), the slice shifts the lane by `k`, the reshape to 16 drops the unit axis. -/
theorem col_apply (res : S16x1x128.Idx → EReal) (o : Nat) (hs : S16x128.Slices ![0, o] S16x1) (k : Fin 128) (hk : k.val = o)
    (i : S16.Idx) :
    shapeCast S16 (extractStridedSlice S16x1 ![0, o] (shapeCast S16x128 res Gen.shapeCasts_S16x1x128_S16x128) hs) Gen.shapeCasts_S16x1_S16 i
      = res (ix3 (i 0) (0 : Fin 1) k) := by
  refine (shapeCast_apply _ _ i (ix2 (i 0) (0 : Fin 1)) ?_).trans ?_
  · rw [Shape.rowMajor_val_two, Shape.rowMajor_val_one]; show (i 0).val * 1 + 0 = (i 0).val; omega
  refine (extractStridedSlice_apply _ _ hs (ix2 (i 0) (0 : Fin 1)) (ix2 (i 0) k) ?_).trans ?_
  · intro a; match a with
    | ⟨0, _⟩ => show (i 0).val = 0 + (i 0).val; omega
    | ⟨1, _⟩ => show k.val = o + 0; omega
  refine shapeCast_apply _ _ (ix2 (i 0) k) (ix3 (i 0) (0 : Fin 1) k) ?_
  rw [Shape.rowMajor_val_three, Shape.rowMajor_val_two]
  show ((i 0).val * 1 + 0) * 128 + k.val = (i 0).val * 128 + k.val
  omega

variable (m : (ℓ : Loc nD τ sig) → Buf (Elt Ideal) ℓ)

/-- Lane `k` of every sample's row. -/
def lane (c : Dev nD) (k : Fin 128) : Cert.Spec.SN.Idx → EReal := fun n => Gout m c (ix3 (n 0) (0 : Fin 1) k)

/-- The rank-zero shape has no axis. -/
theorem unit_S_ : ∀ b : Fin S_.rank, S_.size b = 1 := fun b => b.elim0

set_option maxHeartbeats 4000000 in
/-- The result buffer after the tail: `lossK` of lanes 0, 1, 2, 3. -/
theorem tail_value (c : Dev nD) :
    Pipeline.afterTail₀ cfgs (dats m) 0 (V0 m) [hostOps1] c main_v28
      = fun _ => Cert.Spec.lossK (lane m c 0) (lane m c 1) (lane m c 2) (lane m c 3) := by
  unfold Pipeline.afterTail₀
  show StableHlo.after hostOps1 _ (Proc.devRef .tc main_v28) = _
  after_results
  have hres : Pipeline.withArrays (cfgs 0).spec c (V0 m c) (fun w => (dats m 0 c).arrAt w (cfgs 0).N) (Proc.devRef .tc main_v0) = Gout m c :=
    (Pipeline.withArrays_arr spec0 launch0.win.arr_inj c _ _ 2).trans (final m c)
  rw [hres]
  have e0 : (fun i => shapeCast S16 (extractStridedSlice S16x1 ![0, 0] (shapeCast S16x128 (Gout m c) Gen.shapeCasts_S16x1x128_S16x128) Gen.slices_S16x128_S16x1_0_0) Gen.shapeCasts_S16x1_S16 i)
      = lane m c 0 := funext fun i => col_apply (Gout m c) 0 _ 0 rfl i
  have e1 : (fun i => shapeCast S16 (extractStridedSlice S16x1 ![0, 1] (shapeCast S16x128 (Gout m c) Gen.shapeCasts_S16x1x128_S16x128) Gen.slices_S16x128_S16x1_0_1) Gen.shapeCasts_S16x1_S16 i)
      = lane m c 1 := funext fun i => col_apply (Gout m c) 1 _ 1 rfl i
  have e2 : (fun i => shapeCast S16 (extractStridedSlice S16x1 ![0, 2] (shapeCast S16x128 (Gout m c) Gen.shapeCasts_S16x1x128_S16x128) Gen.slices_S16x128_S16x1_0_2) Gen.shapeCasts_S16x1_S16 i)
      = lane m c 2 := funext fun i => col_apply (Gout m c) 2 _ 2 rfl i
  have e3 : (fun i => shapeCast S16 (extractStridedSlice S16x1 ![0, 3] (shapeCast S16x128 (Gout m c) Gen.shapeCasts_S16x1x128_S16x128) Gen.slices_S16x128_S16x1_0_3) Gen.shapeCasts_S16x1_S16 i)
      = lane m c 3 := funext fun i => col_apply (Gout m c) 3 _ 3 rfl i
  funext j
  show Cert.Spec.cHalf * Ideal.div (-(Ideal.hostReduceAdd Gen.reducesTo_S16_S_d0
          (fun i => shapeCast S16 (extractStridedSlice S16x1 ![0, 0] (shapeCast S16x128 (Gout m c) Gen.shapeCasts_S16x1x128_S16x128) Gen.slices_S16x128_S16x1_0_0) Gen.shapeCasts_S16x1_S16 i)
          Cert.Spec.c0 j)) Cert.Spec.cNHW
      + Cert.Spec.cHalf * (Cert.Spec.cOne - Ideal.div (Ideal.hostReduceAdd Gen.reducesTo_S16_S_d0
          (fun n => Ideal.div (Cert.Spec.cTwo *
              (fun i => shapeCast S16 (extractStridedSlice S16x1 ![0, 3] (shapeCast S16x128 (Gout m c) Gen.shapeCasts_S16x1x128_S16x128) Gen.slices_S16x128_S16x1_0_3) Gen.shapeCasts_S16x1_S16 i) n
              + Cert.Spec.cEps)
            ((Ideal.hostReduceAdd Gen.reducesTo_S16_S_d0
                (fun i => shapeCast S16 (extractStridedSlice S16x1 ![0, 1] (shapeCast S16x128 (Gout m c) Gen.shapeCasts_S16x1x128_S16x128) Gen.slices_S16x128_S16x1_0_1) Gen.shapeCasts_S16x1_S16 i)
                Cert.Spec.c0 _
              + Ideal.hostReduceAdd Gen.reducesTo_S16_S_d0
                (fun i => shapeCast S16 (extractStridedSlice S16x1 ![0, 2] (shapeCast S16x128 (Gout m c) Gen.shapeCasts_S16x1x128_S16x128) Gen.slices_S16x128_S16x1_0_2) Gen.shapeCasts_S16x1_S16 i)
                Cert.Spec.c0 _)
              + Cert.Spec.cEps))
          Cert.Spec.c0 j) Cert.Spec.cN)
    = _
  rw [e0, e1, e2, e3]
  simp only [Ideal.hostReduceAdd_total _ unit_S_]
  rfl

end Cert.KernelIdeal.TailValue

end
-- ==== Proof.LibSumAll.lean ====
/-
  Sums over all entries of a vector, and how they pass through the two steps a "sum every axis, one axis at a
  time, keeping the reduced axis as a unit axis" chain is made of.

  * A shape cast re-indexes a vector by a bijection of index sets (the row-major position is kept), so the
    sum of all its entries is the sum of all entries of its operand.
  * An add-reduction over any list of axes partitions the operand's indices by the index each reduces to, and
    every reduced entry is the sum over its class: summing the reduced entries again gives the sum of all
    entries of the operand.
  * A shape whose axes all have extent one has exactly one index, so an entry of a vector of that shape IS
    the sum of all its entries.

  Chained: the one entry a keep-dims sum chain ends in is the sum of every entry of the vector it started from,
  whatever the order of the axes and wherever unit axes were added or dropped in between.

  The last section is about finite sums of extended reals whose terms are all real numbers: such sums are real,
  and a difference of two of them is the sum of the differences.
-/
import Idealize.ShloMosaic.PureOps.Ideal.Laws

namespace Cert.LibSumAll

open Idealize.ShloMosaic

variable {s t : Shape}

/-- A shape cast keeps the sum of all entries: it reads the operand through a bijection of the index sets. -/
theorem sum_shapeCast {M : Type} [AddCommMonoid M] (x : s.Idx → M) (h : s.ShapeCasts t) :
    ∑ j : t.Idx, shapeCast t x h j = ∑ i : s.Idx, x i := by
  unfold shapeCast
  exact Equiv.sum_comp (Shape.reshapeEquiv h) x

/-- The reduced entries of an add-reduction sum to the sum of all entries of the operand: the classes
    "reduces to j" partition the operand's indices. -/
theorem sum_reduceAdd {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ h.drop x

/-- The same of a float `multi_reduction <add>` read at the extended reals. -/
theorem sum_multiReduction_add {φ : FTy} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  sum_reduceAdd h src

/-- All axes of extent one: any two indices are equal. -/
theorem idx_eq_of_unit (ht : ∀ b, t.size b = 1) (j j' : t.Idx) : j' = j :=
  funext fun b => Fin.ext (by have := (j' b).isLt; have := (j b).isLt; have := ht b; omega)

/-- All axes of extent one: an entry is the sum of all entries (there is one). -/
theorem eq_sum_of_unit {M : Type} [AddCommMonoid M] (ht : ∀ b, t.size b = 1) (y : t.Idx → M) (j : t.Idx) :
    y j = ∑ j' : t.Idx, y j' := by
  rw [Finset.sum_eq_single j (fun b _ hb => absurd (idx_eq_of_unit ht j b) hb)
    (fun h => absurd (Finset.mem_univ j) h)]

/-! ## Finite sums of extended reals with real terms -/

/-- The coercion of a finite real sum is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of real terms is a real number. -/
theorem sum_real {ι : Type} (S : Finset ι) (a : ι → EReal) (ha : ∀ i ∈ S, ∃ r : ℝ, a i = r) :
    ∃ r : ℝ, ∑ i ∈ S, a i = r := by
  classical
  induction S using Finset.induction_on with
  | empty => exact ⟨0, by simp⟩
  | insert b S hb ih =>
    obtain ⟨r, hr⟩ := ih (fun i hi => ha i (Finset.mem_insert_of_mem hi))
    obtain ⟨q, hq⟩ := ha b (Finset.mem_insert_self b S)
    exact ⟨q + r, by rw [Finset.sum_insert hb, hr, hq, EReal.coe_add]⟩

/-- For real terms, a difference of two sums over one index set is the sum of the differences. -/
theorem sum_sub_sum {ι : Type} (S : Finset ι) (a b : ι → EReal) (ha : ∀ i ∈ S, ∃ r : ℝ, a i = r)
    (hb : ∀ i ∈ S, ∃ r : ℝ, b i = r) : ∑ i ∈ S, a i - ∑ i ∈ S, b i = ∑ i ∈ S, (a i - b i) := by
  classical
  induction S using Finset.induction_on with
  | empty => simp
  | insert c S hc ih =>
    have ha' : ∀ i ∈ S, ∃ r : ℝ, a i = r := fun i hi => ha i (Finset.mem_insert_of_mem hi)
    have hb' : ∀ i ∈ S, ∃ r : ℝ, b i = r := fun i hi => hb i (Finset.mem_insert_of_mem hi)
    obtain ⟨x, hx⟩ := ha c (Finset.mem_insert_self c S)
    obtain ⟨y, hy⟩ := hb c (Finset.mem_insert_self c S)
    obtain ⟨u, hu⟩ := sum_real S a ha'
    obtain ⟨v, hv⟩ := sum_real S b hb'
    rw [Finset.sum_insert hc, Finset.sum_insert hc, Finset.sum_insert hc, ← ih ha' hb', hx, hy, hu, hv]
    norm_cast
    ring

end Cert.LibSumAll
-- ==== Proof.Consts.lean ====
/-
  The three float bit patterns whose VALUES the proof uses, evaluated once, here.

  An f32 word is a sign bit, an 8-bit exponent field and a 23-bit fraction. Exponent field all ones with fraction 0
  is an infinity of the word's sign: 0x7F800000 is +∞ (the bound "every |score| is below it" says the scores
  are real numbers) and 0xFF800000 is −∞ (the starting value of a maximum: max (−∞) x = x). The word 0x4A800000
  has sign 0, exponent field 149 and fraction 0: the real number 2²³ · 2^(149 − 127 − 23) = 2²² = 4194304, the
  number of pixels the cross-entropy mean divides by (nonzero, which is all the proof needs of it).
  Every other float word of the two programs occurs on both sides and is never evaluated.
-/
import Idealize.ShloMosaic.PureOps.Ideal.Laws

namespace Cert.Consts

open Idealize.ShloMosaic

/-- 0x7F800000 denotes +∞. -/
theorem inf_bits : Ideal.ofBits .f32 0x7F800000#32 = (⊤ : EReal) := by
  simp [Ideal.ofBits, Ideal.ieee]

/-- 0xFF800000 denotes −∞. -/
theorem neg_inf_bits : Ideal.ofBits .f32 0xFF800000#32 = (⊥ : EReal) := by
  simp [Ideal.ofBits, Ideal.ieee]

/-- 0x4A800000 denotes 2²² = 4194304. -/
theorem nhw_bits : Ideal.ofBits .f32 0x4A800000#32 = ((4194304 : ℝ) : EReal) := by
  have hneg : ((0x4A800000#32 : BitVec 32).extractLsb' (8 + 23) 1 == 1#1) = false := by decide
  have hex : ((0x4A800000#32 : BitVec 32).extractLsb' 23 8).toNat = 149 := by decide
  have hfr : ((0x4A800000#32 : BitVec 32).extractLsb' 0 23).toNat = 0 := by decide
  simp only [Ideal.ofBits, Ideal.ieee, hneg, hex, hfr]
  norm_num

end Cert.Consts
-- ==== Proof.KernelLanes.lean ====
/-
  One sample's stored row, read at its first four lanes.

  For one sample the kernel body forms four numbers, each by summing a vector over every axis one axis at a time
  (keeping the summed axis as a unit axis), and stores the 1×1×128 row
      where(lane = 0, A, 0) + where(lane = 1, B, 0) + where(lane = 2, C, 0) + where(lane = 3, D, 0).
  Lane l of that row keeps the l-th summand and adds three zeros. The one entry a keep-dims sum chain ends in is
  the sum of all entries of the vector it started from, so

    A = Σ over (class, pixel) of the score where the class is the pixel's label (else 0)
          − Σ over pixels of ( log Σ over classes exp (score − pixel max)  +  pixel max ),
    B = Σ of all scores,
    C = Σ over pixels of the label read as a signed integer,
    D = Σ over (class, pixel) of the bit "score = label read as a number", widened and read as an integer,

  which are the four per-sample numbers of the specification.
-/
import proofs.«418105_j64226940944624_3_alg».proof.Proof.Gen.KernelIdeal.Frame
import proofs.«418105_j64226940944624_3_alg».proof.Proof.Spec
import proofs.«418105_j64226940944624_3_alg».proof.Proof.LibSumAll
import proofs.«418105_j64226940944624_3_alg».proof.Proof.Consts
import Idealize.ShloMosaic.Lib.Pipeline.Value
import Idealize.ShloMosaic.Lib.ValueIdx
import Idealize.ShloMosaic.PureOps.Ideal.Laws

noncomputable section

namespace Cert.KernelIdeal.Lanes

open Idealize.ShloMosaic Idealize.ShloMosaic.ValueIdx Cert.KernelIdeal Cert.KernelIdeal.Gen

/-- One step of a keep-dims sum chain: a shape cast keeps the sum of all entries. -/
local macro "sum_cast" : tactic => `(tactic| refine (LibSumAll.sum_shapeCast _ _).trans ?_)
/-- One step of a keep-dims sum chain: the reduced entries of an add-reduction sum to the sum of all entries. -/
local macro "sum_red" : tactic => `(tactic| refine (LibSumAll.sum_multiReduction_add _ _ _ _ _).trans ?_)

/-! ## The stored row, lane by lane

The row is  where(lane = 0, A, 0) + where(lane = 1, B, 0) + where(lane = 2, C, 0) + where(lane = 3, D, 0)  with each
of A, B, C, D a one-entry vector broadcast along the lanes: lane l keeps the l-th summand and adds zeros. -/

theorem hz3 : (![0,0,0] : Fin 3 → Nat) = fun _ => 0 := funext fun a => by fin_cases a <;> rfl
theorem hz4 : (![0,0,0,0] : Fin 4 → Nat) = fun _ => 0 := funext fun a => by fin_cases a <;> rfl

/-- The stored block is the payload of its one covering store, over the two loaded vectors. -/
theorem out_eq (x0 : Vec Ideal S1x4x512x512 .f32) (x1 : Vec Ideal S1x512x512 .i32) :
    out0_2 (F := Ideal) x0 x1 = k0_pay1 (k0_pay5 x1) (k0_pay6 x0 x1) (iota .tc S1x1x128 32 [2] iota_S1x1x128_d2_w32) (k0_pay7 (k0_pay2 x0 x1) (k0_pay3 x0)) 2#32 := by
  unfold out0_2
  rw [View.canon_unit_zero hz3]
  simp only [View.ld_unit_zero (S := S1x4x512x512) hz4, View.ld_unit_zero (S := S1x512x512) hz3]

/-- Every axis of the 1×1 shape has extent one. -/
theorem unit_S1x1 : ∀ b, S1x1.size b = 1 := by intro b; fin_cases b <;> rfl

/-- A one-entry vector broadcast along the lanes reads its one entry at every lane. -/
theorem bc_unit (v : FVec Ideal S1x1 .f32) (j : S1x1x128.Idx) :
    broadcastTo S1x1x128 (shapeCast S1x1x1 v shapeCasts_S1x1_S1x1x1) broadcasts_S1x1x1_S1x1x128 j = v (ix2 0 0) := by
  unfold broadcastTo shapeCast
  exact congrArg v (LibSumAll.idx_eq_of_unit unit_S1x1 _ _)

/-- The lane counter compared with a word, at lane l: the comparison of l's word with it. -/
theorem lane_cmp (l : Fin 128) (c : BitVec 32) :
    cmpi .eq (iota .tc S1x1x128 32 [2] iota_S1x1x128_d2_w32) (broadcast S1x1x128 c) (ix3 (0 : Fin 1) (0 : Fin 1) l)
      = IntOp.cmpi .eq (BitVec.ofNat 32 l.val) c := by
  show IntOp.cmpi .eq (iota .tc S1x1x128 32 [2] iota_S1x1x128_d2_w32 (ix3 (0 : Fin 1) (0 : Fin 1) l)) c = _
  rw [iota_single_apply]

/-- The row at lane l: four selects on l's word, over the four one-entry values; the second is the one entry left
    after summing the remaining axes of lane 1's chain one at a time, which is the sum of all entries of the
    vector the chain continues from. -/
theorem row_at (v55 v70 v37 : FVec Ideal S1x1 .f32) (v39 : FVec Ideal S1x4x512x1 .f32) (l : Fin 128) :
    k0_pay1 v55 v70 (iota .tc S1x1x128 32 [2] iota_S1x1x128_d2_w32) (k0_pay7 v37 v39) 2#32 (ix3 (0 : Fin 1) (0 : Fin 1) l)
      = Scalar.select (IntOp.cmpi .eq (BitVec.ofNat 32 l.val) 0#32) (v37 (ix2 0 0)) 0
        + Scalar.select (IntOp.cmpi .eq (BitVec.ofNat 32 l.val) 1#32) (∑ i : S1x4x512x1.Idx, v39 i) 0
        + Scalar.select (IntOp.cmpi .eq (BitVec.ofNat 32 l.val) 2#32) (v55 (ix2 0 0)) 0
        + Scalar.select (IntOp.cmpi .eq (BitVec.ofNat 32 l.val) 3#32) (v70 (ix2 0 0)) 0 := by
  unfold k0_pay1 k0_pay7
  simp only [addf_apply, select_apply, broadcast_apply, bc_unit, Ideal.ofBits_def, Ideal.ofBits_zero_f32]
  rw [lane_cmp, lane_cmp, lane_cmp, lane_cmp]
  congr 4
  refine (LibSumAll.eq_sum_of_unit unit_S1x1 _ _).trans ?_
  sum_cast; sum_cast; sum_cast; sum_red; sum_cast; sum_red; sum_cast
  exact LibSumAll.sum_multiReduction_add _ _ _ _ _

theorem c00 : IntOp.cmpi .eq (BitVec.ofNat 32 ((0 : Fin 128) : ℕ)) 0#32 = 1#1 := by decide
theorem c01 : IntOp.cmpi .eq (BitVec.ofNat 32 ((0 : Fin 128) : ℕ)) 1#32 = 0#1 := by decide
theorem c02 : IntOp.cmpi .eq (BitVec.ofNat 32 ((0 : Fin 128) : ℕ)) 2#32 = 0#1 := by decide
theorem c03 : IntOp.cmpi .eq (BitVec.ofNat 32 ((0 : Fin 128) : ℕ)) 3#32 = 0#1 := by decide
theorem c10 : IntOp.cmpi .eq (BitVec.ofNat 32 ((1 : Fin 128) : ℕ)) 0#32 = 0#1 := by decide
theorem c11 : IntOp.cmpi .eq (BitVec.ofNat 32 ((1 : Fin 128) : ℕ)) 1#32 = 1#1 := by decide
theorem c12 : IntOp.cmpi .eq (BitVec.ofNat 32 ((1 : Fin 128) : ℕ)) 2#32 = 0#1 := by decide
theorem c13 : IntOp.cmpi .eq (BitVec.ofNat 32 ((1 : Fin 128) : ℕ)) 3#32 = 0#1 := by decide
theorem c20 : IntOp.cmpi .eq (BitVec.ofNat 32 ((2 : Fin 128) : ℕ)) 0#32 = 0#1 := by decide
theorem c21 : IntOp.cmpi .eq (BitVec.ofNat 32 ((2 : Fin 128) : ℕ)) 1#32 = 0#1 := by decide
theorem c22 : IntOp.cmpi .eq (BitVec.ofNat 32 ((2 : Fin 128) : ℕ)) 2#32 = 1#1 := by decide
theorem c23 : IntOp.cmpi .eq (BitVec.ofNat 32 ((2 : Fin 128) : ℕ)) 3#32 = 0#1 := by decide
theorem c30 : IntOp.cmpi .eq (BitVec.ofNat 32 ((3 : Fin 128) : ℕ)) 0#32 = 0#1 := by decide
theorem c31 : IntOp.cmpi .eq (BitVec.ofNat 32 ((3 : Fin 128) : ℕ)) 1#32 = 0#1 := by decide
theorem c32 : IntOp.cmpi .eq (BitVec.ofNat 32 ((3 : Fin 128) : ℕ)) 2#32 = 0#1 := by decide
theorem c33 : IntOp.cmpi .eq (BitVec.ofNat 32 ((3 : Fin 128) : ℕ)) 3#32 = 1#1 := by decide

/-- Lane 0 of the row is the first one-entry vector's entry. -/
theorem row_lane0 (v55 v70 v37 : FVec Ideal S1x1 .f32) (v39 : FVec Ideal S1x4x512x1 .f32) :
    k0_pay1 v55 v70 (iota .tc S1x1x128 32 [2] iota_S1x1x128_d2_w32) (k0_pay7 v37 v39) 2#32 (ix3 (0 : Fin 1) (0 : Fin 1) (0 : Fin 128)) = v37 (ix2 0 0) := by
  rw [row_at, c00, c01, c02, c03]
  simp only [select_one, select_zero, add_zero]

/-- Lane 1 of the row is the sum of all entries of the vector lane 1's chain continues from. -/
theorem row_lane1 (v55 v70 v37 : FVec Ideal S1x1 .f32) (v39 : FVec Ideal S1x4x512x1 .f32) :
    k0_pay1 v55 v70 (iota .tc S1x1x128 32 [2] iota_S1x1x128_d2_w32) (k0_pay7 v37 v39) 2#32 (ix3 (0 : Fin 1) (0 : Fin 1) (1 : Fin 128)) = ∑ i : S1x4x512x1.Idx, v39 i := by
  rw [row_at, c10, c11, c12, c13]
  simp only [select_one, select_zero, add_zero, zero_add]

/-- Lane 2 of the row is the third one-entry vector's entry. -/
theorem row_lane2 (v55 v70 v37 : FVec Ideal S1x1 .f32) (v39 : FVec Ideal S1x4x512x1 .f32) :
    k0_pay1 v55 v70 (iota .tc S1x1x128 32 [2] iota_S1x1x128_d2_w32) (k0_pay7 v37 v39) 2#32 (ix3 (0 : Fin 1) (0 : Fin 1) (2 : Fin 128)) = v55 (ix2 0 0) := by
  rw [row_at, c20, c21, c22, c23]
  simp only [select_one, select_zero, add_zero, zero_add]

/-- Lane 3 of the row is the fourth one-entry vector's entry. -/
theorem row_lane3 (v55 v70 v37 : FVec Ideal S1x1 .f32) (v39 : FVec Ideal S1x4x512x1 .f32) :
    k0_pay1 v55 v70 (iota .tc S1x1x128 32 [2] iota_S1x1x128_d2_w32) (k0_pay7 v37 v39) 2#32 (ix3 (0 : Fin 1) (0 : Fin 1) (3 : Fin 128)) = v70 (ix2 0 0) := by
  rw [row_at, c30, c31, c32, c33]
  simp only [select_one, select_zero, add_zero, zero_add]

/-! ## Lanes 1 and 2: the sum of the scores, the sum of the labels -/

theorem out_lane1 (x0 : Vec Ideal S1x4x512x512 .f32) (x1 : Vec Ideal S1x512x512 .i32) :
    out0_2 (F := Ideal) x0 x1 (ix3 (0 : Fin 1) (0 : Fin 1) (1 : Fin 128)) = Cert.Spec.lanePreds x0 := by
  rw [out_eq, row_lane1]
  unfold k0_pay3
  sum_cast
  exact LibSumAll.sum_multiReduction_add _ _ _ _ _

theorem out_lane2 (x0 : Vec Ideal S1x4x512x512 .f32) (x1 : Vec Ideal S1x512x512 .i32) :
    out0_2 (F := Ideal) x0 x1 (ix3 (0 : Fin 1) (0 : Fin 1) (2 : Fin 128)) = Cert.Spec.laneTgts x1 := by
  rw [out_eq, row_lane2]
  unfold k0_pay5 k0_pay4
  refine (LibSumAll.eq_sum_of_unit unit_S1x1 _ _).trans ?_
  sum_cast; sum_cast; sum_red; sum_cast; sum_red; sum_cast
  exact LibSumAll.sum_multiReduction_add _ _ _ _ _

/-! ## A per-pixel vector read at a (class, pixel) place -/

/-- A per-pixel vector given a unit class axis and broadcast over the classes reads, at a (class, pixel) place,
    the pixel's entry. -/
theorem bcast_pix {α : Type} (v : S1x512x512.Idx → α) (i : S1x4x512x512.Idx) :
    broadcastTo S1x4x512x512 (shapeCast S1x1x512x512 v shapeCasts_S1x512x512_S1x1x512x512) broadcasts_S1x1x512x512_S1x4x512x512 i
      = v (ix3 (i 0) (i 2) (i 3)) := by
  refine (broadcastTo_apply _ _ i (ix4 (0 : Fin 1) (0 : Fin 1) (i 2) (i 3)) ?_).trans ?_
  · intro a
    match a with
    | ⟨0, _⟩ => rfl
    | ⟨1, _⟩ => rfl
    | ⟨2, _⟩ => rfl
    | ⟨3, _⟩ => rfl
  · refine (shapeCast_addUnit_apply ![1, 512, 512] v _ _).trans ?_
    congr 1
    funext a
    match a with
    | ⟨0, _⟩ => exact Subsingleton.elim (α := Fin 1) _ _
    | ⟨1, _⟩ => rfl
    | ⟨2, _⟩ => rfl

/-! ## Lane 3: the count of equalities -/

theorem out_lane3 (x0 : Vec Ideal S1x4x512x512 .f32) (x1 : Vec Ideal S1x512x512 .i32) :
    out0_2 (F := Ideal) x0 x1 (ix3 (0 : Fin 1) (0 : Fin 1) (3 : Fin 128)) = Cert.Spec.laneEq x0 x1 := by
  rw [out_eq, row_lane3]
  unfold k0_pay6 k0_pay4
  refine (LibSumAll.eq_sum_of_unit unit_S1x1 _ _).trans ?_
  sum_cast; sum_cast; sum_cast; sum_red; sum_cast; sum_red; sum_cast; sum_red; sum_cast; sum_red
  refine Finset.sum_congr rfl fun i _ => ?_
  simp only [sitofp_apply, extui_apply, cmpf_apply, bcast_pix]
  rfl

/-! ## Lane 0: the scores at the pixels' own labels, minus the pixels' log-sum-exp -/

/-- A comparison word is 1 exactly when the two words are equal. -/
theorem cmpi_eq_one_iff {w : Nat} (a b : BitVec w) : IntOp.cmpi .eq a b = (1 : BitVec 1) ↔ a = b := by
  unfold IntOp.cmpi
  show BitVec.ofBool (a == b) = 1#1 ↔ a = b
  cases hab : (a == b) with
  | true => exact ⟨fun _ => eq_of_beq hab, fun _ => rfl⟩
  | false => exact ⟨fun h => absurd h (by decide), fun h => by rw [h] at hab; simp at hab⟩

/-- The select of the score where the class counter equals the pixel's label, at a (class, pixel) place. -/
theorem sel_at (x0 : Vec Ideal S1x4x512x512 .f32) (x1 : Vec Ideal S1x512x512 .i32) (i : S1x4x512x512.Idx) :
    select (cmpi .eq (iota .tc S1x4x512x512 32 [1] iota_S1x4x512x512_d1_w32)
        (broadcastTo S1x4x512x512 (shapeCast S1x1x512x512 x1 shapeCasts_S1x512x512_S1x1x512x512) broadcasts_S1x1x512x512_S1x4x512x512))
      x0 (broadcast S1x4x512x512 (Scalar.ofBits (F := Ideal) .f32 0x00000000#32)) i = Cert.Spec.selAt x0 x1 i := by
  show Scalar.select (IntOp.cmpi .eq (iota .tc S1x4x512x512 32 [1] iota_S1x4x512x512_d1_w32 i)
        (broadcastTo S1x4x512x512 (shapeCast S1x1x512x512 x1 shapeCasts_S1x512x512_S1x1x512x512) broadcasts_S1x1x512x512_S1x4x512x512 i))
      (x0 i) (Ideal.ofBits .f32 0x00000000#32) = _
  rw [iota_single_apply, bcast_pix, Ideal.ofBits_zero_f32]
  unfold Cert.Spec.selAt Scalar.select
  simp only [cmpi_eq_one_iff]

/-- The index a class coordinate is inserted into a pixel index at. -/
theorem lift_eq (j : S1x512x512.Idx) (c : Fin (S1x4x512x512.size 1)) :
    reduces_S1x4x512x512_S1x512x512.lift j c = ix4 (j 0) c (j 1) (j 2) := by
  funext a
  match a with
  | ⟨0, _⟩ => rfl
  | ⟨1, _⟩ => rfl
  | ⟨2, _⟩ => rfl
  | ⟨3, _⟩ => rfl

/-- The pattern the maximum starts from is −∞. -/
theorem ofBits_neg_inf : FloatOps.ofBits (F := Ideal) .f32 0xFF800000#32 = (⊥ : EReal) :=
  Cert.Consts.neg_inf_bits

/-- The maximum over the class axis, at a pixel: the largest of the pixel's four scores. -/
theorem max_at (x0 : Vec Ideal S1x4x512x512 .f32) (j : S1x512x512.Idx) :
    multiReduction (F := Ideal) .maximumf [1] S1x512x512 x0 0xFF800000#32 reduces_S1x4x512x512_S1x512x512 (.inl rfl) rfl j
      = Cert.Spec.pixMax x0 j := by
  refine (Ideal.multiReduction_maximumf_single _ _ _ _ _ _).trans ?_
  rw [ofBits_neg_inf]
  have hl : (x0 ∘ reduces_S1x4x512x512_S1x512x512.lift j) = fun c : Fin 4 => x0 (ix4 (j 0) c (j 1) (j 2)) := by
    funext c
    exact congrArg x0 (lift_eq j c)
  rw [hl]
  rfl

/-- Σ over the class axis of exp (score − the pixel's maximum), at a pixel. -/
theorem sumexp_at (x0 : Vec Ideal S1x4x512x512 .f32) (j : S1x512x512.Idx) :
    multiReduction (F := Ideal) .add [1] S1x512x512
        (exp (subf x0 (broadcastTo S1x4x512x512
          (shapeCast S1x1x512x512
            (multiReduction (F := Ideal) .maximumf [1] S1x512x512 x0 0xFF800000#32 reduces_S1x4x512x512_S1x512x512 (.inl rfl) rfl)
            shapeCasts_S1x512x512_S1x1x512x512) broadcasts_S1x1x512x512_S1x4x512x512)))
        0x00000000#32 reduces_S1x4x512x512_S1x512x512 (.inl rfl) rfl j
      = Cert.Spec.pixSumExp x0 j := by
  refine (Ideal.multiReduction_add_single _ _ _ _ _ _).trans ?_
  unfold Cert.Spec.pixSumExp
  refine Finset.sum_congr rfl fun c _ => ?_
  show Ideal.exp (x0 (reduces_S1x4x512x512_S1x512x512.lift j c) - broadcastTo S1x4x512x512
          (shapeCast S1x1x512x512
            (multiReduction (F := Ideal) .maximumf [1] S1x512x512 x0 0xFF800000#32 reduces_S1x4x512x512_S1x512x512 (.inl rfl) rfl)
            shapeCasts_S1x512x512_S1x1x512x512) broadcasts_S1x1x512x512_S1x4x512x512 (reduces_S1x4x512x512_S1x512x512.lift j c)) = _
  rw [bcast_pix, max_at]
  have hj : (ix3 (reduces_S1x4x512x512_S1x512x512.lift j c 0) (reduces_S1x4x512x512_S1x512x512.lift j c 2)
      (reduces_S1x4x512x512_S1x512x512.lift j c 3) : S1x512x512.Idx) = j := by
    funext a
    match a with
    | ⟨0, _⟩ => rfl
    | ⟨1, _⟩ => rfl
    | ⟨2, _⟩ => rfl
  rw [hj]
  exact congrArg (fun t => Ideal.exp (x0 t - Cert.Spec.pixMax x0 j)) (lift_eq j c)

/-- log of a cast vector plus a cast vector, summed over the cast shape: the sum over the pixels of the pointwise term. -/
theorem sum_lse_cast (v7 v2 : FVec Ideal S1x512x512 .f32) :
    ∑ j : S1x1x512x512.Idx, addf (log (shapeCast S1x1x512x512 v7 shapeCasts_S1x512x512_S1x1x512x512))
        (shapeCast S1x1x512x512 v2 shapeCasts_S1x512x512_S1x1x512x512) j
      = ∑ j : S1x512x512.Idx, (Ideal.log (v7 j) + v2 j) :=
  LibSumAll.sum_shapeCast (fun j => Ideal.log (v7 j) + v2 j) shapeCasts_S1x512x512_S1x1x512x512

theorem out_lane0 (x0 : Vec Ideal S1x4x512x512 .f32) (x1 : Vec Ideal S1x512x512 .i32) :
    out0_2 (F := Ideal) x0 x1 (ix3 (0 : Fin 1) (0 : Fin 1) (0 : Fin 128)) = Cert.Spec.laneCE x0 x1 := by
  rw [out_eq, row_lane0]
  unfold k0_pay2
  simp only [subf_apply]
  unfold Cert.Spec.laneCE
  congr 1
  · refine (LibSumAll.eq_sum_of_unit unit_S1x1 _ _).trans ?_
    sum_cast; sum_cast; sum_cast; sum_red; sum_cast; sum_red; sum_cast; sum_red; sum_cast; sum_red
    exact Finset.sum_congr rfl fun i _ => sel_at x0 x1 i
  · refine (LibSumAll.eq_sum_of_unit unit_S1x1 _ _).trans ?_
    sum_cast; sum_cast; sum_cast; sum_red; sum_cast; sum_red; sum_cast; sum_red; sum_cast; sum_red
    refine (sum_lse_cast _ _).trans ?_
    refine Finset.sum_congr rfl fun j _ => ?_
    rw [sumexp_at, max_at]
    rfl

end Cert.KernelIdeal.Lanes

end
-- ==== Proof.KernelValue.lean ====
/-
  The kernel's run, with its result named.

  The frame run ends with the output rows at the function of the argument arrays found before (row `n` = the body's
  row of sample `n`), and with the result buffer at the tail's value over those rows: `lossK` of lanes 0, 1, 2, 3.
  Lane `k` of sample `n`'s row is the body's row of that sample at lane `k`: the four per-sample numbers. The
  argument arrays end as they began.
-/
import proofs.«418105_j64226940944624_3_alg».proof.Proof.Gen.KernelIdeal.Frame
import proofs.«418105_j64226940944624_3_alg».proof.Proof.KernelArray
import proofs.«418105_j64226940944624_3_alg».proof.Proof.KernelTail
import proofs.«418105_j64226940944624_3_alg».proof.Proof.KernelLanes
import proofs.«418105_j64226940944624_3_alg».proof.Proof.Spec

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.ArrValue Cert.KernelIdeal.TailValue

variable (m : (ℓ : Loc nD τ sig) → Buf (Elt Ideal) ℓ) (ρ : Dev nD → PrngReg)

/-- The scores and the labels at launch, on device `c`. -/
abbrev scores (c : Dev nD) : Cert.Spec.SP.Idx → EReal := m ((c.tc : Thread nD τ).loc main_arg0)
abbrev labels (c : Dev nD) : Cert.Spec.ST.Idx → BitVec 32 := m ((c.tc : Thread nD τ).loc main_arg1)

/-- Lane `k` of sample `n`'s row is the body's row of sample `n` of the launch arrays, at lane `k`. -/
theorem lane_apply (c : Dev nD) (k : Fin 128) (n : Cert.Spec.SN.Idx) :
    lane m c k n = out0_2 (F := Ideal) (Cert.Spec.pblk (scores m c) (n 0)) (Cert.Spec.tblk (labels m c) (n 0))
      (ix3 (0 : Fin 1) (0 : Fin 1) k) := rfl

/-- The tail's value in the four per-sample numbers of the launch arrays. -/
theorem result_eq (c : Dev nD) :
    Cert.Spec.lossK (lane m c 0) (lane m c 1) (lane m c 2) (lane m c 3)
      = Cert.Spec.lossK (fun n => Cert.Spec.laneCE (Cert.Spec.pblk (scores m c) (n 0)) (Cert.Spec.tblk (labels m c) (n 0)))
          (fun n => Cert.Spec.lanePreds (Cert.Spec.pblk (scores m c) (n 0)))
          (fun n => Cert.Spec.laneTgts (Cert.Spec.tblk (labels m c) (n 0)))
          (fun n => Cert.Spec.laneEq (Cert.Spec.pblk (scores m c) (n 0)) (Cert.Spec.tblk (labels m c) (n 0))) := by
  have h0 : lane m c 0 = fun n => Cert.Spec.laneCE (Cert.Spec.pblk (scores m c) (n 0)) (Cert.Spec.tblk (labels m c) (n 0)) :=
    funext fun n => (lane_apply m c 0 n).trans (Cert.KernelIdeal.Lanes.out_lane0 _ _)
  have h1 : lane m c 1 = fun n => Cert.Spec.lanePreds (Cert.Spec.pblk (scores m c) (n 0)) :=
    funext fun n => (lane_apply m c 1 n).trans (Cert.KernelIdeal.Lanes.out_lane1 _ _)
  have h2 : lane m c 2 = fun n => Cert.Spec.laneTgts (Cert.Spec.tblk (labels m c) (n 0)) :=
    funext fun n => (lane_apply m c 2 n).trans (Cert.KernelIdeal.Lanes.out_lane2 _ _)
  have h3 : lane m c 3 = fun n => Cert.Spec.laneEq (Cert.Spec.pblk (scores m c) (n 0)) (Cert.Spec.tblk (labels m c) (n 0)) :=
    funext fun n => (lane_apply m c 3 n).trans (Cert.KernelIdeal.Lanes.out_lane3 _ _)
  rw [h0, h1, h2, h3]

/-- The result buffer bypasses the region: it is unscoped and no window's array. -/
theorem result_mem : main_v28 ∈ Pipeline.restRefs sig (cfgs 0).spec :=
  Pipeline.mem_restRefs_of main_v28 rfl (by decide)

/-- The run: the result at `lossK` of the per-sample numbers of the launch arrays, the arguments unchanged. -/
theorem run : θ_run defs (onTc (τ := τ) (main (F := Ideal))) ⟨m, fun _ => 0, ρ⟩ fun r => ∀ c : Dev nD,
      r.2.mem ((c.tc : Thread nD τ).loc main_v28)
        = (fun _ => Cert.Spec.lossK (fun n => Cert.Spec.laneCE (Cert.Spec.pblk (scores m c) (n 0)) (Cert.Spec.tblk (labels m c) (n 0)))
          (fun n => Cert.Spec.lanePreds (Cert.Spec.pblk (scores m c) (n 0)))
          (fun n => Cert.Spec.laneTgts (Cert.Spec.tblk (labels m c) (n 0)))
          (fun n => Cert.Spec.laneEq (Cert.Spec.pblk (scores m c) (n 0)) (Cert.Spec.tblk (labels m c) (n 0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨(((h c).2 main_v28 result_mem).trans (tail_value m c)).trans (funext fun _ => result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.RunValue

end
-- ==== Proof.RefAfter.lean ====
import proofs.«418105_j64226940944624_3_alg».proof.Proof.RefRead
import Idealize.ShloMosaic.Lib.StableHlo.Run
import Idealize.ShloMosaic.Lib.Pipeline.Frame

noncomputable section

namespace Cert.ReferenceIdeal.RefAfter

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! # The reference's run, read stretch by stretch

Folding the reference's seventy-nine host operations over the launch contents leaves the result buffer at the last
stage of the reference and the two argument buffers untouched. The list is cut into seven stretches; for an arbitrary
valuation each stretch is shown to leave, in the buffer a later stretch reads, the matching stage function of the
buffers it reads itself, and to leave alone the buffers it does not write. The whole run is the composition. All of it
holds for any float family. -/

/-! ## A typed reference's transport is the identity

At a literal reference whose table entry is the stated type, moving contents to the buffer's own type and back
changes nothing. One pair of equations per buffer of the two called functions, each about a variable `x` only, so that
removing a transport from a long composed term is a rewriting step with its own proof and the long term itself is never
compared against another by unfolding. -/

theorem toBuf_main_call0_cst (h1 h2 h3) (x : (⟨S_, .f32⟩ : BufTy).Contents (Elt F)) :
    (TRef.of (T := ⟨S_, .f32⟩) main_call0_cst h1 h2 h3).toBuf x = x := (Eq.refl x).trans rfl
theorem ofBuf_main_call0_cst (h1 h2 h3) (x : (⟨S_, .f32⟩ : BufTy).Contents (Elt F)) :
    (TRef.of (T := ⟨S_, .f32⟩) main_call0_cst h1 h2 h3).ofBuf x = x := (Eq.refl x).trans rfl
theorem toBuf_main_arg0 (h1 h2 h3) (x : (⟨S16x4x512x512, .f32⟩ : BufTy).Contents (Elt F)) :
    (TRef.of (T := ⟨S16x4x512x512, .f32⟩) main_arg0 h1 h2 h3).toBuf x = x := (Eq.refl x).trans rfl
theorem ofBuf_main_arg0 (h1 h2 h3) (x : (⟨S16x4x512x512, .f32⟩ : BufTy).Contents (Elt F)) :
    (TRef.of (T := ⟨S16x4x512x512, .f32⟩) main_arg0 h1 h2 h3).ofBuf x = x := (Eq.refl x).trans rfl
theorem toBuf_main_call0_v0 (h1 h2 h3) (x : (⟨S16x512x512, .f32⟩ : BufTy).Contents (Elt F)) :
    (TRef.of (T := ⟨S16x512x512, .f32⟩) main_call0_v0 h1 h2 h3).toBuf x = x := (Eq.refl x).trans rfl
theorem ofBuf_main_call0_v0 (h1 h2 h3) (x : (⟨S16x512x512, .f32⟩ : BufTy).Contents (Elt F)) :
    (TRef.of (T := ⟨S16x512x512, .f32⟩) main_call0_v0 h1 h2 h3).ofBuf x = x := (Eq.refl x).trans rfl
theorem toBuf_main_call0_cst_0 (h1 h2 h3) (x : (⟨S_, .f32⟩ : BufTy).Contents (Elt F)) :
    (TRef.of (T := ⟨S_, .f32⟩) main_call0_cst_0 h1 h2 h3).toBuf x = x := (Eq.refl x).trans rfl
theorem ofBuf_main_call0_cst_0 (h1 h2 h3) (x : (⟨S_, .f32⟩ : BufTy).Contents (Elt F)) :
    (TRef.of (T := ⟨S_, .f32⟩) main_call0_cst_0 h1 h2 h3).ofBuf x = x := (Eq.refl x).trans rfl
theorem toBuf_main_call0_v1 (h1 h2 h3) (x : (⟨S16x512x512, .f32⟩ : BufTy).Contents (Elt F)) :
    (TRef.of (T := ⟨S16x512x512, .f32⟩) main_call0_v1 h1 h2 h3).toBuf x = x := (Eq.refl x).trans rfl
theorem ofBuf_main_call0_v1 (h1 h2 h3) (x : (⟨S16x512x512, .f32⟩ : BufTy).Contents (Elt F)) :
    (TRef.of (T := ⟨S16x512x512, .f32⟩) main_call0_v1 h1 h2 h3).ofBuf x = x := (Eq.refl x).trans rfl
theorem toBuf_main_call0_v2 (h1 h2 h3) (x : (⟨S16x512x512, .f32⟩ : BufTy).Contents (Elt F)) :
    (TRef.of (T := ⟨S16x512x512, .f32⟩) main_call0_v2 h1 h2 h3).toBuf x = x := (Eq.refl x).trans rfl
theorem ofBuf_main_call0_v2 (h1 h2 h3) (x : (⟨S16x512x512, .f32⟩ : BufTy).Contents (Elt F)) :
    (TRef.of (T := ⟨S16x512x512, .f32⟩) main_call0_v2 h1 h2 h3).ofBuf x = x := (Eq.refl x).trans rfl
theorem toBuf_main_call0_v3 (h1 h2 h3) (x : (⟨S16x1x512x512, .f32⟩ : BufTy).Contents (Elt F)) :
    (TRef.of (T := ⟨S16x1x512x512, .f32⟩) main_call0_v3 h1 h2 h3).toBuf x = x := (Eq.refl x).trans rfl
theorem ofBuf_main_call0_v3 (h1 h2 h3) (x : (⟨S16x1x512x512, .f32⟩ : BufTy).Contents (Elt F)) :
    (TRef.of (T := ⟨S16x1x512x512, .f32⟩) main_call0_v3 h1 h2 h3).ofBuf x = x := (Eq.refl x).trans rfl
theorem toBuf_main_call0_v4 (h1 h2 h3) (x : (⟨S16x4x512x512, .f32⟩ : BufTy).Contents (Elt F)) :
    (TRef.of (T := ⟨S16x4x512x512, .f32⟩) main_call0_v4 h1 h2 h3).toBuf x = x := (Eq.refl x).trans rfl
theorem ofBuf_main_call0_v4 (h1 h2 h3) (x : (⟨S16x4x512x512, .f32⟩ : BufTy).Contents (Elt F)) :
    (TRef.of (T := ⟨S16x4x512x512, .f32⟩) main_call0_v4 h1 h2 h3).ofBuf x = x := (Eq.refl x).trans rfl
theorem toBuf_main_call0_v5 (h1 h2 h3) (x : (⟨S16x4x512x512, .f32⟩ : BufTy).Contents (Elt F)) :
    (TRef.of (T := ⟨S16x4x512x512, .f32⟩) main_call0_v5 h1 h2 h3).toBuf x = x := (Eq.refl x).trans rfl
theorem ofBuf_main_call0_v5 (h1 h2 h3) (x : (⟨S16x4x512x512, .f32⟩ : BufTy).Contents (Elt F)) :
    (TRef.of (T := ⟨S16x4x512x512, .f32⟩) main_call0_v5 h1 h2 h3).ofBuf x = x := (Eq.refl x).trans rfl
theorem toBuf_main_call0_v6 (h1 h2 h3) (x : (⟨S16x4x512x512, .f32⟩ : BufTy).Contents (Elt F)) :
    (TRef.of (T := ⟨S16x4x512x512, .f32⟩) main_call0_v6 h1 h2 h3).toBuf x = x := (Eq.refl x).trans rfl
theorem ofBuf_main_call0_v6 (h1 h2 h3) (x : (⟨S16x4x512x512, .f32⟩ : BufTy).Contents (Elt F)) :
    (TRef.of (T := ⟨S16x4x512x512, .f32⟩) main_call0_v6 h1 h2 h3).ofBuf x = x := (Eq.refl x).trans rfl
theorem toBuf_main_call0_cst_1 (h1 h2 h3) (x : (⟨S_, .f32⟩ : BufTy).Contents (Elt F)) :
    (TRef.of (T := ⟨S_, .f32⟩) main_call0_cst_1 h1 h2 h3).toBuf x = x := (Eq.refl x).trans rfl
theorem ofBuf_main_call0_cst_1 (h1 h2 h3) (x : (⟨S_, .f32⟩ : BufTy).Contents (Elt F)) :
    (TRef.of (T := ⟨S_, .f32⟩) main_call0_cst_1 h1 h2 h3).ofBuf x = x := (Eq.refl x).trans rfl
theorem toBuf_main_call0_v7 (h1 h2 h3) (x : (⟨S16x512x512, .f32⟩ : BufTy).Contents (Elt F)) :
    (TRef.of (T := ⟨S16x512x512, .f32⟩) main_call0_v7 h1 h2 h3).toBuf x = x := (Eq.refl x).trans rfl
theorem ofBuf_main_call0_v7 (h1 h2 h3) (x : (⟨S16x512x512, .f32⟩ : BufTy).Contents (Elt F)) :
    (TRef.of (T := ⟨S16x512x512, .f32⟩) main_call0_v7 h1 h2 h3).ofBuf x = x := (Eq.refl x).trans rfl
theorem toBuf_main_call0_v8 (h1 h2 h3) (x : (⟨S16x1x512x512, .f32⟩ : BufTy).Contents (Elt F)) :
    (TRef.of (T := ⟨S16x1x512x512, .f32⟩) main_call0_v8 h1 h2 h3).toBuf x = x := (Eq.refl x).trans rfl
theorem ofBuf_main_call0_v8 (h1 h2 h3) (x : (⟨S16x1x512x512, .f32⟩ : BufTy).Contents (Elt F)) :
    (TRef.of (T := ⟨S16x1x512x512, .f32⟩) main_call0_v8 h1 h2 h3).ofBuf x = x := (Eq.refl x).trans rfl
theorem toBuf_main_call0_v9 (h1 h2 h3) (x : (⟨S16x1x512x512, .f32⟩ : BufTy).Contents (Elt F)) :
    (TRef.of (T := ⟨S16x1x512x512, .f32⟩) main_call0_v9 h1 h2 h3).toBuf x = x := (Eq.refl x).trans rfl
theorem ofBuf_main_call0_v9 (h1 h2 h3) (x : (⟨S16x1x512x512, .f32⟩ : BufTy).Contents (Elt F)) :
    (TRef.of (T := ⟨S16x1x512x512, .f32⟩) main_call0_v9 h1 h2 h3).ofBuf x = x := (Eq.refl x).trans rfl
theorem toBuf_main_call0_v10 (h1 h2 h3) (x : (⟨S16x4x512x512, .f32⟩ : BufTy).Contents (Elt F)) :
    (TRef.of (T := ⟨S16x4x512x512, .f32⟩) main_call0_v10 h1 h2 h3).toBuf x = x := (Eq.refl x).trans rfl
theorem ofBuf_main_call0_v10 (h1 h2 h3) (x : (⟨S16x4x512x512, .f32⟩ : BufTy).Contents (Elt F)) :
    (TRef.of (T := ⟨S16x4x512x512, .f32⟩) main_call0_v10 h1 h2 h3).ofBuf x = x := (Eq.refl x).trans rfl
theorem toBuf_main_v0 (h1 h2 h3) (x : (⟨S16x4x512x512, .f32⟩ : BufTy).Contents (Elt F)) :
    (TRef.of (T := ⟨S16x4x512x512, .f32⟩) main_v0 h1 h2 h3).toBuf x = x := (Eq.refl x).trans rfl
theorem ofBuf_main_v0 (h1 h2 h3) (x : (⟨S16x4x512x512, .f32⟩ : BufTy).Contents (Elt F)) :
    (TRef.of (T := ⟨S16x4x512x512, .f32⟩) main_v0 h1 h2 h3).ofBuf x = x := (Eq.refl x).trans rfl
theorem toBuf_main_call1_c (h1 h2 h3) (x : (⟨S_, .i32⟩ : BufTy).Contents (Elt F)) :
    (TRef.of (T := ⟨S_, .i32⟩) main_call1_c h1 h2 h3).toBuf x = x := (Eq.refl x).trans rfl
theorem ofBuf_main_call1_c (h1 h2 h3) (x : (⟨S_, .i32⟩ : BufTy).Contents (Elt F)) :
    (TRef.of (T := ⟨S_, .i32⟩) main_call1_c h1 h2 h3).ofBuf x = x := (Eq.refl x).trans rfl
theorem toBuf_main_call1_v0 (h1 h2 h3) (x : (⟨S16x1x512x512, .i32⟩ : BufTy).Contents (Elt F)) :
    (TRef.of (T := ⟨S16x1x512x512, .i32⟩) main_call1_v0 h1 h2 h3).toBuf x = x := (Eq.refl x).trans rfl
theorem ofBuf_main_call1_v0 (h1 h2 h3) (x : (⟨S16x1x512x512, .i32⟩ : BufTy).Contents (Elt F)) :
    (TRef.of (T := ⟨S16x1x512x512, .i32⟩) main_call1_v0 h1 h2 h3).ofBuf x = x := (Eq.refl x).trans rfl
theorem toBuf_main_v1 (h1 h2 h3) (x : (⟨S16x1x512x512, .i32⟩ : BufTy).Contents (Elt F)) :
    (TRef.of (T := ⟨S16x1x512x512, .i32⟩) main_v1 h1 h2 h3).toBuf x = x := (Eq.refl x).trans rfl
theorem ofBuf_main_v1 (h1 h2 h3) (x : (⟨S16x1x512x512, .i32⟩ : BufTy).Contents (Elt F)) :
    (TRef.of (T := ⟨S16x1x512x512, .i32⟩) main_v1 h1 h2 h3).ofBuf x = x := (Eq.refl x).trans rfl
theorem toBuf_main_call1_v1 (h1 h2 h3) (x : (⟨S16x1x512x512, .i1⟩ : BufTy).Contents (Elt F)) :
    (TRef.of (T := ⟨S16x1x512x512, .i1⟩) main_call1_v1 h1 h2 h3).toBuf x = x := (Eq.refl x).trans rfl
theorem ofBuf_main_call1_v1 (h1 h2 h3) (x : (⟨S16x1x512x512, .i1⟩ : BufTy).Contents (Elt F)) :
    (TRef.of (T := ⟨S16x1x512x512, .i1⟩) main_call1_v1 h1 h2 h3).ofBuf x = x := (Eq.refl x).trans rfl
theorem toBuf_main_call1_c_0 (h1 h2 h3) (x : (⟨S_, .i32⟩ : BufTy).Contents (Elt F)) :
    (TRef.of (T := ⟨S_, .i32⟩) main_call1_c_0 h1 h2 h3).toBuf x = x := (Eq.refl x).trans rfl
theorem ofBuf_main_call1_c_0 (h1 h2 h3) (x : (⟨S_, .i32⟩ : BufTy).Contents (Elt F)) :
    (TRef.of (T := ⟨S_, .i32⟩) main_call1_c_0 h1 h2 h3).ofBuf x = x := (Eq.refl x).trans rfl
theorem toBuf_main_call1_v2 (h1 h2 h3) (x : (⟨S16x1x512x512, .i32⟩ : BufTy).Contents (Elt F)) :
    (TRef.of (T := ⟨S16x1x512x512, .i32⟩) main_call1_v2 h1 h2 h3).toBuf x = x := (Eq.refl x).trans rfl
theorem ofBuf_main_call1_v2 (h1 h2 h3) (x : (⟨S16x1x512x512, .i32⟩ : BufTy).Contents (Elt F)) :
    (TRef.of (T := ⟨S16x1x512x512, .i32⟩) main_call1_v2 h1 h2 h3).ofBuf x = x := (Eq.refl x).trans rfl
theorem toBuf_main_call1_v3 (h1 h2 h3) (x : (⟨S16x1x512x512, .i32⟩ : BufTy).Contents (Elt F)) :
    (TRef.of (T := ⟨S16x1x512x512, .i32⟩) main_call1_v3 h1 h2 h3).toBuf x = x := (Eq.refl x).trans rfl
theorem ofBuf_main_call1_v3 (h1 h2 h3) (x : (⟨S16x1x512x512, .i32⟩ : BufTy).Contents (Elt F)) :
    (TRef.of (T := ⟨S16x1x512x512, .i32⟩) main_call1_v3 h1 h2 h3).ofBuf x = x := (Eq.refl x).trans rfl
theorem toBuf_main_call1_v4 (h1 h2 h3) (x : (⟨S16x1x512x512, .i32⟩ : BufTy).Contents (Elt F)) :
    (TRef.of (T := ⟨S16x1x512x512, .i32⟩) main_call1_v4 h1 h2 h3).toBuf x = x := (Eq.refl x).trans rfl
theorem ofBuf_main_call1_v4 (h1 h2 h3) (x : (⟨S16x1x512x512, .i32⟩ : BufTy).Contents (Elt F)) :
    (TRef.of (T := ⟨S16x1x512x512, .i32⟩) main_call1_v4 h1 h2 h3).ofBuf x = x := (Eq.refl x).trans rfl
theorem toBuf_main_call1_v5 (h1 h2 h3) (x : (⟨S16x1x512x512x1, .i32⟩ : BufTy).Contents (Elt F)) :
    (TRef.of (T := ⟨S16x1x512x512x1, .i32⟩) main_call1_v5 h1 h2 h3).toBuf x = x := (Eq.refl x).trans rfl
theorem ofBuf_main_call1_v5 (h1 h2 h3) (x : (⟨S16x1x512x512x1, .i32⟩ : BufTy).Contents (Elt F)) :
    (TRef.of (T := ⟨S16x1x512x512x1, .i32⟩) main_call1_v5 h1 h2 h3).ofBuf x = x := (Eq.refl x).trans rfl
theorem toBuf_main_call1_c_1 (h1 h2 h3) (x : (⟨S1, .i32⟩ : BufTy).Contents (Elt F)) :
    (TRef.of (T := ⟨S1, .i32⟩) main_call1_c_1 h1 h2 h3).toBuf x = x := (Eq.refl x).trans rfl
theorem ofBuf_main_call1_c_1 (h1 h2 h3) (x : (⟨S1, .i32⟩ : BufTy).Contents (Elt F)) :
    (TRef.of (T := ⟨S1, .i32⟩) main_call1_c_1 h1 h2 h3).ofBuf x = x := (Eq.refl x).trans rfl
theorem toBuf_main_call1_c_2 (h1 h2 h3) (x : (⟨S_, .i32⟩ : BufTy).Contents (Elt F)) :
    (TRef.of (T := ⟨S_, .i32⟩) main_call1_c_2 h1 h2 h3).toBuf x = x := (Eq.refl x).trans rfl
theorem ofBuf_main_call1_c_2 (h1 h2 h3) (x : (⟨S_, .i32⟩ : BufTy).Contents (Elt F)) :
    (TRef.of (T := ⟨S_, .i32⟩) main_call1_c_2 h1 h2 h3).ofBuf x = x := (Eq.refl x).trans rfl
theorem toBuf_main_call1_v6 (h1 h2 h3) (x : (⟨S16x1x512x512x1, .i32⟩ : BufTy).Contents (Elt F)) :
    (TRef.of (T := ⟨S16x1x512x512x1, .i32⟩) main_call1_v6 h1 h2 h3).toBuf x = x := (Eq.refl x).trans rfl
theorem ofBuf_main_call1_v6 (h1 h2 h3) (x : (⟨S16x1x512x512x1, .i32⟩ : BufTy).Contents (Elt F)) :
    (TRef.of (T := ⟨S16x1x512x512x1, .i32⟩) main_call1_v6 h1 h2 h3).ofBuf x = x := (Eq.refl x).trans rfl
theorem toBuf_main_call1_v7 (h1 h2 h3) (x : (⟨S16x1x512x512x1, .i1⟩ : BufTy).Contents (Elt F)) :
    (TRef.of (T := ⟨S16x1x512x512x1, .i1⟩) main_call1_v7 h1 h2 h3).toBuf x = x := (Eq.refl x).trans rfl
theorem ofBuf_main_call1_v7 (h1 h2 h3) (x : (⟨S16x1x512x512x1, .i1⟩ : BufTy).Contents (Elt F)) :
    (TRef.of (T := ⟨S16x1x512x512x1, .i1⟩) main_call1_v7 h1 h2 h3).ofBuf x = x := (Eq.refl x).trans rfl
theorem toBuf_main_call1_v8 (h1 h2 h3) (x : (⟨S1x1x1x1x1, .i32⟩ : BufTy).Contents (Elt F)) :
    (TRef.of (T := ⟨S1x1x1x1x1, .i32⟩) main_call1_v8 h1 h2 h3).toBuf x = x := (Eq.refl x).trans rfl
theorem ofBuf_main_call1_v8 (h1 h2 h3) (x : (⟨S1x1x1x1x1, .i32⟩ : BufTy).Contents (Elt F)) :
    (TRef.of (T := ⟨S1x1x1x1x1, .i32⟩) main_call1_v8 h1 h2 h3).ofBuf x = x := (Eq.refl x).trans rfl
theorem toBuf_main_call1_v9 (h1 h2 h3) (x : (⟨S16x1x512x512x1, .i32⟩ : BufTy).Contents (Elt F)) :
    (TRef.of (T := ⟨S16x1x512x512x1, .i32⟩) main_call1_v9 h1 h2 h3).toBuf x = x := (Eq.refl x).trans rfl
theorem ofBuf_main_call1_v9 (h1 h2 h3) (x : (⟨S16x1x512x512x1, .i32⟩ : BufTy).Contents (Elt F)) :
    (TRef.of (T := ⟨S16x1x512x512x1, .i32⟩) main_call1_v9 h1 h2 h3).ofBuf x = x := (Eq.refl x).trans rfl
theorem toBuf_main_call1_v10 (h1 h2 h3) (x : (⟨S16x1x512x512x1, .i1⟩ : BufTy).Contents (Elt F)) :
    (TRef.of (T := ⟨S16x1x512x512x1, .i1⟩) main_call1_v10 h1 h2 h3).toBuf x = x := (Eq.refl x).trans rfl
theorem ofBuf_main_call1_v10 (h1 h2 h3) (x : (⟨S16x1x512x512x1, .i1⟩ : BufTy).Contents (Elt F)) :
    (TRef.of (T := ⟨S16x1x512x512x1, .i1⟩) main_call1_v10 h1 h2 h3).ofBuf x = x := (Eq.refl x).trans rfl
theorem toBuf_main_call1_v11 (h1 h2 h3) (x : (⟨S16x1x512x512x1, .i1⟩ : BufTy).Contents (Elt F)) :
    (TRef.of (T := ⟨S16x1x512x512x1, .i1⟩) main_call1_v11 h1 h2 h3).toBuf x = x := (Eq.refl x).trans rfl
theorem ofBuf_main_call1_v11 (h1 h2 h3) (x : (⟨S16x1x512x512x1, .i1⟩ : BufTy).Contents (Elt F)) :
    (TRef.of (T := ⟨S16x1x512x512x1, .i1⟩) main_call1_v11 h1 h2 h3).ofBuf x = x := (Eq.refl x).trans rfl
theorem toBuf_main_call1_c_3 (h1 h2 h3) (x : (⟨S_, .i1⟩ : BufTy).Contents (Elt F)) :
    (TRef.of (T := ⟨S_, .i1⟩) main_call1_c_3 h1 h2 h3).toBuf x = x := (Eq.refl x).trans rfl
theorem ofBuf_main_call1_c_3 (h1 h2 h3) (x : (⟨S_, .i1⟩ : BufTy).Contents (Elt F)) :
    (TRef.of (T := ⟨S_, .i1⟩) main_call1_c_3 h1 h2 h3).ofBuf x = x := (Eq.refl x).trans rfl
theorem toBuf_main_call1_v12 (h1 h2 h3) (x : (⟨S16x1x512x512, .i1⟩ : BufTy).Contents (Elt F)) :
    (TRef.of (T := ⟨S16x1x512x512, .i1⟩) main_call1_v12 h1 h2 h3).toBuf x = x := (Eq.refl x).trans rfl
theorem ofBuf_main_call1_v12 (h1 h2 h3) (x : (⟨S16x1x512x512, .i1⟩ : BufTy).Contents (Elt F)) :
    (TRef.of (T := ⟨S16x1x512x512, .i1⟩) main_call1_v12 h1 h2 h3).ofBuf x = x := (Eq.refl x).trans rfl
theorem toBuf_main_call1_v13 (h1 h2 h3) (x : (⟨S16x1x512x512, .f32⟩ : BufTy).Contents (Elt F)) :
    (TRef.of (T := ⟨S16x1x512x512, .f32⟩) main_call1_v13 h1 h2 h3).toBuf x = x := (Eq.refl x).trans rfl
theorem ofBuf_main_call1_v13 (h1 h2 h3) (x : (⟨S16x1x512x512, .f32⟩ : BufTy).Contents (Elt F)) :
    (TRef.of (T := ⟨S16x1x512x512, .f32⟩) main_call1_v13 h1 h2 h3).ofBuf x = x := (Eq.refl x).trans rfl
theorem toBuf_main_call1_cst (h1 h2 h3) (x : (⟨S_, .f32⟩ : BufTy).Contents (Elt F)) :
    (TRef.of (T := ⟨S_, .f32⟩) main_call1_cst h1 h2 h3).toBuf x = x := (Eq.refl x).trans rfl
theorem ofBuf_main_call1_cst (h1 h2 h3) (x : (⟨S_, .f32⟩ : BufTy).Contents (Elt F)) :
    (TRef.of (T := ⟨S_, .f32⟩) main_call1_cst h1 h2 h3).ofBuf x = x := (Eq.refl x).trans rfl
theorem toBuf_main_call1_v14 (h1 h2 h3) (x : (⟨S16x1x512x512, .f32⟩ : BufTy).Contents (Elt F)) :
    (TRef.of (T := ⟨S16x1x512x512, .f32⟩) main_call1_v14 h1 h2 h3).toBuf x = x := (Eq.refl x).trans rfl
theorem ofBuf_main_call1_v14 (h1 h2 h3) (x : (⟨S16x1x512x512, .f32⟩ : BufTy).Contents (Elt F)) :
    (TRef.of (T := ⟨S16x1x512x512, .f32⟩) main_call1_v14 h1 h2 h3).ofBuf x = x := (Eq.refl x).trans rfl
theorem toBuf_main_v2 (h1 h2 h3) (x : (⟨S16x1x512x512, .f32⟩ : BufTy).Contents (Elt F)) :
    (TRef.of (T := ⟨S16x1x512x512, .f32⟩) main_v2 h1 h2 h3).toBuf x = x := (Eq.refl x).trans rfl
theorem ofBuf_main_v2 (h1 h2 h3) (x : (⟨S16x1x512x512, .f32⟩ : BufTy).Contents (Elt F)) :
    (TRef.of (T := ⟨S16x1x512x512, .f32⟩) main_v2 h1 h2 h3).ofBuf x = x := (Eq.refl x).trans rfl

/-! ## A reshape's result at the literal shapes -/

theorem reshape_main_call1_v5 (he hn hx hy) (V : Valuation τ sig (Elt F)) :
    (reshape (τ := τ) (Val := Elt F) main_call1_v4 main_call1_v5 he hn hx hy).result V (Proc.devRef .tc main_call1_v5)
      = shapeCast S16x1x512x512x1 (V (Proc.devRef .tc main_call1_v4)) shapeCasts_S16x1x512x512_S16x1x512x512x1 :=
  (reshape_result main_call1_v4 main_call1_v5 he hn hx hy V).trans rfl

theorem reshape_main_v3 (he hn hx hy) (V : Valuation τ sig (Elt F)) :
    (reshape (τ := τ) (Val := Elt F) main_v2 main_v3 he hn hx hy).result V (Proc.devRef .tc main_v3)
      = shapeCast S16x512x512 (V (Proc.devRef .tc main_v2)) shapeCasts_S16x1x512x512_S16x512x512 :=
  (reshape_result main_v2 main_v3 he hn hx hy V).trans rfl

/-- The fold of a literal list of operations at one buffer: each operation's result at its own buffer is its
    function of the operands' contents, at any other buffer what was there; the two reshapes at their literal shapes. -/
macro "after_lit" : tactic =>
  `(tactic| (simp only [after_cons, after_nil]
             repeat (first
               | rw [reshape_main_call1_v5] | rw [reshape_main_v3]
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The seventy-nine operations in seven stretches -/

/-- Stretch 1 (operations 1 to 15): the log-softmax call: the row maximum, the shifted scores, their exponentials' sum over the class axis, its logarithm, the difference. -/
def s1 : List (HloOp τ sig (Elt F)) :=
  [ TRef.nullary (TRef.of (T := ⟨S_, .f32⟩) main_call0_cst) (constant S_ .f32 0xFF800000#32),
    TRef.binary (TRef.of (T := ⟨S16x4x512x512, .f32⟩) main_arg0) (TRef.of (T := ⟨S_, .f32⟩) main_call0_cst) (TRef.of (T := ⟨S16x512x512, .f32⟩) main_call0_v0) (fun x v => Host.reduce FloatOps.maximumf x v reducesTo_S16x4x512x512_S16x512x512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16x512x512, .f32⟩) main_call0_v1) (broadcastInDim S16x512x512 ![] bcast_S_S16x512x512),
    TRef.binary (TRef.of (T := ⟨S16x512x512, .f32⟩) main_call0_v1) (TRef.of (T := ⟨S16x512x512, .f32⟩) main_call0_v0) (TRef.of (T := ⟨S16x512x512, .f32⟩) main_call0_v2) maximumf,
    TRef.unary (TRef.of (T := ⟨S16x512x512, .f32⟩) main_call0_v2) (TRef.of (T := ⟨S16x1x512x512, .f32⟩) main_call0_v3) (broadcastInDim S16x1x512x512 ![0, 2, 3] bcast_S16x512x512_S16x1x512x512_0_2_3),
    TRef.unary (TRef.of (T := ⟨S16x1x512x512, .f32⟩) main_call0_v3) (TRef.of (T := ⟨S16x4x512x512, .f32⟩) main_call0_v4) (broadcastInDim S16x4x512x512 ![0, 1, 2, 3] bcast_S16x1x512x512_S16x4x512x512_0_1_2_3),
    TRef.binary (TRef.of (T := ⟨S16x4x512x512, .f32⟩) main_arg0) (TRef.of (T := ⟨S16x4x512x512, .f32⟩) main_call0_v4) (TRef.of (T := ⟨S16x4x512x512, .f32⟩) main_call0_v5) subf,
    TRef.unary (TRef.of (T := ⟨S16x4x512x512, .f32⟩) main_call0_v5) (TRef.of (T := ⟨S16x4x512x512, .f32⟩) main_call0_v6) Host.exp,
    TRef.nullary (TRef.of (T := ⟨S_, .f32⟩) main_call0_cst_1) (constant S_ .f32 0x00000000#32),
    TRef.binary (TRef.of (T := ⟨S16x4x512x512, .f32⟩) main_call0_v6) (TRef.of (T := ⟨S_, .f32⟩) main_call0_cst_1) (TRef.of (T := ⟨S16x512x512, .f32⟩) main_call0_v7) (fun x v => Host.reduceAdd x v reducesTo_S16x4x512x512_S16x512x512_d1 h_S_),
    TRef.unary (TRef.of (T := ⟨S16x512x512, .f32⟩) main_call0_v7) (TRef.of (T := ⟨S16x1x512x512, .f32⟩) main_call0_v8) (broadcastInDim S16x1x512x512 ![0, 2, 3] bcast_S16x512x512_S16x1x512x512_0_2_3),
    TRef.unary (TRef.of (T := ⟨S16x1x512x512, .f32⟩) main_call0_v8) (TRef.of (T := ⟨S16x1x512x512, .f32⟩) main_call0_v9) Host.log,
    TRef.unary (TRef.of (T := ⟨S16x1x512x512, .f32⟩) main_call0_v9) (TRef.of (T := ⟨S16x4x512x512, .f32⟩) main_call0_v10) (broadcastInDim S16x4x512x512 ![0, 1, 2, 3] bcast_S16x1x512x512_S16x4x512x512_0_1_2_3),
    TRef.binary (TRef.of (T := ⟨S16x4x512x512, .f32⟩) main_call0_v5) (TRef.of (T := ⟨S16x4x512x512, .f32⟩) main_call0_v10) (TRef.of (T := ⟨S16x4x512x512, .f32⟩) main_v0) subf ]

/-- Stretch 2 (operations 16 to 24): the labels broadcast to a unit class axis, and the gather call's index: a negative label has the class count added, then the unit index axis is appended. -/
def s2 : List (HloOp τ sig (Elt F)) :=
  [ unary main_arg1 main_v1 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16x1x512x512, .i32⟩) main_call1_v0) (broadcastInDim S16x1x512x512 ![] bcast_S_S16x1x512x512),
    TRef.binary (TRef.of (T := ⟨S16x1x512x512, .i32⟩) main_v1) (TRef.of (T := ⟨S16x1x512x512, .i32⟩) main_call1_v0) (TRef.of (T := ⟨S16x1x512x512, .i1⟩) main_call1_v1) (cmpi .slt),
    TRef.nullary (TRef.of (T := ⟨S_, .i32⟩) main_call1_c_0) (constantI S_ 32 4#32),
    TRef.unary (TRef.of (T := ⟨S_, .i32⟩) main_call1_c_0) (TRef.of (T := ⟨S16x1x512x512, .i32⟩) main_call1_v2) (broadcastInDim S16x1x512x512 ![] bcast_S_S16x1x512x512),
    TRef.binary (TRef.of (T := ⟨S16x1x512x512, .i32⟩) main_v1) (TRef.of (T := ⟨S16x1x512x512, .i32⟩) main_call1_v2) (TRef.of (T := ⟨S16x1x512x512, .i32⟩) main_call1_v3) addi,
    TRef.ternary (TRef.of (T := ⟨S16x1x512x512, .i1⟩) main_call1_v1) (TRef.of (T := ⟨S16x1x512x512, .i32⟩) main_call1_v3) (TRef.of (T := ⟨S16x1x512x512, .i32⟩) main_v1) (TRef.of (T := ⟨S16x1x512x512, .i32⟩) main_call1_v4) select,
    TRef.reshape (TRef.of (T := ⟨S16x1x512x512, .i32⟩) main_call1_v4) (TRef.of (T := ⟨S16x1x512x512x1, .i32⟩) main_call1_v5) rfl shapeCasts_S16x1x512x512_S16x1x512x512x1 ]

/-- Stretch 3 (operations 25 to 38): the gather call's remainder: the index is tested against the range 0..3, the log-probabilities are gathered along the class axis, and an out-of-range index yields the not-a-number fill. -/
def s3 : List (HloOp τ sig (Elt F)) :=
  [ TRef.nullary (TRef.of (T := ⟨S1, .i32⟩) main_call1_c_1) (constantI S1 32 3#32),
    TRef.nullary (TRef.of (T := ⟨S_, .i32⟩) main_call1_c_2) (constantI S_ 32 0#32),
    TRef.unary (TRef.of (T := ⟨S_, .i32⟩) main_call1_c_2) (TRef.of (T := ⟨S16x1x512x512x1, .i32⟩) main_call1_v6) (broadcastInDim S16x1x512x512x1 ![] bcast_S_S16x1x512x512x1),
    TRef.binary (TRef.of (T := ⟨S16x1x512x512x1, .i32⟩) main_call1_v5) (TRef.of (T := ⟨S16x1x512x512x1, .i32⟩) main_call1_v6) (TRef.of (T := ⟨S16x1x512x512x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S16x1x512x512x1, .i32⟩) main_call1_v9) (broadcastInDim S16x1x512x512x1 ![0, 1, 2, 3, 4] bcast_S1x1x1x1x1_S16x1x512x512x1_0_1_2_3_4),
    TRef.binary (TRef.of (T := ⟨S16x1x512x512x1, .i32⟩) main_call1_v5) (TRef.of (T := ⟨S16x1x512x512x1, .i32⟩) main_call1_v9) (TRef.of (T := ⟨S16x1x512x512x1, .i1⟩) main_call1_v10) (cmpi .sle),
    TRef.binary (TRef.of (T := ⟨S16x1x512x512x1, .i1⟩) main_call1_v7) (TRef.of (T := ⟨S16x1x512x512x1, .i1⟩) main_call1_v10) (TRef.of (T := ⟨S16x1x512x512x1, .i1⟩) main_call1_v11) andi,
    TRef.nullary (TRef.of (T := ⟨S_, .i1⟩) main_call1_c_3) (constantI S_ 1 1#1),
    TRef.binary (TRef.of (T := ⟨S16x1x512x512x1, .i1⟩) main_call1_v11) (TRef.of (T := ⟨S_, .i1⟩) main_call1_c_3) (TRef.of (T := ⟨S16x1x512x512, .i1⟩) main_call1_v12) (fun x v => Host.reduce IntOp.andi x v reducesTo_S16x1x512x512x1_S16x1x512x512_d4 h_S_),
    TRef.binary (TRef.of (T := ⟨S16x4x512x512, .f32⟩) main_v0) (TRef.of (T := ⟨S16x1x512x512x1, .i32⟩) main_call1_v5) (TRef.of (T := ⟨S16x1x512x512, .f32⟩) main_call1_v13) (fun x i => Host.gather gather_S16x4x512x512_S16x1x512x512x1_S16x1x512x512_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S16x1x512x512, .f32⟩) main_call1_v14) (broadcastInDim S16x1x512x512 ![] bcast_S_S16x1x512x512),
    TRef.ternary (TRef.of (T := ⟨S16x1x512x512, .i1⟩) main_call1_v12) (TRef.of (T := ⟨S16x1x512x512, .f32⟩) main_call1_v13) (TRef.of (T := ⟨S16x1x512x512, .f32⟩) main_call1_v14) (TRef.of (T := ⟨S16x1x512x512, .f32⟩) main_v2) select ]

/-- Stretch 4 (operations 39 to 44): the cross-entropy tail: the gathered values reshaped, summed over everything, divided by the element count, negated. -/
def s4 : List (HloOp τ sig (Elt F)) :=
  [ reshape main_v2 main_v3 rfl shapeCasts_S16x1x512x512_S16x512x512,
    nullary main_cst (constant S_ .f32 0x00000000#32),
    binary main_v3 main_cst main_v4 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
    nullary main_cst_0 (constant S_ .f32 0x4A800000#32),
    binary main_v4 main_cst_0 main_v5 (Host.divf : (⟨S_, .f32⟩ : BufTy).Contents (Elt F) → (⟨S_, .f32⟩ : BufTy).Contents (Elt F) → (⟨S_, .f32⟩ : BufTy).Contents (Elt F)),
    unary main_v5 main_v6 (Host.negf : (⟨S_, .f32⟩ : BufTy).Contents (Elt F) → (⟨S_, .f32⟩ : BufTy).Contents (Elt F)) ]

/-- Stretch 5 (operations 45 to 52): the per-sample count of scores equal to the label read as a float. -/
def s5 : List (HloOp τ sig (Elt F)) :=
  [ unary main_arg1 main_v7 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    unary main_v7 main_v8 (sitofp .f32 : (⟨S16x1x512x512, .i32⟩ : BufTy).Contents (Elt F) → (⟨S16x1x512x512, .f32⟩ : BufTy).Contents (Elt F)),
    unary main_v8 main_v9 (broadcastInDim S16x4x512x512 ![0, 1, 2, 3] bcast_S16x1x512x512_S16x4x512x512_0_1_2_3 : (⟨S16x1x512x512, .f32⟩ : BufTy).Contents (Elt F) → (⟨S16x4x512x512, .f32⟩ : BufTy).Contents (Elt F)),
    binary main_arg0 main_v9 main_v10 (cmpf .oeq : (⟨S16x4x512x512, .f32⟩ : BufTy).Contents (Elt F) → (⟨S16x4x512x512, .f32⟩ : BufTy).Contents (Elt F) → (⟨S16x4x512x512, .i1⟩ : BufTy).Contents (Elt F)),
    unary main_v10 main_v11 ((extui 32 · natLt_1_32) : (⟨S16x4x512x512, .i1⟩ : BufTy).Contents (Elt F) → (⟨S16x4x512x512, .i32⟩ : BufTy).Contents (Elt F)),
    nullary main_c (constantI S_ 32 0#32),
    binary main_v11 main_c main_v12 ((fun x v => Host.reduce IntOp.addi x v reducesTo_S16x4x512x512_S16_d1_2_3 h_S_) : (⟨S16x4x512x512, .i32⟩ : BufTy).Contents (Elt F) → (⟨S_, .i32⟩ : BufTy).Contents (Elt F) → (⟨S16, .i32⟩ : BufTy).Contents (Elt F)),
    unary main_v12 main_v13 (sitofp .f32 : (⟨S16, .i32⟩ : BufTy).Contents (Elt F) → (⟨S16, .f32⟩ : BufTy).Contents (Elt F)) ]

/-- Stretch 6 (operations 53 to 58): the sum of all scores plus the sum of all labels. -/
def s6 : List (HloOp τ sig (Elt F)) :=
  [ nullary main_cst_1 (constant S_ .f32 0x00000000#32),
    binary main_arg0 main_cst_1 main_v14 ((fun x v => Host.reduceAdd x v reducesTo_S16x4x512x512_S_d0_1_2_3 h_S_) : (⟨S16x4x512x512, .f32⟩ : BufTy).Contents (Elt F) → (⟨S_, .f32⟩ : BufTy).Contents (Elt F) → (⟨S_, .f32⟩ : BufTy).Contents (Elt F)),
    nullary main_c_2 (constantI S_ 32 0#32),
    binary main_arg1 main_c_2 main_v15 ((fun x v => Host.reduce IntOp.addi x v reducesTo_S16x512x512_S_d0_1_2 h_S_) : (⟨S16x512x512, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    binary main_v14 main_v16 main_v17 (addf : (⟨S_, .f32⟩ : BufTy).Contents (Elt F) → (⟨S_, .f32⟩ : BufTy).Contents (Elt F) → (⟨S_, .f32⟩ : BufTy).Contents (Elt F)) ]

/-- Stretch 7 (operations 59 to 79): the tail: twice the count plus epsilon over the union plus epsilon, averaged over the sixteen samples, one minus that, and the half-and-half blend with the cross-entropy term. -/
def s7 : List (HloOp τ sig (Elt F)) :=
  [ nullary main_cst_3 (constant S_ .f32 0x40000000#32),
    unary main_cst_3 main_v18 (broadcastInDim S16 ![] bcast_S_S16 : (⟨S_, .f32⟩ : BufTy).Contents (Elt F) → (⟨S16, .f32⟩ : BufTy).Contents (Elt F)),
    binary main_v18 main_v13 main_v19 (mulf : (⟨S16, .f32⟩ : BufTy).Contents (Elt F) → (⟨S16, .f32⟩ : BufTy).Contents (Elt F) → (⟨S16, .f32⟩ : BufTy).Contents (Elt F)),
    nullary main_cst_4 (constant S_ .f32 0x322BCC77#32),
    unary main_cst_4 main_v20 (broadcastInDim S16 ![] bcast_S_S16 : (⟨S_, .f32⟩ : BufTy).Contents (Elt F) → (⟨S16, .f32⟩ : BufTy).Contents (Elt F)),
    binary main_v19 main_v20 main_v21 (addf : (⟨S16, .f32⟩ : BufTy).Contents (Elt F) → (⟨S16, .f32⟩ : BufTy).Contents (Elt F) → (⟨S16, .f32⟩ : BufTy).Contents (Elt F)),
    nullary main_cst_5 (constant S_ .f32 0x322BCC77#32),
    binary main_v17 main_cst_5 main_v22 (addf : (⟨S_, .f32⟩ : BufTy).Contents (Elt F) → (⟨S_, .f32⟩ : BufTy).Contents (Elt F) → (⟨S_, .f32⟩ : BufTy).Contents (Elt F)),
    unary main_v22 main_v23 (broadcastInDim S16 ![] bcast_S_S16 : (⟨S_, .f32⟩ : BufTy).Contents (Elt F) → (⟨S16, .f32⟩ : BufTy).Contents (Elt F)),
    binary main_v21 main_v23 main_v24 (Host.divf : (⟨S16, .f32⟩ : BufTy).Contents (Elt F) → (⟨S16, .f32⟩ : BufTy).Contents (Elt F) → (⟨S16, .f32⟩ : BufTy).Contents (Elt F)),
    nullary main_cst_6 (constant S_ .f32 0x00000000#32),
    binary main_v24 main_cst_6 main_v25 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_7 (constant S_ .f32 0x41800000#32),
    binary main_v25 main_cst_7 main_v26 (Host.divf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_cst_8 main_v26 main_v27 (subf : (⟨S_, .f32⟩ : BufTy).Contents (Elt F) → (⟨S_, .f32⟩ : BufTy).Contents (Elt F) → (⟨S_, .f32⟩ : BufTy).Contents (Elt F)),
    nullary main_cst_9 (constant S_ .f32 0x3F000000#32),
    binary main_cst_9 main_v6 main_v28 (mulf : (⟨S_, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v27 main_v29 (mulf : (⟨S_, .f32⟩ : BufTy).Contents (Elt F) → (⟨S_, .f32⟩ : BufTy).Contents (Elt F) → (⟨S_, .f32⟩ : BufTy).Contents (Elt F)),
    binary main_v28 main_v29 main_v30 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem ops_split : (ops : List (HloOp τ sig (Elt F))) = s1 ++ (s2 ++ (s3 ++ (s4 ++ (s5 ++ (s6 ++ s7))))) := rfl

theorem after_split (V : Valuation τ sig (Elt F)) :
    after (ops (F := F)) V = after s7 (after s6 (after s5 (after s4 (after s3 (after s2 (after s1 V)))))) := by
  rw [ops_split, after_append, after_append, after_append, after_append, after_append, after_append]

/-! ## Stretch 1 -/

set_option maxRecDepth 8192 in
set_option maxHeartbeats 4000000 in
theorem s1_v0 (W : Valuation τ sig (Elt F)) :
    after (s1 (F := F)) W (Proc.devRef .tc main_v0) = val_main_v0 (F := F) (W (Proc.devRef .tc main_arg0)) := by
  unfold s1
  after_lit
  simp only [toBuf_main_call0_cst, ofBuf_main_call0_cst, toBuf_main_arg0, ofBuf_main_arg0, toBuf_main_call0_v0, ofBuf_main_call0_v0, toBuf_main_call0_cst_0, ofBuf_main_call0_cst_0, toBuf_main_call0_v1, ofBuf_main_call0_v1, toBuf_main_call0_v2, ofBuf_main_call0_v2, toBuf_main_call0_v3, ofBuf_main_call0_v3, toBuf_main_call0_v4, ofBuf_main_call0_v4, toBuf_main_call0_v5, ofBuf_main_call0_v5, toBuf_main_call0_v6, ofBuf_main_call0_v6, toBuf_main_call0_cst_1, ofBuf_main_call0_cst_1, toBuf_main_call0_v7, ofBuf_main_call0_v7, toBuf_main_call0_v8, ofBuf_main_call0_v8, toBuf_main_call0_v9, ofBuf_main_call0_v9, toBuf_main_call0_v10, ofBuf_main_call0_v10, toBuf_main_v0, ofBuf_main_v0]
  rfl

set_option maxRecDepth 8192 in
set_option maxHeartbeats 4000000 in
theorem s1_arg0 (W : Valuation τ sig (Elt F)) :
    after (s1 (F := F)) W (Proc.devRef .tc main_arg0) = W (Proc.devRef .tc main_arg0) := by
  unfold s1
  after_lit

set_option maxRecDepth 8192 in
set_option maxHeartbeats 4000000 in
theorem s1_arg1 (W : Valuation τ sig (Elt F)) :
    after (s1 (F := F)) W (Proc.devRef .tc main_arg1) = W (Proc.devRef .tc main_arg1) := by
  unfold s1
  after_lit

/-! ## Stretch 2 -/

set_option maxRecDepth 8192 in
set_option maxHeartbeats 4000000 in
theorem s2_call1_v5 (W : Valuation τ sig (Elt F)) :
    after (s2 (F := F)) W (Proc.devRef .tc main_call1_v5) = val_main_call1_v5 (F := F) (W (Proc.devRef .tc main_arg1)) := by
  unfold s2
  after_lit
  simp only [toBuf_main_call1_c, ofBuf_main_call1_c, toBuf_main_call1_v0, ofBuf_main_call1_v0, toBuf_main_v1, ofBuf_main_v1, toBuf_main_call1_v1, ofBuf_main_call1_v1, toBuf_main_call1_c_0, ofBuf_main_call1_c_0, toBuf_main_call1_v2, ofBuf_main_call1_v2, toBuf_main_call1_v3, ofBuf_main_call1_v3, toBuf_main_call1_v4, ofBuf_main_call1_v4, toBuf_main_call1_v5, ofBuf_main_call1_v5]
  rfl

set_option maxRecDepth 8192 in
set_option maxHeartbeats 4000000 in
theorem s2_v0 (W : Valuation τ sig (Elt F)) :
    after (s2 (F := F)) W (Proc.devRef .tc main_v0) = W (Proc.devRef .tc main_v0) := by
  unfold s2
  after_lit

set_option maxRecDepth 8192 in
set_option maxHeartbeats 4000000 in
theorem s2_arg0 (W : Valuation τ sig (Elt F)) :
    after (s2 (F := F)) W (Proc.devRef .tc main_arg0) = W (Proc.devRef .tc main_arg0) := by
  unfold s2
  after_lit

set_option maxRecDepth 8192 in
set_option maxHeartbeats 4000000 in
theorem s2_arg1 (W : Valuation τ sig (Elt F)) :
    after (s2 (F := F)) W (Proc.devRef .tc main_arg1) = W (Proc.devRef .tc main_arg1) := by
  unfold s2
  after_lit

/-! ## Stretch 3 -/

/-- The gather call's result from the log-probabilities `a0` and the index `a5`: where the index lies in 0..3 the
    gathered value, elsewhere the fill. -/
def st_v2 (a0 : (⟨S16x4x512x512, .f32⟩ : BufTy).Contents (Elt F)) (a5 : (⟨S16x1x512x512x1, .i32⟩ : BufTy).Contents (Elt F)) : (⟨S16x1x512x512, .f32⟩ : BufTy).Contents (Elt F) :=
  select (Host.reduce IntOp.andi (andi (cmpi .sge a5 (val_main_call1_v6 (F := F))) (cmpi .sle a5 (val_main_call1_v9 (F := F))))
      (val_main_call1_c_3 (F := F)) reducesTo_S16x1x512x512x1_S16x1x512x512_d4 h_S_)
    (Host.gather gather_S16x4x512x512_S16x1x512x512x1_S16x1x512x512_n_1_023_023_1_4_1111 a0 a5)
    (val_main_call1_v14 (F := F))

theorem st_v2_eq (x0 : (⟨S16x4x512x512, .f32⟩ : BufTy).Contents (Elt F)) (x1 : (⟨S16x512x512, .i32⟩ : BufTy).Contents (Elt F)) :
    st_v2 (F := F) (val_main_v0 x0) (val_main_call1_v5 x1) = val_main_v2 x0 x1 := by
  simp only [st_v2, val_main_v2, val_main_call1_v12, val_main_call1_v11, val_main_call1_v7, val_main_call1_v10, val_main_call1_v13]

set_option maxRecDepth 8192 in
set_option maxHeartbeats 4000000 in
theorem s3_v2 (W : Valuation τ sig (Elt F)) :
    after (s3 (F := F)) W (Proc.devRef .tc main_v2)
      = st_v2 (F := F) (W (Proc.devRef .tc main_v0)) (W (Proc.devRef .tc main_call1_v5)) := by
  unfold s3
  after_lit
  simp only [toBuf_main_call1_c_1, ofBuf_main_call1_c_1, toBuf_main_call1_c_2, ofBuf_main_call1_c_2, toBuf_main_call1_v6, ofBuf_main_call1_v6, toBuf_main_call1_v5, ofBuf_main_call1_v5, toBuf_main_call1_v7, ofBuf_main_call1_v7, toBuf_main_call1_v8, ofBuf_main_call1_v8, toBuf_main_call1_v9, ofBuf_main_call1_v9, toBuf_main_call1_v10, ofBuf_main_call1_v10, toBuf_main_call1_v11, ofBuf_main_call1_v11, toBuf_main_call1_c_3, ofBuf_main_call1_c_3, toBuf_main_call1_v12, ofBuf_main_call1_v12, toBuf_main_v0, ofBuf_main_v0, toBuf_main_call1_v13, ofBuf_main_call1_v13, toBuf_main_call1_cst, ofBuf_main_call1_cst, toBuf_main_call1_v14, ofBuf_main_call1_v14, toBuf_main_v2, ofBuf_main_v2]
  rfl

set_option maxRecDepth 8192 in
set_option maxHeartbeats 4000000 in
theorem s3_arg0 (W : Valuation τ sig (Elt F)) :
    after (s3 (F := F)) W (Proc.devRef .tc main_arg0) = W (Proc.devRef .tc main_arg0) := by
  unfold s3
  after_lit

set_option maxRecDepth 8192 in
set_option maxHeartbeats 4000000 in
theorem s3_arg1 (W : Valuation τ sig (Elt F)) :
    after (s3 (F := F)) W (Proc.devRef .tc main_arg1) = W (Proc.devRef .tc main_arg1) := by
  unfold s3
  after_lit

/-! ## Stretch 4 -/

/-- The cross-entropy term from the gathered values `a2`: minus their sum over the element count. -/
def st_v6 (a2 : (⟨S16x1x512x512, .f32⟩ : BufTy).Contents (Elt F)) : (⟨S_, .f32⟩ : BufTy).Contents (Elt F) :=
  Host.negf (Host.divf (Host.reduceAdd (shapeCast S16x512x512 a2 shapeCasts_S16x1x512x512_S16x512x512) (val_main_cst (F := F))
    reducesTo_S16x512x512_S_d0_1_2 h_S_) (val_main_cst_0 (F := F)))

theorem st_v6_eq (x0 : (⟨S16x4x512x512, .f32⟩ : BufTy).Contents (Elt F)) (x1 : (⟨S16x512x512, .i32⟩ : BufTy).Contents (Elt F)) :
    st_v6 (F := F) (val_main_v2 x0 x1) = val_main_v6 x0 x1 := by
  simp only [st_v6, val_main_v6, val_main_v5, val_main_v4, val_main_v3]

set_option maxRecDepth 8192 in
set_option maxHeartbeats 4000000 in
theorem s4_v6 (W : Valuation τ sig (Elt F)) :
    after (s4 (F := F)) W (Proc.devRef .tc main_v6) = st_v6 (F := F) (W (Proc.devRef .tc main_v2)) := by
  unfold s4
  after_lit
  rfl

set_option maxRecDepth 8192 in
set_option maxHeartbeats 4000000 in
theorem s4_arg0 (W : Valuation τ sig (Elt F)) :
    after (s4 (F := F)) W (Proc.devRef .tc main_arg0) = W (Proc.devRef .tc main_arg0) := by
  unfold s4
  after_lit

set_option maxRecDepth 8192 in
set_option maxHeartbeats 4000000 in
theorem s4_arg1 (W : Valuation τ sig (Elt F)) :
    after (s4 (F := F)) W (Proc.devRef .tc main_arg1) = W (Proc.devRef .tc main_arg1) := by
  unfold s4
  after_lit

/-! ## Stretch 5 -/

set_option maxRecDepth 8192 in
set_option maxHeartbeats 4000000 in
theorem s5_v13 (W : Valuation τ sig (Elt F)) :
    after (s5 (F := F)) W (Proc.devRef .tc main_v13)
      = val_main_v13 (F := F) (W (Proc.devRef .tc main_arg0)) (W (Proc.devRef .tc main_arg1)) := by
  unfold s5
  after_lit
  rfl

set_option maxRecDepth 8192 in
set_option maxHeartbeats 4000000 in
theorem s5_v6 (W : Valuation τ sig (Elt F)) :
    after (s5 (F := F)) W (Proc.devRef .tc main_v6) = W (Proc.devRef .tc main_v6) := by
  unfold s5
  after_lit

set_option maxRecDepth 8192 in
set_option maxHeartbeats 4000000 in
theorem s5_arg0 (W : Valuation τ sig (Elt F)) :
    after (s5 (F := F)) W (Proc.devRef .tc main_arg0) = W (Proc.devRef .tc main_arg0) := by
  unfold s5
  after_lit

set_option maxRecDepth 8192 in
set_option maxHeartbeats 4000000 in
theorem s5_arg1 (W : Valuation τ sig (Elt F)) :
    after (s5 (F := F)) W (Proc.devRef .tc main_arg1) = W (Proc.devRef .tc main_arg1) := by
  unfold s5
  after_lit

/-! ## Stretch 6 -/

set_option maxRecDepth 8192 in
set_option maxHeartbeats 4000000 in
theorem s6_v17 (W : Valuation τ sig (Elt F)) :
    after (s6 (F := F)) W (Proc.devRef .tc main_v17)
      = val_main_v17 (F := F) (W (Proc.devRef .tc main_arg0)) (W (Proc.devRef .tc main_arg1)) := by
  unfold s6
  after_lit
  rfl

set_option maxRecDepth 8192 in
set_option maxHeartbeats 4000000 in
theorem s6_v6 (W : Valuation τ sig (Elt F)) :
    after (s6 (F := F)) W (Proc.devRef .tc main_v6) = W (Proc.devRef .tc main_v6) := by
  unfold s6
  after_lit

set_option maxRecDepth 8192 in
set_option maxHeartbeats 4000000 in
theorem s6_v13 (W : Valuation τ sig (Elt F)) :
    after (s6 (F := F)) W (Proc.devRef .tc main_v13) = W (Proc.devRef .tc main_v13) := by
  unfold s6
  after_lit

set_option maxRecDepth 8192 in
set_option maxHeartbeats 4000000 in
theorem s6_arg0 (W : Valuation τ sig (Elt F)) :
    after (s6 (F := F)) W (Proc.devRef .tc main_arg0) = W (Proc.devRef .tc main_arg0) := by
  unfold s6
  after_lit

set_option maxRecDepth 8192 in
set_option maxHeartbeats 4000000 in
theorem s6_arg1 (W : Valuation τ sig (Elt F)) :
    after (s6 (F := F)) W (Proc.devRef .tc main_arg1) = W (Proc.devRef .tc main_arg1) := by
  unfold s6
  after_lit

/-! ## Stretch 7 -/

/-- The result from the cross-entropy term `a6`, the per-sample counts `a13` and the union `a17`. -/
def st_v30 (a6 : (⟨S_, .f32⟩ : BufTy).Contents (Elt F)) (a13 : (⟨S16, .f32⟩ : BufTy).Contents (Elt F)) (a17 : (⟨S_, .f32⟩ : BufTy).Contents (Elt F)) : (⟨S_, .f32⟩ : BufTy).Contents (Elt F) :=
  addf (mulf (val_main_cst_9 (F := F)) a6)
    (mulf (val_main_cst_10 (F := F)) (subf (val_main_cst_8 (F := F))
      (Host.divf (Host.reduceAdd
        (Host.divf (addf (mulf (val_main_v18 (F := F)) a13) (val_main_v20 (F := F)))
          (broadcastInDim S16 ![] bcast_S_S16 (addf a17 (val_main_cst_5 (F := F)))))
        (val_main_cst_6 (F := F)) reducesTo_S16_S_d0 h_S_) (val_main_cst_7 (F := F)))))

theorem st_v30_eq (x0 : (⟨S16x4x512x512, .f32⟩ : BufTy).Contents (Elt F)) (x1 : (⟨S16x512x512, .i32⟩ : BufTy).Contents (Elt F)) :
    st_v30 (F := F) (val_main_v6 x0 x1) (val_main_v13 x0 x1) (val_main_v17 x0 x1) = val_main_v30 x0 x1 := by
  simp only [st_v30, val_main_v30, val_main_v29, val_main_v28, val_main_v27, val_main_v26, val_main_v25, val_main_v24,
    val_main_v23, val_main_v22, val_main_v21, val_main_v19]

set_option maxRecDepth 8192 in
set_option maxHeartbeats 4000000 in
theorem s7_v30 (W : Valuation τ sig (Elt F)) :
    after (s7 (F := F)) W (Proc.devRef .tc main_v30)
      = st_v30 (F := F) (W (Proc.devRef .tc main_v6)) (W (Proc.devRef .tc main_v13)) (W (Proc.devRef .tc main_v17)) := by
  unfold s7
  after_lit
  rfl

set_option maxRecDepth 8192 in
set_option maxHeartbeats 4000000 in
theorem s7_arg0 (W : Valuation τ sig (Elt F)) :
    after (s7 (F := F)) W (Proc.devRef .tc main_arg0) = W (Proc.devRef .tc main_arg0) := by
  unfold s7
  after_lit

set_option maxRecDepth 8192 in
set_option maxHeartbeats 4000000 in
theorem s7_arg1 (W : Valuation τ sig (Elt F)) :
    after (s7 (F := F)) W (Proc.devRef .tc main_arg1) = W (Proc.devRef .tc main_arg1) := by
  unfold s7
  after_lit

/-! ## The whole run

The seven stretches in a row: each result is read from the stretch that writes it, carried unchanged through the
stretches after it, and the stage functions fold back to the reference's last stage. -/

theorem after_arg0 (m : (ℓ : Loc nD τ sig) → Buf (Elt F) ℓ) (c : Dev nD) :
    after (ops (F := F)) (launchContents m c) (Proc.devRef .tc main_arg0) = m ((c.tc : Thread nD τ).loc main_arg0) := by
  rw [after_split, s7_arg0, s6_arg0, s5_arg0, s4_arg0, s3_arg0, s2_arg0, s1_arg0] <;> rfl

theorem after_arg1 (m : (ℓ : Loc nD τ sig) → Buf (Elt F) ℓ) (c : Dev nD) :
    after (ops (F := F)) (launchContents m c) (Proc.devRef .tc main_arg1) = m ((c.tc : Thread nD τ).loc main_arg1) := by
  rw [after_split, s7_arg1, s6_arg1, s5_arg1, s4_arg1, s3_arg1, s2_arg1, s1_arg1] <;> rfl

theorem after_result (m : (ℓ : Loc nD τ sig) → Buf (Elt F) ℓ) (c : Dev nD) :
    after (ops (F := F)) (launchContents m c) (Proc.devRef .tc main_v30)
      = val_main_v30 (F := F) (m ((c.tc : Thread nD τ).loc main_arg0)) (m ((c.tc : Thread nD τ).loc main_arg1)) := by
  rw [after_split, s7_v30,
    s6_v6, s6_v13, s6_v17,
    s5_v6, s5_v13, s5_arg0, s5_arg1,
    s4_v6, s4_arg0, s4_arg1,
    s3_v2, s3_arg0, s3_arg1,
    s2_v0, s2_call1_v5, s2_arg0, s2_arg1,
    s1_v0, s1_arg0, s1_arg1,
    st_v2_eq, st_v6_eq, st_v30_eq] <;> rfl

end Cert.ReferenceIdeal.RefAfter

end
-- ==== Proof.RefRunValue.lean ====
/-
  The reference's run, with its result named: every weakly fair execution ends with the result buffer at the last
  stage of the operations (the fold of the operations over the launch contents, read stage by stage) and the two
  argument buffers as launched (no operation writes them).
-/
import proofs.«418105_j64226940944624_3_alg».proof.Proof.RefRun
import proofs.«418105_j64226940944624_3_alg».proof.Proof.RefRead
import proofs.«418105_j64226940944624_3_alg».proof.Proof.RefAfter

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = Cert.ReferenceIdeal.ReadP.val_main_v30 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v30).trans (Cert.ReferenceIdeal.RefAfter.after_result m c),
       (h c main_arg0).trans (Cert.ReferenceIdeal.RefAfter.after_arg0 m c),
       (h c main_arg1).trans (Cert.ReferenceIdeal.RefAfter.after_arg1 m c)⟩)
    (Cert.ReferenceIdeal.ValueP.run_after m ρ)

end Cert.ReferenceIdeal.RunValue

end
-- ==== Proof.RefValue.lean ====
/-
  The whole-array program's result as the three whole-array numbers.

  Read one operation at a time at the extended reals, the program computes, for scores p (16 samples × 4 classes ×
  512 × 512 pixels) and labels t (16 × 512 × 512 words, each a class 0..3):

  * log-softmax of the scores along the class axis: the maximum over the four classes is a fold of max from −∞
    (and max (−∞) x = x), the class sum of exp (score − max) is a sum from 0, and the entry at a place is
    (score − max) − log of that sum;
  * the entry of that array at each pixel's own label: a label below 4 is non-negative as a signed word, so the
    step that adds 4 to a negative index keeps it, both range tests 0 ≤ label ≤ 3 hold, the conjunction over the
    unit index axis is one, the clamp of the label into 0..3 is the label, and the select keeps the gathered entry;
    the sum of these entries over all pixels, from 0, is the cross-entropy sum;
  * per sample, the number of (class, pixel) places whose score equals the pixel's label converted to a number:
    the comparison bits are widened to 32-bit words and added as words; each is 0 or 1 and there are 2²⁴ places in
    all, fewer than 2³¹, so the word sum neither wraps nor turns negative and converts to the count in the naturals;
  * the sum of all scores, from 0, plus the sum of all labels: the labels are added as words, at most 3 · 2²²
    in total, again below 2³¹;
  * the closing arithmetic ½ · (−(S / 2²²)) + ½ · (1 − (0 + Σₙ (2 · Iₙ + ε) / (U + ε)) / 16).

  Indices are named coordinate by coordinate throughout: a broadcast reads its operand at the kept coordinates, a
  reshape that adds or drops a unit axis keeps the other coordinates (the row-major position is the same), a
  reduction over one axis ranges over that axis's coordinate inserted into the result index, and the gather reads
  the operand at (sample, start index, row, column) with sample, row and column taken from the result place.
-/
import proofs.«418105_j64226940944624_3_alg».proof.Proof.RefRead
import proofs.«418105_j64226940944624_3_alg».proof.Proof.Spec
import proofs.«418105_j64226940944624_3_alg».proof.Proof.LibSumAll
import proofs.«418105_j64226940944624_3_alg».proof.Proof.Consts
import Idealize.ShloMosaic.Lib.Pipeline.Value
import Idealize.ShloMosaic.Lib.ValueIdx
import Idealize.ShloMosaic.PureOps.Ideal.Laws
import Idealize.ShloMosaic.PureOps.Reduce
import Idealize.ShloMosaic.Lib.StableHlo.Predicate

noncomputable section

namespace Cert.ReferenceIdeal.RefValue

open Cert.Spec Cert.ReferenceIdeal Cert.ReferenceIdeal.ReadP Idealize.ShloMosaic Idealize.ShloMosaic.ValueIdx

/-- The class axis of the scores, as a one-axis reduction. -/
theorem hRedClass : S16x4x512x512.Reduces [1] S16x512x512 := by decide

/-- Pixel `J` with class `c` inserted is the place (sample, c, row, column). -/
theorem lift_class (J : ST.Idx) (c : Fin 4) : hRedClass.lift J c = ix4 (J 0) c (J 1) (J 2) := by
  funext a; apply Fin.ext
  match a with | ⟨0, _⟩ => rfl | ⟨1, _⟩ => rfl | ⟨2, _⟩ => rfl | ⟨3, _⟩ => rfl

/-- The maximum over the class axis, from −∞, is the largest of the pixel's four scores. -/
theorem call0_v0_eq (p : SP.Idx → EReal) (J : ST.Idx) : val_main_call0_v0 (F := Ideal) p J = mx p J := by
  unfold val_main_call0_v0
  rw [Host.reduce_eq_fold_single _ _ _ _ hRedClass]
  have hinit : val_main_call0_cst (F := Ideal) (Shape.Idx.first Gen.h_S_) = (⊥ : EReal) := Cert.Consts.neg_inf_bits
  have hf : (p ∘ hRedClass.lift J) = fun c => p (ix4 (J 0) c (J 1) (J 2)) :=
    funext fun c => congrArg p (lift_class J c)
  rw [hinit, hf]
  rfl

/-- The maximum again with a −∞ splat changes nothing. -/
theorem call0_v2_eq (p : SP.Idx → EReal) (J : ST.Idx) : val_main_call0_v2 (F := Ideal) p J = mx p J := by
  rw [val_main_call0_v2_apply, val_main_call0_v1_apply, call0_v0_eq]
  show max (Ideal.ofBits .f32 0xFF800000#32) (mx p J) = mx p J
  rw [Cert.Consts.neg_inf_bits]
  exact max_eq_right bot_le

/-- The maximum laid back over the classes: at a place it is its pixel's maximum. -/
theorem call0_v4_eq (p : SP.Idx → EReal) (I : SP.Idx) :
    val_main_call0_v4 (F := Ideal) p I = mx p (ix3 (I 0) (I 2) (I 3)) := by
  rw [val_main_call0_v4_apply, val_main_call0_v3_apply, call0_v2_eq]
  exact congrArg (mx p) (funext fun a => by match a with | ⟨0, _⟩ => rfl | ⟨1, _⟩ => rfl | ⟨2, _⟩ => rfl)

/-- The class sum of exp (score − max) at a pixel. -/
theorem call0_v7_eq (p : SP.Idx → EReal) (J : ST.Idx) : val_main_call0_v7 (F := Ideal) p J = sx p J := by
  rw [val_main_call0_v7_apply]
  show Ideal.ofBits .f32 0x00000000#32 + _ = _
  rw [Ideal.ofBits_zero_f32, zero_add]
  unfold sx
  refine Finset.sum_congr rfl fun c _ => ?_
  rw [val_main_call0_v6_apply, val_main_call0_v5_apply, call0_v4_eq]
  have hI : idx_main_call0_v7 J c = ix4 (J 0) c (J 1) (J 2) := by
    funext a; match a with | ⟨0, _⟩ => rfl | ⟨1, _⟩ => rfl | ⟨2, _⟩ => rfl | ⟨3, _⟩ => rfl
  rw [hI]
  exact congrArg (fun q => Ideal.exp (p (ix4 (J 0) c (J 1) (J 2)) - mx p q)) (eq_ix3 J).symm

/-- Log-softmax at a place: (score − max) − log Σ exp (score − max). -/
theorem v0_eq (p : SP.Idx → EReal) (I : SP.Idx) : val_main_v0 (F := Ideal) p I = logpAt p I := by
  rw [val_main_v0_apply, val_main_call0_v5_apply, call0_v4_eq, val_main_call0_v10_apply, val_main_call0_v9_apply,
    val_main_call0_v8_apply, call0_v7_eq]
  have hI : idx_main_call0_v8 (idx_main_call0_v10 I) = ix3 (I 0) (I 2) (I 3) := by
    funext a; match a with | ⟨0, _⟩ => rfl | ⟨1, _⟩ => rfl | ⟨2, _⟩ => rfl
  rw [hI]
  rfl

/-- The place (sample, 0, row, column) of the one-class array reads pixel (sample, row, column). -/
theorem idx_v1_eq (i : S16x1x512x512.Idx) : idx_main_v1 i = ix3 (i 0) (i 2) (i 3) := by
  funext a; match a with | ⟨0, _⟩ => rfl | ⟨1, _⟩ => rfl | ⟨2, _⟩ => rfl

/-- A label below 4 is not negative as a signed word, so the wrap-around step "add 4 to a negative index" keeps it. -/
theorem call1_v4_eq (t : ST.Idx → BitVec 32) (ht : ∀ J, (t J).toNat < 4) (i : S16x1x512x512.Idx) :
    val_main_call1_v4 (F := Ideal) t i = t (ix3 (i 0) (i 2) (i 3)) := by
  rw [val_main_call1_v4_apply, val_main_call1_v1_apply, val_main_v1_apply, val_main_call1_v0_apply, idx_v1_eq]
  have hlt := ht (ix3 (i 0) (i 2) (i 3))
  have h0 : IntOp.cmpi .slt (t (ix3 (i 0) (i 2) (i 3))) (0#32 : BitVec 32) = 0#1 := by
    apply eq_zero_of_ne_one
    intro h
    exact Nat.not_lt_zero _ ((StableHlo.Predicate.slt_iff_toNat (by omega) (by decide)).mp h)
  show Scalar.select (IntOp.cmpi .slt (t (ix3 (i 0) (i 2) (i 3))) (0#32 : BitVec 32)) _ _ = _
  rw [h0, select_zero]
  rfl

/-- The index array with a trailing unit axis reads the same label. -/
theorem call1_v5_eq (t : ST.Idx → BitVec 32) (ht : ∀ J, (t J).toNat < 4) (k : S16x1x512x512x1.Idx) :
    val_main_call1_v5 (F := Ideal) t k = t (ix3 (k 0) (k 2) (k 3)) := by
  rw [val_main_call1_v5_apply, call1_v4_eq t ht]
  have h0 : (k 0).val < 16 := (k 0).isLt
  have h1 : (k 1).val < 1 := (k 1).isLt
  have h2 : (k 2).val < 512 := (k 2).isLt
  have h3 : (k 3).val < 512 := (k 3).isLt
  have h4 : (k 4).val < 1 := (k 4).isLt
  refine congrArg t (funext fun a => Fin.ext ?_)
  match a with
  | ⟨0, _⟩ => show (((((k 0).val * 1 + (k 1).val) * 512 + (k 2).val) * 512 + (k 3).val) * 1 + (k 4).val) / 262144 = (k 0).val; omega
  | ⟨1, _⟩ => show (((((k 0).val * 1 + (k 1).val) * 512 + (k 2).val) * 512 + (k 3).val) * 1 + (k 4).val) / 512 % 512 = (k 2).val; omega
  | ⟨2, _⟩ => show (((((k 0).val * 1 + (k 1).val) * 512 + (k 2).val) * 512 + (k 3).val) * 1 + (k 4).val) % 512 = (k 3).val; omega

/-- Both range tests (0 ≤ label, label ≤ 3) hold for a label below 4. -/
theorem call1_v11_eq (t : ST.Idx → BitVec 32) (ht : ∀ J, (t J).toNat < 4) (k : S16x1x512x512x1.Idx) :
    val_main_call1_v11 (F := Ideal) t k = 1#1 := by
  rw [val_main_call1_v11_apply, val_main_call1_v7_apply, val_main_call1_v10_apply, call1_v5_eq t ht,
    val_main_call1_v6_apply, val_main_call1_v9_apply, val_main_call1_v8_apply]
  have hlt := ht (ix3 (k 0) (k 2) (k 3))
  have h7 : IntOp.cmpi .sge (t (ix3 (k 0) (k 2) (k 3))) (0#32 : BitVec 32) = 1#1 :=
    (StableHlo.Predicate.sge_iff_toNat (by omega) (by decide)).mpr (Nat.zero_le _)
  have h10 : IntOp.cmpi .sle (t (ix3 (k 0) (k 2) (k 3))) (3#32 : BitVec 32) = 1#1 :=
    (StableHlo.Predicate.sle_iff_toNat (by omega) (by decide)).mpr (by show _ ≤ 3; omega)
  show IntOp.andi (IntOp.cmpi .sge (t (ix3 (k 0) (k 2) (k 3))) (0#32 : BitVec 32))
      (IntOp.cmpi .sle (t (ix3 (k 0) (k 2) (k 3))) (3#32 : BitVec 32)) = 1#1
  rw [h7, h10]; rfl

/-- A conjunction of bits that are all one, from one, is one. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, ih (fun i hi => hf i (Finset.mem_cons_of_mem hi)), hf a (Finset.mem_cons_self a S)]; rfl

/-- So the in-range mask is one everywhere. -/
theorem call1_v12_eq (t : ST.Idx → BitVec 32) (ht : ∀ J, (t J).toNat < 4) (i : S16x1x512x512.Idx) :
    val_main_call1_v12 (F := Ideal) t i = 1#1 := by
  unfold val_main_call1_v12
  rw [Host.reduce_eq_fold]
  exact fold_andi_one _ _ (fun k _ => call1_v11_eq t ht k)

/-- A start-indices coordinate of a result place is the place's coordinate on the batch axis in the same position. -/
theorem siCoord_val {s si t : Shape} (d : GatherDims s si t) (j : t.Idx) (b : Fin si.rank) (hb : b ∈ d.siKept)
    (c : Fin t.rank) (hc : d.batchDims[d.siKept.idxOf b]? = some c) : (d.siCoord j b hb).val = (j c).val := by
  obtain ⟨h, e⟩ := List.getElem?_eq_some_iff.mp hc
  unfold GatherDims.siCoord
  simp only [Fin.val_cast]
  exact congrArg (fun x => (j x).val) e

/-- The gather's operand index on the three batch axes (sample, row, column) is the result place's coordinate, and on the
    class axis the start index read signed off the index array at (sample, 0, row, column, 0), clamped into 0..3. -/
theorem gather_idx (idx : S16x1x512x512x1.Idx → BitVec 32) (j : S16x1x512x512.Idx) :
    gather_S16x4x512x512_S16x1x512x512x1_S16x1x512x512_n_1_023_023_1_4_1111.operandIdx j idx
      = ix4 (j 0) ⟨min (idx (ix5 (j 0) (j 1) (j 2) (j 3) (0 : Fin 1))).toInt.toNat 3, by omega⟩ (j 2) (j 3) := by
  funext a; apply Fin.ext
  match a with
  | ⟨0, _⟩ =>
    show gather_S16x4x512x512_S16x1x512x512x1_S16x1x512x512_n_1_023_023_1_4_1111.start j idx 0
      + gather_S16x4x512x512_S16x1x512x512x1_S16x1x512x512_n_1_023_023_1_4_1111.batchCoord j 0
      + gather_S16x4x512x512_S16x1x512x512x1_S16x1x512x512_n_1_023_023_1_4_1111.offCoord j 0 = (j 0).val
    have hb : (0 : Fin 4) ∈ gather_S16x4x512x512_S16x1x512x512x1_S16x1x512x512_n_1_023_023_1_4_1111.operandBatchingDims := by decide
    rw [GatherDims.start_batching _ _ _ _ hb, GatherDims.offCoord_eq_zero _ _ _ (fun h => ((GatherDims.mem_sKept _ _).mp h).2 hb)]
    unfold GatherDims.batchCoord
    rw [dif_pos hb, Nat.zero_add, Nat.add_zero]
    exact siCoord_val _ j _ _ 0 (by decide +revert)
  | ⟨2, _⟩ =>
    show gather_S16x4x512x512_S16x1x512x512x1_S16x1x512x512_n_1_023_023_1_4_1111.start j idx 2
      + gather_S16x4x512x512_S16x1x512x512x1_S16x1x512x512_n_1_023_023_1_4_1111.batchCoord j 2
      + gather_S16x4x512x512_S16x1x512x512x1_S16x1x512x512_n_1_023_023_1_4_1111.offCoord j 2 = (j 2).val
    have hb : (2 : Fin 4) ∈ gather_S16x4x512x512_S16x1x512x512x1_S16x1x512x512_n_1_023_023_1_4_1111.operandBatchingDims := by decide
    rw [GatherDims.start_batching _ _ _ _ hb, GatherDims.offCoord_eq_zero _ _ _ (fun h => ((GatherDims.mem_sKept _ _).mp h).2 hb)]
    unfold GatherDims.batchCoord
    rw [dif_pos hb, Nat.zero_add, Nat.add_zero]
    exact siCoord_val _ j _ _ 2 (by decide +revert)
  | ⟨3, _⟩ =>
    show gather_S16x4x512x512_S16x1x512x512x1_S16x1x512x512_n_1_023_023_1_4_1111.start j idx 3
      + gather_S16x4x512x512_S16x1x512x512x1_S16x1x512x512_n_1_023_023_1_4_1111.batchCoord j 3
      + gather_S16x4x512x512_S16x1x512x512x1_S16x1x512x512_n_1_023_023_1_4_1111.offCoord j 3 = (j 3).val
    have hb : (3 : Fin 4) ∈ gather_S16x4x512x512_S16x1x512x512x1_S16x1x512x512_n_1_023_023_1_4_1111.operandBatchingDims := by decide
    rw [GatherDims.start_batching _ _ _ _ hb, GatherDims.offCoord_eq_zero _ _ _ (fun h => ((GatherDims.mem_sKept _ _).mp h).2 hb)]
    unfold GatherDims.batchCoord
    rw [dif_pos hb, Nat.zero_add, Nat.add_zero]
    exact siCoord_val _ j _ _ 3 (by decide +revert)
  | ⟨1, _⟩ =>
    show gather_S16x4x512x512_S16x1x512x512x1_S16x1x512x512_n_1_023_023_1_4_1111.start j idx 1
      + gather_S16x4x512x512_S16x1x512x512x1_S16x1x512x512_n_1_023_023_1_4_1111.batchCoord j 1
      + gather_S16x4x512x512_S16x1x512x512x1_S16x1x512x512_n_1_023_023_1_4_1111.offCoord j 1
      = min (idx (ix5 (j 0) (j 1) (j 2) (j 3) (0 : Fin 1))).toInt.toNat 3
    have hb : (1 : Fin 4) ∉ gather_S16x4x512x512_S16x1x512x512x1_S16x1x512x512_n_1_023_023_1_4_1111.operandBatchingDims := by decide
    have hm : (1 : Fin 4) ∈ gather_S16x4x512x512_S16x1x512x512x1_S16x1x512x512_n_1_023_023_1_4_1111.startIndexMap := by decide
    have hk : (1 : Fin 4) ∉ gather_S16x4x512x512_S16x1x512x512x1_S16x1x512x512_n_1_023_023_1_4_1111.sKept :=
      fun h => ((GatherDims.mem_sKept _ _).mp h).1 (by decide)
    rw [GatherDims.batchCoord_eq_zero _ _ _ hb, GatherDims.offCoord_eq_zero _ _ _ hk, Nat.add_zero]
    unfold GatherDims.start
    rw [dif_pos hm]
    have hsi : gather_S16x4x512x512_S16x1x512x512x1_S16x1x512x512_n_1_023_023_1_4_1111.siIdx j
        ⟨List.idxOf (1 : Fin 4) gather_S16x4x512x512_S16x1x512x512x1_S16x1x512x512_n_1_023_023_1_4_1111.startIndexMap,
          List.idxOf_lt_length_iff.2 hm⟩ = ix5 (j 0) (j 1) (j 2) (j 3) (0 : Fin 1) := by
      funext b; apply Fin.ext
      match b with
      | ⟨0, _⟩ =>
        unfold GatherDims.siIdx
        split
        · next h => exact absurd h (by decide +revert)
        · exact siCoord_val _ j _ _ 0 (by decide +revert)
      | ⟨1, _⟩ =>
        unfold GatherDims.siIdx
        split
        · next h => exact absurd h (by decide +revert)
        · exact siCoord_val _ j _ _ 1 (by decide +revert)
      | ⟨2, _⟩ =>
        unfold GatherDims.siIdx
        split
        · next h => exact absurd h (by decide +revert)
        · exact siCoord_val _ j _ _ 2 (by decide +revert)
      | ⟨3, _⟩ =>
        unfold GatherDims.siIdx
        split
        · next h => exact absurd h (by decide +revert)
        · exact siCoord_val _ j _ _ 3 (by decide +revert)
      | ⟨4, _⟩ =>
        unfold GatherDims.siIdx
        split
        · show List.idxOf (1 : Fin 4) gather_S16x4x512x512_S16x1x512x512x1_S16x1x512x512_n_1_023_023_1_4_1111.startIndexMap = 0
          decide
        · next h => exact absurd (by decide +revert) h
    rw [hsi]
    rfl

/-- The gathered value at a place of the one-class array: log-softmax at the pixel's own label (the label, below 4, is
    its own clamp, and reads the same signed and unsigned). -/
theorem call1_v13_eq (p : SP.Idx → EReal) (t : ST.Idx → BitVec 32) (ht : ∀ J, (t J).toNat < 4) (i : S16x1x512x512.Idx) :
    val_main_call1_v13 (F := Ideal) p t i = tgtLogp p t (ix3 (i 0) (i 2) (i 3)) := by
  unfold val_main_call1_v13 Host.gather
  rw [gather_idx]
  refine (v0_eq p _).trans ?_
  unfold tgtLogp
  have hlab : val_main_call1_v5 (F := Ideal) t (ix5 (i 0) (i 1) (i 2) (i 3) (0 : Fin 1)) = t (ix3 (i 0) (i 2) (i 3)) :=
    call1_v5_eq t ht _
  have hlt := ht (ix3 (i 0) (i 2) (i 3))
  refine congrArg (logpAt p) (funext fun a => ?_)
  match a with
  | ⟨0, _⟩ => rfl
  | ⟨1, _⟩ =>
    apply Fin.ext
    show min (val_main_call1_v5 (F := Ideal) t (ix5 (i 0) (i 1) (i 2) (i 3) (0 : Fin 1))).toInt.toNat 3
      = (t (ix3 (i 0) (i 2) (i 3))).toNat % 4
    rw [hlab, StableHlo.Predicate.toInt_eq_toNat_of_lt (by omega), Int.toNat_natCast]
    omega
  | ⟨2, _⟩ => rfl
  | ⟨3, _⟩ => rfl

/-- With the mask one everywhere the select keeps the gathered value. -/
theorem v2_eq (p : SP.Idx → EReal) (t : ST.Idx → BitVec 32) (ht : ∀ J, (t J).toNat < 4) (i : S16x1x512x512.Idx) :
    val_main_v2 (F := Ideal) p t i = tgtLogp p t (ix3 (i 0) (i 2) (i 3)) := by
  rw [val_main_v2_apply, call1_v12_eq t ht, select_one, call1_v13_eq p t ht]

/-- Dropping the unit class axis: at a pixel, the log-probability of its own label. -/
theorem v3_eq (p : SP.Idx → EReal) (t : ST.Idx → BitVec 32) (ht : ∀ J, (t J).toNat < 4) (J : ST.Idx) :
    val_main_v3 (F := Ideal) p t J = tgtLogp p t J := by
  rw [val_main_v3_apply, v2_eq p t ht]
  have h0 : (J 0).val < 16 := (J 0).isLt
  have h1 : (J 1).val < 512 := (J 1).isLt
  have h2 : (J 2).val < 512 := (J 2).isLt
  refine congrArg (tgtLogp p t) (funext fun a => Fin.ext ?_)
  match a with
  | ⟨0, _⟩ => show (((J 0).val * 512 + (J 1).val) * 512 + (J 2).val) / 262144 = (J 0).val; omega
  | ⟨1, _⟩ => show (((J 0).val * 512 + (J 1).val) * 512 + (J 2).val) / 512 % 512 = (J 1).val; omega
  | ⟨2, _⟩ => show (((J 0).val * 512 + (J 1).val) * 512 + (J 2).val) % 512 = (J 2).val; omega

/-- The cross-entropy sum: 0 + Σ over all pixels of the label's log-probability. -/
theorem v4_eq (p : SP.Idx → EReal) (t : ST.Idx → BitVec 32) (ht : ∀ J, (t J).toNat < 4) :
    val_main_v4 (F := Ideal) p t ix0 = refCE p t := by
  rw [val_main_v4_apply]
  unfold refCE
  simp only [v3_eq p t ht]
  rfl

theorem numel_ST : ST.numel = 4194304 := by
  simp [Shape.numel, Fin.prod_univ_succ]

theorem numel_SP : SP.numel = 16777216 := by
  simp [Shape.numel, Fin.prod_univ_succ]

/-- The union: (0 + Σ of all scores) + the labels' sum. The labels are summed as 32-bit words; each label is at most 3 and
    there are 2²² of them, so the word sum does not wrap, stays below 2³¹, and reads signed as the sum in the naturals. -/
theorem v17_eq (p : SP.Idx → EReal) (t : ST.Idx → BitVec 32) (ht : ∀ J, (t J).toNat < 4) :
    val_main_v17 (F := Ideal) p t ix0 = refUnion p t := by
  classical
  rw [val_main_v17_apply, val_main_v14_apply, val_main_v16_apply]
  have hbound : ∑ J : ST.Idx, (t J).toNat ≤ 3 * 4194304 := by
    calc ∑ J : ST.Idx, (t J).toNat ≤ ∑ _J : ST.Idx, 3 := Finset.sum_le_sum fun J _ => by have := ht J; omega
      _ = 3 * 4194304 := by rw [Finset.sum_const, Finset.card_univ, Shape.card_idx, numel_ST, smul_eq_mul, Nat.mul_comm]
  have hfold : (val_main_v15 (F := Ideal) t ix0).toNat = ∑ J : ST.Idx, (t J).toNat := by
    unfold val_main_v15
    rw [Host.reduce_eq_fold, Finset.filter_true_of_mem (fun i _ => funext fun b => b.elim0)]
    exact StableHlo.Predicate.toNat_fold_addi _ _ (lt_of_le_of_lt hbound (by norm_num))
  have hint : (val_main_v15 (F := Ideal) t ix0).toInt = ((∑ J : ST.Idx, (t J).toNat : ℕ) : ℤ) := by
    rw [StableHlo.Predicate.toInt_eq_toNat_of_lt (by rw [hfold]; omega), hfold]
  show (val_main_cst_1 (F := Ideal) (Shape.Idx.first Gen.h_S_) + ∑ j : S16x4x512x512.Idx, p j)
      + (((val_main_v15 (F := Ideal) t ix0).toInt : ℝ) : EReal) = _
  rw [hint]
  unfold refUnion
  simp only [Int.cast_natCast]
  rfl

/-- The compared word at a (sample, class, pixel) place: the score against the pixel's label converted to a number. -/
theorem v11_eq (p : SP.Idx → EReal) (t : ST.Idx → BitVec 32) (I : SP.Idx) :
    val_main_v11 (F := Ideal) p t I = eqWord p t I := by
  rw [val_main_v11_apply, val_main_v10_apply, val_main_v9_apply, val_main_v8_apply, val_main_v7_apply]
  have hI : idx_main_v7 (idx_main_v9 I) = ix3 (I 0) (I 2) (I 3) := by
    funext a; match a with | ⟨0, _⟩ => rfl | ⟨1, _⟩ => rfl | ⟨2, _⟩ => rfl
  rw [hI]; rfl

/-- Dropping the class and pixel axes of a place keeps its sample. -/
theorem drop_eq_iff (h : S16x4x512x512.ReducesTo [1, 2, 3] S16) (I : SP.Idx) (n : S16.Idx) :
    h.drop I = n ↔ I 0 = n 0 := by
  have hv : (h.drop I 0 : Nat) = I 0 := Shape.ReducesTo.drop_apply_val_of_eq h I 0 0
  constructor
  · intro e; rw [e] at hv; exact Fin.ext hv.symm
  · intro e; funext b; have hb : b = 0 := Subsingleton.elim _ _; subst hb; exact Fin.ext (by rw [hv, e])

/-- The counts: the widened comparison bits of a sample are summed as 32-bit words; each is 0 or 1 and a sample has
    fewer than 2²⁴ places, so the word sum does not wrap, stays below 2³¹, and reads signed as the count in the naturals. -/
theorem v13_eq (p : SP.Idx → EReal) (t : ST.Idx → BitVec 32) (n : S16.Idx) :
    val_main_v13 (F := Ideal) p t n = refCount p t n := by
  rw [val_main_v13_apply]
  have hle : ∀ I, (eqWord p t I).toNat ≤ 1 := fun I => by
    unfold eqWord; rw [StableHlo.Predicate.toNat_setWidth_bit]; split <;> omega
  have hbound : ∑ I ∈ (Finset.univ : Finset SP.Idx).filter (fun I => I 0 = n 0), (eqWord p t I).toNat ≤ 16777216 :=
    calc ∑ I ∈ (Finset.univ : Finset SP.Idx).filter (fun I => I 0 = n 0), (eqWord p t I).toNat
        ≤ ∑ _I ∈ (Finset.univ : Finset SP.Idx).filter (fun I => I 0 = n 0), 1 := Finset.sum_le_sum fun I _ => hle I
      _ = ((Finset.univ : Finset SP.Idx).filter (fun I => I 0 = n 0)).card := (Finset.card_eq_sum_ones _).symm
      _ ≤ Fintype.card SP.Idx := Finset.card_le_univ _
      _ = 16777216 := by rw [Shape.card_idx, numel_SP]
  have hfold : (val_main_v12 (F := Ideal) p t n).toNat
      = ∑ I ∈ (Finset.univ : Finset SP.Idx).filter (fun I => I 0 = n 0), (eqWord p t I).toNat := by
    unfold val_main_v12
    rw [Host.reduce_eq_fold]
    have hS : (Finset.univ.filter fun I : S16x4x512x512.Idx => Gen.reducesTo_S16x4x512x512_S16_d1_2_3.drop I = n)
        = (Finset.univ : Finset SP.Idx).filter (fun I => I 0 = n 0) := by
      ext I
      simp only [Finset.mem_filter, Finset.mem_univ, true_and]
      exact drop_eq_iff _ I n
    rw [hS, (funext fun I => v11_eq p t I : val_main_v11 (F := Ideal) p t = eqWord p t)]
    exact StableHlo.Predicate.toNat_fold_addi _ _ (lt_of_le_of_lt hbound (by norm_num))
  show (((val_main_v12 (F := Ideal) p t n).toInt : ℝ) : EReal) = _
  rw [StableHlo.Predicate.toInt_eq_toNat_of_lt (by rw [hfold]; exact lt_of_le_of_lt hbound (by norm_num)), hfold]
  unfold refCount
  simp only [Int.cast_natCast]

/-- The last operations: ½ · (−(S / 2²²)) + ½ · (1 − (0 + Σₙ (2 · Iₙ + ε) / (U + ε)) / 16), read from the three
    whole-array numbers S (the cross-entropy sum), I (the per-sample counts) and U (the union). -/
theorem tail (p : SP.Idx → EReal) (t : ST.Idx → BitVec 32)
    (h1 : val_main_v4 (F := Ideal) p t ix0 = refCE p t)
    (h2 : ∀ n : S16.Idx, val_main_v13 (F := Ideal) p t n = refCount p t n)
    (h3 : val_main_v17 (F := Ideal) p t ix0 = refUnion p t) :
    val_main_v30 (F := Ideal) p t ix0 = lossR (refCE p t) (refCount p t) (refUnion p t) := by
  rw [val_main_v30_apply, val_main_v28_apply, val_main_v29_apply, val_main_v6_apply, val_main_v5_apply,
    val_main_v27_apply, val_main_v26_apply, val_main_v25_apply, h1]
  have hs : ∀ j : S16.Idx, val_main_v24 (F := Ideal) p t j
      = Ideal.div (cTwo * refCount p t j + cEps) (refUnion p t + cEps) := by
    intro j
    rw [val_main_v24_apply, val_main_v21_apply, val_main_v19_apply, val_main_v23_apply, val_main_v22_apply,
      val_main_v18_apply, val_main_v20_apply, h2, show idx_main_v23 j = ix0 from rfl, h3]
    rfl
  simp only [hs]
  rfl

/-- THE REFERENCE'S VALUE: its result, read at the extended reals, is the whole-array loss of the cross-entropy sum, the
    per-sample counts and the union, when every label is a class 0..3. -/
theorem ref_value (p : SP.Idx → EReal) (t : ST.Idx → BitVec 32) (ht : ∀ J, (t J).toNat < 4) :
    val_main_v30 (F := Ideal) p t ix0 = lossR (refCE p t) (refCount p t) (refUnion p t) :=
  tail p t (v4_eq p t ht) (v13_eq p t) (v17_eq p t ht)

end Cert.ReferenceIdeal.RefValue

end
-- ==== Proof.AlgebraCE.lean ====
/-
  The cross-entropy sum, taken sample by sample, against the same sum taken over the whole arrays.

  For one sample the number formed is

      Σ over (class, pixel) places of [the score if the class is the pixel's label, else 0]
        −  Σ over pixels of log-sum-exp of the pixel's four scores,

  and the whole-array number is  Σ over all pixels of log-softmax at the pixel's own label. When every score is
  a real number and every label is one of the classes 0..3 the two agree:

  * a pixel's largest score is a real number (a maximum of four reals), each exp (score − max) is a positive
    real, so their sum is a positive real and its logarithm a real: a pixel's log-sum-exp is real, and
    score − (log Σ + max) = (score − max) − log Σ  holds as an identity of real numbers;
  * among the four classes exactly one, the label's, matches the label word, so the sum over a pixel's four
    places of "score if the class is the label" is the score at the label's class; regrouping a sample's
    places by pixel turns the first sum into a sum over pixels;
  * for real terms a difference of two sums over the pixels is the sum of the differences;
  * a pixel of the whole array is a sample together with a pixel of that sample, so the double sum over samples
    and their pixels is the sum over all pixels.
-/
import proofs.«418105_j64226940944624_3_alg».proof.Proof.Spec
import proofs.«418105_j64226940944624_3_alg».proof.Proof.LibSumAll
import Idealize.ShloMosaic.PureOps.Ideal.Laws
import Idealize.ShloMosaic.Lib.ValueIdx
import Mathlib.Data.Finset.Fold
import Mathlib.Data.Fintype.BigOperators
import Mathlib.Data.EReal.Operations
import Mathlib.Algebra.Order.BigOperators.Group.Finset

noncomputable section

namespace Cert.AlgebraCE

open Cert.Spec Idealize.ShloMosaic Idealize.ShloMosaic.ValueIdx

/-! ## Four real scores: their maximum, and the logarithm of the sum of their exponentials -/

/-- The largest of four real numbers is a real number: it is at least the first of them, so not −∞, and every
    one of them is below +∞, so it is not +∞. -/
theorem fold_max_real (f : Fin 4 → EReal) (hf : ∀ c, ∃ r : ℝ, f c = r) :
    ∃ m : ℝ, (Finset.univ : Finset (Fin 4)).fold max ⊥ f = m := by
  have hbot : (Finset.univ : Finset (Fin 4)).fold max ⊥ f ≠ ⊥ := by
    obtain ⟨r, hr⟩ := hf 0
    have h : (r : EReal) ≤ (Finset.univ : Finset (Fin 4)).fold max ⊥ f :=
      (Finset.le_fold_max _).mpr (Or.inr ⟨0, Finset.mem_univ _, le_of_eq hr.symm⟩)
    intro h0
    rw [h0] at h
    exact absurd (lt_of_lt_of_le (EReal.bot_lt_coe r) h) (lt_irrefl _)
  have htop : (Finset.univ : Finset (Fin 4)).fold max ⊥ f ≠ ⊤ := by
    have h : (Finset.univ : Finset (Fin 4)).fold max ⊥ f < ⊤ :=
      (Finset.fold_max_lt _).mpr ⟨bot_lt_top, fun c _ => by
        obtain ⟨r, hr⟩ := hf c
        rw [hr]
        exact EReal.coe_lt_top r⟩
    exact ne_of_lt h
  exact ⟨_, (EReal.coe_toReal htop hbot).symm⟩

/-- With four real scores and a real number m, each exp (score − m) is a positive real, their sum is a
    positive real, and its logarithm is a real number. -/
theorem log_sumExp_real (f : Fin 4 → EReal) (hf : ∀ c, ∃ r : ℝ, f c = r) (m : ℝ) :
    ∃ l : ℝ, Ideal.log (∑ c : Fin 4, Ideal.exp (f c - (m : EReal))) = l := by
  choose g hg using hf
  have hsum : ∑ c : Fin 4, Ideal.exp (f c - (m : EReal))
      = ((∑ c : Fin 4, Real.exp (g c - m) : ℝ) : EReal) := by
    rw [Cert.LibSumAll.coe_sum]
    refine Finset.sum_congr rfl (fun c _ => ?_)
    rw [hg c, ← EReal.coe_sub, Ideal.exp_coe]
  have hpos : 0 < ∑ c : Fin 4, Real.exp (g c - m) :=
    Finset.sum_pos (fun c _ => Real.exp_pos _) ⟨0, Finset.mem_univ _⟩
  exact ⟨Real.log (∑ c : Fin 4, Real.exp (g c - m)), by
    rw [hsum, Ideal.log_coe, if_neg (not_le.mpr hpos)]⟩

/-- For real numbers, a − (l + m) = (a − m) − l; read at the extended reals. -/
theorem sub_lse (a m l : ℝ) :
    (a : EReal) - ((l : EReal) + (m : EReal)) = ((a : EReal) - (m : EReal)) - (l : EReal) := by
  norm_cast
  ring

/-! ## A pixel of the whole array -/

/-- A pixel's largest score is a real number when the scores are. -/
theorem mx_real (p : SP.Idx → EReal) (hp : ∀ I, ∃ r : ℝ, p I = r) (J : ST.Idx) : ∃ m : ℝ, mx p J = m :=
  fold_max_real _ (fun _ => hp _)

/-- The logarithm of a pixel's Σ exp (score − max) is a real number when the scores are. -/
theorem log_sx_real (p : SP.Idx → EReal) (hp : ∀ I, ∃ r : ℝ, p I = r) (J : ST.Idx) :
    ∃ l : ℝ, Ideal.log (sx p J) = l := by
  obtain ⟨m, hm⟩ := mx_real p hp J
  unfold sx
  rw [hm]
  exact log_sumExp_real _ (fun _ => hp _) m

/-- A pixel of sample n has the largest score, the Σ exp and so the log-sum-exp of that pixel of the whole
    array: the four scores read are the same four. -/
theorem pixLse_pblk (p : SP.Idx → EReal) (n : Fin 16) (j : STb.Idx) :
    pixLse (pblk p n) j = Ideal.log (sx p (ix3 n (j 1) (j 2))) + mx p (ix3 n (j 1) (j 2)) := rfl

/-! ## The label's class among the four -/

/-- A class c (below 4), written as a word, is the label word w (below 4) exactly when c is w's class. -/
theorem ofNat_eq_iff (c : Fin 4) (w : BitVec 32) (hw : w.toNat < 4) :
    BitVec.ofNat 32 c.val = w ↔ c = cls w := by
  constructor
  · intro h
    have h1 : (BitVec.ofNat 32 c.val).toNat = w.toNat := by rw [h]
    rw [BitVec.toNat_ofNat] at h1
    apply Fin.ext
    show c.val = w.toNat % 4
    have := c.isLt
    omega
  · intro h
    apply BitVec.eq_of_toNat_eq
    rw [BitVec.toNat_ofNat, h]
    show (w.toNat % 4) % 2 ^ 32 = w.toNat
    omega

/-- Over the four classes, the sum of "the class's value if the class is the label, else 0" is the value at the
    label's class: one term matches and the others are 0. -/
theorem sum_sel (f : Fin 4 → EReal) (w : BitVec 32) (hw : w.toNat < 4) :
    ∑ c : Fin 4, (if BitVec.ofNat 32 c.val = w then f c else 0) = f (cls w) := by
  rw [Finset.sum_eq_single (cls w)]
  · rw [if_pos ((ofNat_eq_iff _ w hw).mpr rfl)]
  · intro b _ hb
    rw [if_neg (fun h => hb ((ofNat_eq_iff b w hw).mp h))]
  · intro h
    exact absurd (Finset.mem_univ _) h

/-! ## Regrouping the index sets -/

/-- A (class, pixel) place of one sample is a class together with a pixel of the sample. -/
def splitClass : SPb.Idx ≃ Fin 4 × STb.Idx where
  toFun i := (i 1, ix3 (i 0) (i 2) (i 3))
  invFun q := ix4 (q.2 0) q.1 (q.2 1) (q.2 2)
  left_inv i := (eq_ix4 i).symm
  right_inv q := by
    obtain ⟨c, j⟩ := q
    exact Prod.ext rfl (eq_ix3 j).symm

/-- A sum over a sample's places, pixel by pixel and within a pixel class by class. -/
theorem sum_SPb (G : SPb.Idx → EReal) :
    ∑ i : SPb.Idx, G i = ∑ j : STb.Idx, ∑ c : Fin 4, G (ix4 (j 0) c (j 1) (j 2)) := by
  rw [← Equiv.sum_comp splitClass.symm G, Fintype.sum_prod_type_right]
  rfl

/-- A pixel of the whole array is a sample together with a pixel of that sample (whose sample coordinate,
    on an axis of extent one, is 0). -/
def splitSample : SN.Idx × STb.Idx ≃ ST.Idx where
  toFun q := ix3 (q.1 0) (q.2 1) (q.2 2)
  invFun J := (ix1 (J 0), ix3 0 (J 1) (J 2))
  left_inv q := by
    obtain ⟨n, j⟩ := q
    refine Prod.ext (eq_ix1 n).symm ?_
    funext a
    match a with
    | ⟨0, _⟩ =>
      have h : (j 0).val < 1 := (j 0).isLt
      exact Fin.ext (by show (0 : ℕ) = (j 0).val; omega)
    | ⟨1, _⟩ => rfl
    | ⟨2, _⟩ => rfl
  right_inv J := (eq_ix3 J).symm

/-- The double sum over samples and a sample's pixels is the sum over all pixels. -/
theorem sum_ST (f : ST.Idx → EReal) :
    ∑ n : SN.Idx, ∑ j : STb.Idx, f (ix3 (n 0) (j 1) (j 2)) = ∑ J : ST.Idx, f J := by
  rw [← Equiv.sum_comp splitSample f, Fintype.sum_prod_type]
  rfl

/-! ## One sample, then all of them -/

/-- Sample n's number is the sum over its pixels of the log-probability of the pixel's own label. -/
theorem laneCE_eq (p : SP.Idx → EReal) (t : ST.Idx → BitVec 32) (hp : ∀ I, ∃ r : ℝ, p I = r)
    (ht : ∀ J, (t J).toNat < 4) (n : Fin 16) :
    laneCE (pblk p n) (tblk t n) = ∑ j : STb.Idx, tgtLogp p t (ix3 n (j 1) (j 2)) := by
  unfold laneCE
  rw [sum_SPb]
  -- within a pixel, the four places leave the score at the label's class
  have hsel : ∀ j : STb.Idx, ∑ c : Fin 4, selAt (pblk p n) (tblk t n) (ix4 (j 0) c (j 1) (j 2))
      = p (ix4 n (cls (t (ix3 n (j 1) (j 2)))) (j 1) (j 2)) := fun j =>
    sum_sel (fun c => p (ix4 n c (j 1) (j 2))) (t (ix3 n (j 1) (j 2))) (ht _)
  rw [Finset.sum_congr rfl (fun j _ => hsel j)]
  -- both sums over the pixels have real terms: subtract term by term
  rw [Cert.LibSumAll.sum_sub_sum]
  · refine Finset.sum_congr rfl (fun j _ => ?_)
    obtain ⟨a, ha⟩ := hp (ix4 n (cls (t (ix3 n (j 1) (j 2)))) (j 1) (j 2))
    obtain ⟨m, hm⟩ := mx_real p hp (ix3 n (j 1) (j 2))
    obtain ⟨l, hl⟩ := log_sx_real p hp (ix3 n (j 1) (j 2))
    show p (ix4 n (cls (t (ix3 n (j 1) (j 2)))) (j 1) (j 2)) -
          (Ideal.log (sx p (ix3 n (j 1) (j 2))) + mx p (ix3 n (j 1) (j 2)))
        = (p (ix4 n (cls (t (ix3 n (j 1) (j 2)))) (j 1) (j 2)) - mx p (ix3 n (j 1) (j 2))) -
          Ideal.log (sx p (ix3 n (j 1) (j 2)))
    rw [hl, hm, ha]
    exact sub_lse a m l
  · intro j _
    exact hp _
  · intro j _
    obtain ⟨m, hm⟩ := mx_real p hp (ix3 n (j 1) (j 2))
    obtain ⟨l, hl⟩ := log_sx_real p hp (ix3 n (j 1) (j 2))
    exact ⟨l + m, by rw [pixLse_pblk, hl, hm, EReal.coe_add]⟩

/-- Summed over the 16 samples (from 0), the per-sample numbers give the whole-array sum of the labels'
    log-probabilities (from 0). -/
theorem ce_eq (p : SP.Idx → EReal) (t : ST.Idx → BitVec 32) (hp : ∀ I, ∃ r : ℝ, p I = r)
    (ht : ∀ J, (t J).toNat < 4) :
    c0 + ∑ n : SN.Idx, laneCE (pblk p (n 0)) (tblk t (n 0)) = refCE p t := by
  unfold refCE
  rw [← sum_ST (tgtLogp p t)]
  congr 1
  exact Finset.sum_congr rfl (fun n _ => laneCE_eq p t hp ht (n 0))

end Cert.AlgebraCE

end
-- ==== Proof.AlgebraCount.lean ====
/-
  Counts, label sums and score sums: from one sample at a time to the whole arrays.

  Three facts, all about finite sums.

  * A sample's count of equalities is a sum of zeros and ones, each the signed reading of a widened one-bit
    word. A widened bit is 0 or 1, so its signed and unsigned readings agree; a sum of naturals read as reals
    is the real reading of the natural sum. The places of one sample are exactly the places of the whole
    array whose sample coordinate is that sample, so the per-sample sum is the whole-array sum restricted to
    the sample.
  * Summing the per-sample score sums over the samples gives the sum of all scores (the samples partition the
    places). The same for the labels; a label below 4 reads the same signed and unsigned, so the sum of the
    signed readings is the real reading of the natural sum of the labels. The starting value 0 of a sum
    changes nothing.
  * Dividing by the nonzero real 2²² is multiplying by a real, and a sign passes through a product.
-/
import proofs.«418105_j64226940944624_3_alg».proof.Proof.Spec
import proofs.«418105_j64226940944624_3_alg».proof.Proof.LibSumAll
import proofs.«418105_j64226940944624_3_alg».proof.Proof.Consts
import Idealize.ShloMosaic.PureOps.Ideal.Laws
import Idealize.ShloMosaic.Lib.ValueIdx
import Idealize.ShloMosaic.Lib.StableHlo.Predicate

noncomputable section

namespace Cert.AlgebraCount

open Cert.Spec Idealize.ShloMosaic Idealize.ShloMosaic.ValueIdx

/-! ## One sample's places inside the whole array -/

/-- The sum over one sample's (class, pixel) places is the sum over the places of the whole array whose
    sample coordinate is that sample: place (c, y, x) of sample a is place (a, c, y, x). The restriction is
    given by any predicate that says "the sample coordinate is a". -/
theorem sum_block {M : Type} [AddCommMonoid M] (a : Fin 16) (g : SP.Idx → M)
    (q : SP.Idx → Prop) (D : DecidablePred q) (hq : ∀ I : SP.Idx, q I ↔ (I 0 : Fin 16) = a) :
    ∑ i : SPb.Idx, g (ix4 a (i 1) (i 2) (i 3)) = ∑ I ∈ @Finset.filter _ q D Finset.univ, g I := by
  refine Finset.sum_nbij' (fun i : SPb.Idx => (ix4 a (i 1) (i 2) (i 3) : SP.Idx))
    (fun I : SP.Idx => (ix4 (0 : Fin 1) (I 1) (I 2) (I 3) : SPb.Idx)) ?_ ?_ ?_ ?_ ?_
  · intro i _; exact Finset.mem_filter.mpr ⟨Finset.mem_univ _, (hq _).mpr rfl⟩
  · intro I _; exact Finset.mem_univ _
  · intro i _
    funext e
    match e with
    | ⟨0, _⟩ => exact (Fin.ext (Nat.lt_one_iff.mp (i 0).isLt)).symm
    | ⟨1, _⟩ => rfl
    | ⟨2, _⟩ => rfl
    | ⟨3, _⟩ => rfl
  · intro I hI
    have h0 : (I 0 : Fin 16) = a := (hq I).mp (Finset.mem_filter.mp hI).2
    funext e
    match e with
    | ⟨0, _⟩ => exact h0.symm
    | ⟨1, _⟩ => rfl
    | ⟨2, _⟩ => rfl
    | ⟨3, _⟩ => rfl
  · intro i _; rfl

/-- The same for the labels: pixel (y, x) of sample a is pixel (a, y, x). -/
theorem sum_block3 {M : Type} [AddCommMonoid M] (a : Fin 16) (g : ST.Idx → M)
    (q : ST.Idx → Prop) (D : DecidablePred q) (hq : ∀ J : ST.Idx, q J ↔ (J 0 : Fin 16) = a) :
    ∑ j : STb.Idx, g (ix3 a (j 1) (j 2)) = ∑ J ∈ @Finset.filter _ q D Finset.univ, g J := by
  refine Finset.sum_nbij' (fun j : STb.Idx => (ix3 a (j 1) (j 2) : ST.Idx))
    (fun J : ST.Idx => (ix3 (0 : Fin 1) (J 1) (J 2) : STb.Idx)) ?_ ?_ ?_ ?_ ?_
  · intro j _; exact Finset.mem_filter.mpr ⟨Finset.mem_univ _, (hq _).mpr rfl⟩
  · intro J _; exact Finset.mem_univ _
  · intro j _
    funext e
    match e with
    | ⟨0, _⟩ => exact (Fin.ext (Nat.lt_one_iff.mp (j 0).isLt)).symm
    | ⟨1, _⟩ => rfl
    | ⟨2, _⟩ => rfl
  · intro J hJ
    have h0 : (J 0 : Fin 16) = a := (hq J).mp (Finset.mem_filter.mp hJ).2
    funext e
    match e with
    | ⟨0, _⟩ => exact h0.symm
    | ⟨1, _⟩ => rfl
    | ⟨2, _⟩ => rfl
  · intro j _; rfl

/-- The samples partition the places: summing, over the samples, the sum over a sample's places gives the
    sum over all places. -/
theorem sum_samples {M : Type} [AddCommMonoid M] (g : SP.Idx → M) :
    ∑ n : SN.Idx, ∑ i : SPb.Idx, g (ix4 (n 0) (i 1) (i 2) (i 3)) = ∑ I : SP.Idx, g I := by
  refine Eq.trans ?_ (Finset.sum_fiberwise (Finset.univ : Finset SP.Idx) (fun I => (ix1 (I 0) : SN.Idx)) g)
  refine Finset.sum_congr rfl fun n _ => ?_
  exact sum_block (n 0) g _ _ (fun I =>
    ⟨fun h => congrFun h 0, fun h => (congrArg (ix1 (n := 16)) h).trans (eq_ix1 n).symm⟩)

/-- The same for the pixels of the label array. -/
theorem sum_samples3 {M : Type} [AddCommMonoid M] (g : ST.Idx → M) :
    ∑ n : SN.Idx, ∑ j : STb.Idx, g (ix3 (n 0) (j 1) (j 2)) = ∑ J : ST.Idx, g J := by
  refine Eq.trans ?_ (Finset.sum_fiberwise (Finset.univ : Finset ST.Idx) (fun J => (ix1 (J 0) : SN.Idx)) g)
  refine Finset.sum_congr rfl fun n _ => ?_
  exact sum_block3 (n 0) g _ _ (fun J =>
    ⟨fun h => congrFun h 0, fun h => (congrArg (ix1 (n := 16)) h).trans (eq_ix1 n).symm⟩)

/-! ## The count of equalities -/

/-- A widened one-bit word is 0 or 1, so its signed reading is its unsigned one. -/
theorem toInt_widen (b : BitVec 1) : (b.setWidth 32).toInt = ((b.setWidth 32).toNat : ℤ) := by
  rcases BitVec.eq_zero_or_eq_one b with rfl | rfl <;> rfl

/-- The comparison's widened bit reads the same signed and unsigned. -/
theorem eqWord_toInt (p : SP.Idx → EReal) (t : ST.Idx → BitVec 32) (I : SP.Idx) :
    (eqWord p t I).toInt = ((eqWord p t I).toNat : ℤ) := toInt_widen _

theorem count_eq (p : SP.Idx → EReal) (t : ST.Idx → BitVec 32) (n : SN.Idx) :
    laneEq (pblk p (n 0)) (tblk t (n 0)) = refCount p t n := by
  show ∑ i : SPb.Idx, eqAt (pblk p (n 0)) (tblk t (n 0)) i = _
  unfold refCount
  rw [Nat.cast_sum, LibSumAll.coe_sum]
  refine Eq.trans ?_
    (sum_block (n 0) (fun I => (((eqWord p t I).toNat : ℝ) : EReal)) _ _ (fun I => Iff.rfl))
  refine Finset.sum_congr rfl fun i _ => ?_
  show ((((eqWord p t (ix4 (n 0) (i 1) (i 2) (i 3))).toInt : ℝ)) : EReal)
    = (((eqWord p t (ix4 (n 0) (i 1) (i 2) (i 3))).toNat : ℝ) : EReal)
  rw [eqWord_toInt, Int.cast_natCast]

/-! ## The union: all scores plus all labels -/

/-- The per-sample score sums add up to the sum of all scores. -/
theorem preds_total (p : SP.Idx → EReal) : ∑ n : SN.Idx, lanePreds (pblk p (n 0)) = ∑ I : SP.Idx, p I :=
  sum_samples p

/-- The per-sample label sums add up to the sum of all labels, each read as a signed integer. -/
theorem tgts_total (t : ST.Idx → BitVec 32) :
    ∑ n : SN.Idx, laneTgts (tblk t (n 0)) = ∑ J : ST.Idx, (((t J).toInt : ℝ) : EReal) :=
  sum_samples3 (fun J => (((t J).toInt : ℝ) : EReal))

/-- With every label below 4, the label sums (from 0) are the real reading of the natural sum of the labels:
    a small word reads the same signed and unsigned, and the readings pass through the sum. -/
theorem tgts_nat (t : ST.Idx → BitVec 32) (ht : ∀ J, (t J).toNat < 4) :
    c0 + ∑ n : SN.Idx, laneTgts (tblk t (n 0)) = (((∑ J : ST.Idx, (t J).toNat : ℕ) : ℝ) : EReal) := by
  have hc0 : c0 = 0 := Ideal.ofBits_zero_f32
  have hlab : ∀ J : ST.Idx, (((t J).toInt : ℝ) : EReal) = ((((t J).toNat : ℕ) : ℝ) : EReal) := fun J => by
    rw [StableHlo.Predicate.toInt_eq_toNat_of_lt (by have := ht J; omega), Int.cast_natCast]
  rw [hc0, zero_add, tgts_total, Nat.cast_sum, LibSumAll.coe_sum]
  exact Finset.sum_congr rfl fun J _ => hlab J

theorem union_eq (p : SP.Idx → EReal) (t : ST.Idx → BitVec 32) (ht : ∀ J, (t J).toNat < 4) :
    (c0 + ∑ n : SN.Idx, lanePreds (pblk p (n 0))) + (c0 + ∑ n : SN.Idx, laneTgts (tblk t (n 0)))
      = refUnion p t := by
  rw [preds_total, tgts_nat t ht]
  rfl

/-! ## The sign through the division by 2²² -/

/-- The word 0x4A800000 is the real number 2²² = 4194304: sign bit 0, exponent field 149, fraction 0, so
    the value is 2²³ · 2^(149 − 127 − 23) = 2²². -/
theorem cNHW_eq : cNHW = ((4194304 : ℝ) : EReal) := Cert.Consts.nhw_bits

theorem neg_div_comm (S : EReal) : Ideal.div (-S) cNHW = -(Ideal.div S cNHW) := by
  have h : (4194304 : ℝ) ≠ 0 := by norm_num
  rw [cNHW_eq, Ideal.div_coe h, Ideal.div_coe h, EReal.neg_mul]

end Cert.AlgebraCount

end
-- ==== Proof.LossEq.lean ====
/-
  The two tails agree.

  With every score a real number and every label one of the classes 0..3:  the per-sample cross-entropy sums add
  up to the whole-array sum of label log-probabilities; the per-sample counts are the whole-array counts sample by
  sample; the per-sample score and label sums add up to the union; and −(S) / 2²² = −(S / 2²²) because dividing by
  the nonzero real 2²² is multiplying by a real. So `lossK` of the per-sample numbers is `lossR` of the whole-array
  numbers.
-/
import proofs.«418105_j64226940944624_3_alg».proof.Proof.Spec
import proofs.«418105_j64226940944624_3_alg».proof.Proof.AlgebraCE
import proofs.«418105_j64226940944624_3_alg».proof.Proof.AlgebraCount

noncomputable section

namespace Cert.LossEq

open Cert.Spec Idealize.ShloMosaic Idealize.ShloMosaic.ValueIdx

theorem loss_eq (p : SP.Idx → EReal) (t : ST.Idx → BitVec 32) (hp : ∀ I, ∃ r : ℝ, p I = r) (ht : ∀ J, (t J).toNat < 4) :
    lossK (fun n => laneCE (pblk p (n 0)) (tblk t (n 0))) (fun n => lanePreds (pblk p (n 0)))
        (fun n => laneTgts (tblk t (n 0))) (fun n => laneEq (pblk p (n 0)) (tblk t (n 0)))
      = lossR (refCE p t) (refCount p t) (refUnion p t) := by
  have hD : (fun n : SN.Idx => laneEq (pblk p (n 0)) (tblk t (n 0))) = refCount p t :=
    funext (Cert.AlgebraCount.count_eq p t)
  show cHalf * Ideal.div (-(c0 + ∑ n : SN.Idx, laneCE (pblk p (n 0)) (tblk t (n 0)))) cNHW
      + cHalf * dice (fun n : SN.Idx => laneEq (pblk p (n 0)) (tblk t (n 0)))
          ((c0 + ∑ n : SN.Idx, lanePreds (pblk p (n 0))) + (c0 + ∑ n : SN.Idx, laneTgts (tblk t (n 0))))
    = cHalf * (-(Ideal.div (refCE p t) cNHW)) + cHalf * dice (refCount p t) (refUnion p t)
  rw [Cert.AlgebraCE.ce_eq p t hp ht, Cert.AlgebraCount.union_eq p t ht, Cert.AlgebraCount.neg_div_comm, hD]

end Cert.LossEq

end
-- ==== Proof.PreDecode.lean ====
/-
  The precondition read back.

  The printed predicate is one bit: (every |score| < +∞) and (every label ≥ 0 and < 4, as signed integers),
  each "every" a reduction by "and" of a one-bit array over all of its axes. If that bit is 1 then both
  reductions are 1, so every element bit is 1, and an element bit says of its score, or of its label word:

    • |x| < +∞, where |x| = max x (−x) in the extended reals: neither infinity satisfies it (|±∞| = +∞), so x is
      a real number;
    • 0 ≤ w and w < 4 as signed 32-bit integers: a word whose top bit is set reads as a negative integer, so w is
      one of the words 0, 1, 2, 3 and its unsigned value is below 4.
-/
import proofs.«418105_j64226940944624_3_alg».proof.Proof.Gen.Pre_finite_inputs
import proofs.«418105_j64226940944624_3_alg».proof.Proof.Spec
import proofs.«418105_j64226940944624_3_alg».proof.Proof.Consts
import Idealize.ShloMosaic.Lib.ReduceAll
import Idealize.ShloMosaic.Lib.StableHlo.Predicate
import Idealize.ShloMosaic.PureOps.Ideal.Laws
import Idealize.ShloMosaic.Lib.ValueIdx

noncomputable section

namespace Cert.PreDecode

open Cert.Spec Idealize.ShloMosaic Idealize.ShloMosaic.ValueIdx

/-- The shape of no axes has exactly one index. -/
instance : Subsingleton Cert.Pre_finite_inputs.S_.Idx := ⟨fun _ _ => funext fun d => d.elim0⟩

/-- The pattern 0x7F800000 — sign 0, exponent all ones, fraction 0 — denotes +∞. -/
theorem inf_bits : Ideal.ofBits .f32 0x7F800000#32 = (⊤ : EReal) := Cert.Consts.inf_bits

/-- |x| < +∞ is false at both infinities, whose absolute value max x (−x) is +∞: x is a real number. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- A 32-bit word with 0 ≤ w and w < 4 as signed integers is below 4 as an unsigned one: were its unsigned value
    2³¹ or more, its signed value would be that minus 2³², a negative number. -/
theorem lt_four (w : BitVec 32)
    (h : IntOp.andi (IntOp.cmpi .sge w 0#32) (IntOp.cmpi .slt w 4#32) = 1#1) : w.toNat < 4 := by
  obtain ⟨h1, h2⟩ := IntOp.andi_eq_one.1 h
  have g1 : (0#32).toInt ≤ w.toInt := IntOp.cmpi_sge.1 h1
  have g2 : w.toInt < (4#32).toInt := IntOp.cmpi_slt.1 h2
  have z0 : (0#32).toInt = 0 := by decide
  have z4 : (4#32).toInt = 4 := by decide
  rw [z0] at g1
  rw [z4] at g2
  rw [BitVec.toInt_eq_toNat_cond] at g1 g2
  have hw := w.isLt
  split at g1 <;> omega

/-- If the printed precondition holds then every score is a real number and every label word is below 4. -/
theorem of_pre (p : SP.Idx → EReal) (t : ST.Idx → BitVec 32)
    (h : Cert.Pre_finite_inputs.fn (F := Ideal) p t = (fun _ => 1#1)) :
    (∀ I : SP.Idx, ∃ r : ℝ, p I = r) ∧ (∀ J : ST.Idx, (t J).toNat < 4) := by
  have h0 := congrFun h ix0
  dsimp only [Cert.Pre_finite_inputs.fn] at h0
  -- the last "and" of the two reductions' bits is 1: both are
  obtain ⟨ha, hb⟩ := IntOp.andi_eq_one.1 h0
  constructor
  · intro I
    -- the reduction over every axis is 1: the bit of |p I| < +∞ is 1
    have e := Host.reduce_andi_all _ _ _ _ _ ha I
    refine real_of_abs_lt_top (p I) ?_
    rw [← inf_bits]
    exact e
  · intro J
    -- likewise the bit of (t J ≥ 0) and (t J < 4)
    have e := Host.reduce_andi_all _ _ _ _ _ hb J
    exact lt_four (t J) e

end Cert.PreDecode

end
-- ==== Proof.lean ====
/-
  The certificate's claim: the kernel program, its reading at the extended reals and the reference all run to the end
  without touching their arguments, and the two idealized programs end with equal results.

  The programs compute  ½ · CE + ½ · Dice  of class scores (16 × 4 × 512 × 512) and labels (16 × 512 × 512):
  CE the mean over all pixels of −log-softmax at the pixel's label, Dice = 1 − mean over samples of
  (2 · count + ε) / (union + ε), count a sample's number of places where the score equals the label read as a number,
  union the sum of all scores plus the sum of all labels. The precondition says every score is finite and every label is
  one of the classes 0, 1, 2, 3 (outside that range the reference's gather reads a wrapped or a filled value, and its
  integer label sum may wrap; the labels are class indices).

  The kernel goes sample by sample: one grid point per sample writes a row whose lanes 0..3 hold the sample's sum of
  label scores minus its sum of log-sum-exps, its score sum, its label sum and its count (Proof/KernelLanes.lean); the
  rows are the output array (Proof/KernelArray.lean) and the operations after the kernel combine them
  (Proof/KernelTail.lean, Proof/KernelValue.lean). The reference works on whole arrays (Proof/RefAfter.lean,
  Proof/RefValue.lean). That the two agree is arithmetic on finite sums of real numbers — the one-hot sum over the
  classes picks the label's score, a − (l + m) = (a − m) − l, integer sums that cannot wrap convert term by term —
  (Proof/AlgebraCE.lean, Proof/AlgebraCount.lean, Proof/LossEq.lean), under the two facts the precondition gives
  (Proof/PreDecode.lean). The ideal pass rewrote nothing in the kernel, so there is nothing to preserve.
-/
import proofs.«418105_j64226940944624_3_alg».proof.Defs
import proofs.«418105_j64226940944624_3_alg».proof.Proof.Gen.Kernel
import proofs.«418105_j64226940944624_3_alg».proof.Proof.Gen.Kernel.Skeleton
import proofs.«418105_j64226940944624_3_alg».proof.Proof.Gen.Kernel.Launch
import proofs.«418105_j64226940944624_3_alg».proof.Proof.Gen.Kernel.Points
import proofs.«418105_j64226940944624_3_alg».proof.Proof.Gen.Kernel.Frame
import proofs.«418105_j64226940944624_3_alg».proof.Proof.Gen.KernelIdeal
import proofs.«418105_j64226940944624_3_alg».proof.Proof.Gen.KernelIdeal.Skeleton
import proofs.«418105_j64226940944624_3_alg».proof.Proof.Gen.KernelIdeal.Launch
import proofs.«418105_j64226940944624_3_alg».proof.Proof.Gen.KernelIdeal.Points
import proofs.«418105_j64226940944624_3_alg».proof.Proof.Gen.KernelIdeal.Frame
import proofs.«418105_j64226940944624_3_alg».proof.Proof.Gen.ReferenceIdeal
import proofs.«418105_j64226940944624_3_alg».proof.Proof.Gen.Pre_finite_inputs
import proofs.«418105_j64226940944624_3_alg».proof.Proof.KernelValue
import proofs.«418105_j64226940944624_3_alg».proof.Proof.RefRunValue
import proofs.«418105_j64226940944624_3_alg».proof.Proof.RefValue
import proofs.«418105_j64226940944624_3_alg».proof.Proof.LossEq
import proofs.«418105_j64226940944624_3_alg».proof.Proof.PreDecode
import Idealize.ShloMosaic.Adequacy
import Idealize.ShloMosaic.Init

noncomputable section

namespace Cert.Proof

open Idealize.ShloMosaic Idealize.ShloMosaic.ValueIdx Idealize.SL.Sem

/-- The reference runs to the end and leaves its arguments as launched: its run, the result dropped. -/
theorem frame_ri : Cert.frame_ReferenceIdeal := fun m ρ _ =>
  (θ_run Cert.ReferenceIdeal.defs _ _).mono (fun _ h c => (h c).2) (Cert.ReferenceIdeal.RunValue.run (F := Ideal) m ρ)

/-- Both idealized programs end at `lossR` of the whole-array numbers of the launch arrays: the kernel's per-sample
    tail equals it under the precondition's two facts, and the reference's last stage is it under the label range;
    the two programs' launch arrays agree. -/
theorem algebraic : Cert.algebraic_KernelIdeal_ReferenceIdeal := by
  intro m ρ m' ρ' hpre hagree
  have hfac : ∀ c : Dev Cert.KernelIdeal.nD,
      (∀ I, ∃ r : ℝ, Cert.KernelIdeal.RunValue.scores m c I = r) ∧ (∀ J, (Cert.KernelIdeal.RunValue.labels m c J).toNat < 4) :=
    fun c => Cert.PreDecode.of_pre _ _ (hpre c)
  refine ⟨fun c => fun _ => Cert.Spec.lossR
      (Cert.Spec.refCE (Cert.KernelIdeal.RunValue.scores m c) (Cert.KernelIdeal.RunValue.labels m c))
      (Cert.Spec.refCount (Cert.KernelIdeal.RunValue.scores m c) (Cert.KernelIdeal.RunValue.labels m c))
      (Cert.Spec.refUnion (Cert.KernelIdeal.RunValue.scores m c) (Cert.KernelIdeal.RunValue.labels m c)), ?_, ?_⟩
  · exact (θ_run Cert.KernelIdeal.defs _ _).mono (fun r h c =>
      ⟨(h c).1.trans (funext fun _ => Cert.LossEq.loss_eq _ _ (hfac c).1 (hfac c).2), (h c).2.1, (h c).2.2⟩)
      (Cert.KernelIdeal.RunValue.run m ρ)
  · refine (θ_run Cert.ReferenceIdeal.defs _ _).mono (fun r h c => ⟨(h c).1.trans ?_, (h c).2.1, (h c).2.2⟩)
      (Cert.ReferenceIdeal.RunValue.run (F := Ideal) m' ρ')
    rw [(hagree c).1, (hagree c).2]
    funext j
    rw [eq_ix0 j]
    exact Cert.ReferenceIdeal.RefValue.ref_value _ _ (hfac c).2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
